-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1 : Shape := ⟨2, ![16384, 1]⟩
abbrev S16384x16384 : Shape := ⟨2, ![16384, 16384]⟩
abbrev S1x32 : Shape := ⟨2, ![1, 32]⟩
abbrev S32x32 : Shape := ⟨2, ![32, 32]⟩
abbrev S32x1 : Shape := ⟨2, ![32, 1]⟩
abbrev S_ : Shape := ⟨0, ![]⟩

class Facts : Prop where
  bcast_S_S16384x1 : S_.BroadcastsInDim S16384x1 (![] : Fin 0 → Fin S16384x1.rank)
  reducesTo_S16384x1_S_d0_1 : S16384x1.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S1x32 : S_.BroadcastsInDim S1x32 (![] : Fin 0 → Fin S1x32.rank)
  reducesTo_S1x32_S_d0_1 : S1x32.ReducesTo [0, 1] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_

variable [Facts]

def fn_part1 {F : FTy → Type} [FloatOps F] (main_arg4 : FVec F S32x1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32x1 .f32 := Host.absf main_arg4
  let main_cst_6 : FVec F S_ .f32 := constant S_ .f32 0x7F800000#32
  let main_v20 : FVec F S32x1 .f32 := broadcastInDim S32x1 ![] bcast_S_S32x1 main_cst_6
  let main_v21 : IVec S32x1 1 := cmpf .olt main_v19 main_v20
  let main_c_7 : IVec S_ 1 := constantI S_ 1 1#1
  let main_v22 : IVec S_ 1 := (fun x v => Host.reduce IntOp.andi x v reducesTo_S32x1_S_d0_1 h_S_) main_v21 main_c_7
  let main_v23 : IVec S_ 1 := andi main_v18 main_v22
  main_v23

def fn {F : FTy → Type} [FloatOps F] (main_arg0 : FVec F S16384x1 .f32) (main_arg1 : FVec F S16384x16384 .f32) (main_arg2 : FVec F S1x32 .f32) (main_arg3 : FVec F S32x32 .f32) (main_arg4 : FVec F S32x1 .f32) : IVec S_ 1 :=
  let main_v0 : FVec F S16384x1 .f32 := Host.absf main_arg0
  let main_cst : FVec F S_ .f32 := constant S_ .f32 0x7F800000#32
  let main_v1 : FVec F S16384x1 .f32 := broadcastInDim S16384x1 ![] bcast_S_S16384x1 main_cst
  let main_v2 : IVec S16384x1 1 := cmpf .olt main_v0 main_v1
  let main_c : IVec S_ 1 := constantI S_ 1 1#1
  let main_v3 : IVec S_ 1 := (fun x v => Host.reduce IntOp.andi x v reducesTo_S16384x1_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_v13 main_v16
-- ==== Kernel.lean ====
abbrev S16384x1 : Shape := ⟨2, ![16384, 1]⟩
abbrev S16384x16384 : Shape := ⟨2, ![16384, 16384]⟩
abbrev S1x32 : Shape := ⟨2, ![1, 32]⟩
abbrev S32x32 : Shape := ⟨2, ![32, 32]⟩
abbrev S32x1 : Shape := ⟨2, ![32, 1]⟩
abbrev S16384x32 : Shape := ⟨2, ![16384, 32]⟩
abbrev S1024x2048 : Shape := ⟨2, ![1024, 2048]⟩
abbrev S2048x32 : Shape := ⟨2, ![2048, 32]⟩
abbrev S1024x32 : Shape := ⟨2, ![1024, 32]⟩
abbrev S2048x1 : Shape := ⟨2, ![2048, 1]⟩
abbrev S1024x1 : Shape := ⟨2, ![1024, 1]⟩

abbrev nBuf : Space → Nat
  | .hbm => 11
  | .vmem => 21
  | .smem => 0
  | _ => 0

abbrev bufTy : (tb : Table) → Fin (tcTables nBuf tb) → BufTy
  | .hbm, ⟨0, _⟩ => ⟨S16384x1, .f32⟩
  | .hbm, ⟨1, _⟩ => ⟨S16384x16384, .f32⟩
  | .hbm, ⟨2, _⟩ => ⟨S1x32, .f32⟩
  | .hbm, ⟨3, _⟩ => ⟨S32x32, .f32⟩
  | .hbm, ⟨4, _⟩ => ⟨S32x1, .f32⟩
  | .hbm, ⟨5, _⟩ => ⟨S16384x32, .f32⟩
  | .hbm, ⟨6, _⟩ => ⟨S16384x32, .f32⟩
  | .hbm, ⟨7, _⟩ => ⟨S16384x32, .f32⟩
  | .hbm, ⟨8, _⟩ => ⟨S16384x32, .f32⟩
  | .hbm, ⟨9, _⟩ => ⟨S16384x1, .f32⟩
  | .hbm, ⟨10, _⟩ => ⟨S16384x1, .f32⟩
  | .local _ .vmem, ⟨0, _⟩ => ⟨S1024x2048, .f32⟩
  | .local _ .vmem, ⟨1, _⟩ => ⟨S1024x2048, .f32⟩
  | .local _ .vmem, ⟨2, _⟩ => ⟨S2048x32, .f32⟩
  | .local _ .vmem, ⟨3, _⟩ => ⟨S2048x32, .f32⟩
  | .local _ .vmem, ⟨4, _⟩ => ⟨S1024x32, .f32⟩
  | .local _ .vmem, ⟨5, _⟩ => ⟨S1024x32, .f32⟩
  | .local _ .vmem, ⟨6, _⟩ => ⟨S1024x32, .f32⟩
  | .local _ .vmem, ⟨7, _⟩ => ⟨S1024x2048, .f32⟩
  | .local _ .vmem, ⟨8, _⟩ => ⟨S1024x2048, .f32⟩
  | .local _ .vmem, ⟨9, _⟩ => ⟨S2048x32, .f32⟩
  | .local _ .vmem, ⟨10, _⟩ => ⟨S2048x32, .f32⟩
  | .local _ .vmem, ⟨11, _⟩ => ⟨S1024x32, .f32⟩
  | .local _ .vmem, ⟨12, _⟩ => ⟨S1024x32, .f32⟩
  | .local _ .vmem, ⟨13, _⟩ => ⟨S1024x32, .f32⟩
  | .local _ .vmem, ⟨14, _⟩ => ⟨S1024x2048, .f32⟩
  | .local _ .vmem, ⟨15, _⟩ => ⟨S1024x2048, .f32⟩
  | .local _ .vmem, ⟨16, _⟩ => ⟨S2048x1, .f32⟩
  | .local _ .vmem, ⟨17, _⟩ => ⟨S2048x1, .f32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | _, _ => ⟨S16384x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![16, 8], ![false, false]⟩

def k2_cond2 (i : grid2.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  dot_S16384x1_S1x32_S16384x32_1_0_0_1_n_n_wf : DotDims.WF S16384x1 S1x32 S16384x32 [1] [0] [0] [1] [] []
  dot_S1024x2048_S2048x32_S1024x32_1_0_0_1_n_n_wf : DotDims.WF S1024x2048 S2048x32 S1024x32 [1] [0] [0] [1] [] []
  dot_S16384x32_S32x32_S16384x32_1_0_0_1_n_n_wf : DotDims.WF S16384x32 S32x32 S16384x32 [1] [0] [0] [1] [] []
  dot_S16384x32_S32x1_S16384x1_1_0_0_1_n_n_wf : DotDims.WF S16384x32 S32x1 S16384x1 [1] [0] [0] [1] [] []
  dot_S1024x2048_S2048x1_S1024x1_1_0_0_1_n_n_wf : DotDims.WF S1024x2048 S2048x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x32.size a ≤ S16384x32.size a
  hwx0_1 : ∀ i : grid0.Coords, EltTy.bits .f32 = 32 ∨ (Rect.block (s := S16384x32) S2048x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S16384x32.size a
  hwx0_2 : ∀ i : grid0.Coords, EltTy.bits .f32 = 32 ∨ (Rect.block (s := S16384x32) S1024x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x32.size a ≤ S16384x32.size a
  hwx1_1 : ∀ i : grid1.Coords, EltTy.bits .f32 = 32 ∨ (Rect.block (s := S16384x32) S2048x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x32.size a ≤ S16384x32.size a
  hwx1_2 : ∀ i : grid1.Coords, EltTy.bits .f32 = 32 ∨ (Rect.block (s := S16384x32) S1024x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S16384x16384.size a
  hwx2_0 : ∀ i : grid2.Coords, EltTy.bits .f32 = 32 ∨ (Rect.block (s := S16384x16384) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1.size a ≤ S16384x1.size a
  hwx2_1 : ∀ i : grid2.Coords, EltTy.bits .f32 = 32 ∨ (Rect.block (s := S16384x1) S2048x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S16384x1.size a
  hwx2_2 : ∀ i : grid2.Coords, EltTy.bits .f32 = 32 ∨ (Rect.block (s := S16384x1) S1024x1.size (cc2_transform_2 i) (hinb2_2 i)).WholeWords (EltTy.packing .f32)

variable [Facts₀]

def dot_S16384x1_S1x32_S16384x32_1_0_0_1_n_n : DotDims S16384x1 S1x32 S16384x32 where
  lhsContracting := [1]
  rhsContracting := [0]
  lhsNonContracting := [0]
  rhsNonContracting := [1]
  lhsBatch := []
  rhsBatch := []
  wf := dot_S16384x1_S1x32_S16384x32_1_0_0_1_n_n_wf
def dot_S1024x2048_S2048x32_S1024x32_1_0_0_1_n_n : DotDims S1024x2048 S2048x32 S1024x32 where
  lhsContracting := [1]
  rhsContracting := [0]
  lhsNonContracting := [0]
  rhsNonContracting := [1]
  lhsBatch := []
  rhsBatch := []
  wf := dot_S1024x2048_S2048x32_S1024x32_1_0_0_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf
def dot_S1024x2048_S2048x1_S1024x1_1_0_0_1_n_n : DotDims S1024x2048 S2048x1 S1024x1 where
  lhsContracting := [1]
  rhsContracting := [0]
  lhsNonContracting := [0]
  rhsNonContracting := [1]
  lhsBatch := []
  rhsBatch := []
  wf := dot_S1024x2048_S2048x1_S1024x1_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg1) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S2048x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1024x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S16384x1 : Shape := ⟨2, ![16384, 1]⟩
abbrev S16384x16384 : Shape := ⟨2, ![16384, 16384]⟩
abbrev S1x32 : Shape := ⟨2, ![1, 32]⟩
abbrev S32x32 : Shape := ⟨2, ![32, 32]⟩
abbrev S32x1 : Shape := ⟨2, ![32, 1]⟩
abbrev S16384x32 : Shape := ⟨2, ![16384, 32]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16384x1, .f32⟩
  | .hbm, ⟨1, _⟩ => ⟨S16384x16384, .f32⟩
  | .hbm, ⟨2, _⟩ => ⟨S1x32, .f32⟩
  | .hbm, ⟨3, _⟩ => ⟨S32x32, .f32⟩
  | .hbm, ⟨4, _⟩ => ⟨S32x1, .f32⟩
  | .hbm, ⟨5, _⟩ => ⟨S16384x32, .f32⟩
  | .hbm, ⟨6, _⟩ => ⟨S16384x32, .f32⟩
  | .hbm, ⟨7, _⟩ => ⟨S_, .f32⟩
  | .hbm, ⟨8, _⟩ => ⟨S16384x32, .f32⟩
  | .hbm, ⟨9, _⟩ => ⟨S16384x32, .f32⟩
  | .hbm, ⟨10, _⟩ => ⟨S16384x32, .f32⟩
  | .hbm, ⟨11, _⟩ => ⟨S16384x32, .f32⟩
  | .hbm, ⟨12, _⟩ => ⟨S_, .f32⟩
  | .hbm, ⟨13, _⟩ => ⟨S16384x32, .f32⟩
  | .hbm, ⟨14, _⟩ => ⟨S16384x32, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | _, _ => ⟨S16384x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_cst : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bcast_S_S16384x32 : S_.BroadcastsInDim S16384x32 (![] : Fin 0 → Fin S16384x32.rank)
  bcast_S_S16384x1 : S_.BroadcastsInDim S16384x1 (![] : Fin 0 → Fin S16384x1.rank)
  dot_S16384x1_S1x32_S16384x32_1_0_0_1_n_n_wf : DotDims.WF S16384x1 S1x32 S16384x32 [1] [0] [0] [1] [] []
  dot_S16384x16384_S16384x32_S16384x32_1_0_0_1_n_n_wf : DotDims.WF S16384x16384 S16384x32 S16384x32 [1] [0] [0] [1] [] []
  dot_S16384x32_S32x32_S16384x32_1_0_0_1_n_n_wf : DotDims.WF S16384x32 S32x32 S16384x32 [1] [0] [0] [1] [] []
  dot_S16384x32_S32x1_S16384x1_1_0_0_1_n_n_wf : DotDims.WF S16384x32 S32x1 S16384x1 [1] [0] [0] [1] [] []
  dot_S16384x16384_S16384x1_S16384x1_1_0_0_1_n_n_wf : DotDims.WF S16384x16384 S16384x1 S16384x1 [1] [0] [0] [1] [] []

variable [Facts₀]

def dot_S16384x1_S1x32_S16384x32_1_0_0_1_n_n : DotDims S16384x1 S1x32 S16384x32 where
  lhsContracting := [1]
  rhsContracting := [0]
  lhsNonContracting := [0]
  rhsNonContracting := [1]
  lhsBatch := []
  rhsBatch := []
  wf := dot_S16384x1_S1x32_S16384x32_1_0_0_1_n_n_wf
def dot_S16384x16384_S16384x32_S16384x32_1_0_0_1_n_n : DotDims S16384x16384 S16384x32 S16384x32 where
  lhsContracting := [1]
  rhsContracting := [0]
  lhsNonContracting := [0]
  rhsNonContracting := [1]
  lhsBatch := []
  rhsBatch := []
  wf := dot_S16384x16384_S16384x32_S16384x32_1_0_0_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf
def dot_S16384x16384_S16384x1_S16384x1_1_0_0_1_n_n : DotDims S16384x16384 S16384x1 S16384x1 where
  lhsContracting := [1]
  rhsContracting := [0]
  lhsNonContracting := [0]
  rhsNonContracting := [1]
  lhsBatch := []
  rhsBatch := []
  wf := dot_S16384x16384_S16384x1_S16384x1_1_0_0_1_n_n_wf

class Facts : Prop extends Facts₀ where

variable [Facts]
-- ==== Proof.K.Body0.lean ====
/-
  One call of the streaming product `adj · X`, followed through the pipeline: what the kernel's body does to its
  accumulator and to the output's staging buffer at each of the 128 grid points, as separation-logic triples, and
  the pipeline library's proof data and body obligation over them. Stated for any float instance `F`.
-/
import proofs.«146614_j73212012528270_1_alg».proof.Proof.Gen.Kernel.Launch
import proofs.«146614_j73212012528270_1_alg».proof.Proof.Gen.Kernel.Skeleton
import proofs.«146614_j73212012528270_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0 (custom_call 0): one row block of `adj` times the operand, accumulated along the grid's second axis

The grid is 16 × 8, row-major: point `t` is row block `t / 8`, reduction block `t % 8`. At every point the body
adds to a scratch accumulator the product of the staged `1024 × 2048` block of `adj` with the staged
`2048 × 32` block of the operand; where `t % 8 = 0` it first clears the accumulator; where `t % 8 = 7` it
then stores the activation of the accumulator into the output's staging buffer, which is written back there and
nowhere else. Everything is stated at a parameter `V`: core `c`'s unscoped buffers as the region finds them. -/

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point (fetched at every point, uncut, never idle),
    for any proof data over `V`'s arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region

/-! ## The two conditions of the body, and where they hold on the grid -/

/-- "this is the first reduction block": the accumulator is cleared. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- "this is the last reduction block": the output is stored. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The body on any whole staging memrefs, case by case -/

/-- The scratch accumulator: a whole scoped buffer of the kernel's own. -/
abbrev scM0 : Memref sig .tc .vmem S1024x32 .f32 := Memref.whole cc0_scratch0

theorem hzero0 : (![0, 0] : Fin 2 → ℕ) = fun _ => 0 := by funext a; fin_cases a <;> rfl

set_option maxHeartbeats 2000000 in
/-- First reduction block: the accumulator, whatever it held, ends at the product added to the cleared accumulator;
    the output's staging buffer is not touched. -/
theorem body0_first (c : Dev nD) (E : Set ℕ) (i : grid0.Coords)
    (arg2 : Memref sig .tc .vmem S1024x2048 .f32) (harg2 : arg2.IsWhole) (arg3 : Memref sig .tc .vmem S2048x32 .f32) (harg3 : arg3.IsWhole)
    (arg4 : Memref sig .tc .vmem S1024x32 .f32) (harg4 : arg4.IsWhole) (arg5 : Memref sig .tc .vmem S1024x32 .f32) (harg5 : arg5.IsWhole)
    (x0 : Vec F S1024x2048 .f32) (x1 : Vec F S2048x32 .f32) (K : PUnit → sProp 𝕄)
    (hc0 : cond0_0 i) (hc1 : ¬cond0_1 i) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k0_pay2 x0 x1 (k0_pay1 (F := F)))) -∗ K ⟨⟩))
      ⊢ wp frame (wpE (defs₀ (F := F)) Variants.none c none) E (cc0__adj_matmul_kernel i arg2 harg2 arg3 harg3 arg4 harg4 arg5 harg5) K := by
  simp only [cc0__adj_matmul_kernel_eq_skeleton]; unfold cc0__adj_matmul_kernel_skel
  unfold owns
  iintro ⟨⟨%f0, %hf0, H0⟩, ⟨%f1, %hf1, H1⟩, ⟨%d5, %f5, -, H5⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H5
  ipureintro
  try sl_unfold_words
  rw [View.read_writes_eq_canon _ _ _ (fun y => by refine ⟨_, List.mem_cons_self, ?_⟩; dsimp only; exact View.mem_set_unit_zero hzero0 _ y),
    View.canon_cons_unit_zero (S := S1024x32) hzero0]
  simp only [View.readAt_eq_ld, harg2.read_unread, harg3.read_unread, View.ld_unit_zero (S := S1024x2048) hzero0,
    View.ld_unit_zero (S := S2048x32) hzero0, View.readCov_unit_zero (S := S1024x32) _ hzero0]

set_option maxHeartbeats 2000000 in
/-- A middle reduction block: the accumulator at `s` ends at `s` plus the product; the output's staging buffer is not touched. -/
theorem body0_mid (c : Dev nD) (E : Set ℕ) (i : grid0.Coords)
    (arg2 : Memref sig .tc .vmem S1024x2048 .f32) (harg2 : arg2.IsWhole) (arg3 : Memref sig .tc .vmem S2048x32 .f32) (harg3 : arg3.IsWhole)
    (arg4 : Memref sig .tc .vmem S1024x32 .f32) (harg4 : arg4.IsWhole) (arg5 : Memref sig .tc .vmem S1024x32 .f32) (harg5 : arg5.IsWhole)
    (x0 : Vec F S1024x2048 .f32) (x1 : Vec F S2048x32 .f32) (K : PUnit → sProp 𝕄)
    (hc0 : ¬cond0_0 i) (hc1 : ¬cond0_1 i) (s : Vec F S1024x32 .f32) :
    iprop(owns (c : Thread nD τ) arg2 fullShare x0 ∗ owns (c : Thread nD τ) arg3 fullShare x1 ∗ owns (c : Thread nD τ) arg5 fullShare s
        ∗ (iprop(owns (c : Thread nD τ) arg2 fullShare x0 ∗ owns (c : Thread nD τ) arg3 fullShare x1
            ∗ owns (c : Thread nD τ) arg5 fullShare (k0_pay2 x0 x1 s)) -∗ K ⟨⟩))
      ⊢ wp frame (wpE (defs₀ (F := F)) Variants.none c none) E (cc0__adj_matmul_kernel i arg2 harg2 arg3 harg3 arg4 harg4 arg5 harg5) K := by
  simp only [cc0__adj_matmul_kernel_eq_skeleton]; unfold cc0__adj_matmul_kernel_skel
  unfold owns
  iintro ⟨⟨%f0, %hf0, H0⟩, ⟨%f1, %hf1, H1⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H5
  ipureintro
  try sl_unfold_words
  rw [View.read_writes_eq_canon _ _ _ (fun y => by refine ⟨_, List.mem_cons_self, ?_⟩; dsimp only; exact View.mem_set_unit_zero hzero0 _ y),
    View.canon_cons_unit_zero (S := S1024x32) hzero0]
  simp only [View.readAt_eq_ld, harg2.read_unread, harg3.read_unread, harg5.read_unread, View.ld_unit_zero (S := S1024x2048) hzero0,
    View.ld_unit_zero (S := S2048x32) hzero0, View.ld_unit_zero (S := S1024x32) hzero0]

set_option maxHeartbeats 2000000 in
/-- The last reduction block: the accumulator at `s` ends at `s` plus the product, and the output's staging buffer,
    whatever it held, at the activation of that. -/
theorem body0_last (c : Dev nD) (E : Set ℕ) (i : grid0.Coords)
    (arg2 : Memref sig .tc .vmem S1024x2048 .f32) (harg2 : arg2.IsWhole) (arg3 : Memref sig .tc .vmem S2048x32 .f32) (harg3 : arg3.IsWhole)
    (arg4 : Memref sig .tc .vmem S1024x32 .f32) (harg4 : arg4.IsWhole) (arg5 : Memref sig .tc .vmem S1024x32 .f32) (harg5 : arg5.IsWhole)
    (x0 : Vec F S1024x2048 .f32) (x1 : Vec F S2048x32 .f32) (K : PUnit → sProp 𝕄)
    (hc0 : ¬cond0_0 i) (hc1 : cond0_1 i) (s : Vec F S1024x32 .f32) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (k0_pay3 (k0_pay2 x0 x1 s))
            ∗ owns (c : Thread nD τ) arg5 fullShare (k0_pay2 x0 x1 s)) -∗ K ⟨⟩))
      ⊢ wp frame (wpE (defs₀ (F := F)) Variants.none c none) E (cc0__adj_matmul_kernel i arg2 harg2 arg3 harg3 arg4 harg4 arg5 harg5) K := by
  simp only [cc0__adj_matmul_kernel_eq_skeleton]; unfold cc0__adj_matmul_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    try sl_unfold_words
    rw [View.read_writes_eq_canon _ _ _ (fun y => by refine ⟨_, List.mem_cons_self, ?_⟩; dsimp only; exact View.mem_set_unit_zero hzero0 _ y),
      View.canon_cons_unit_zero (S := S1024x32) hzero0]
    simp only [View.readAt_eq_ld, harg2.read_unread, harg3.read_unread, harg5.read_unread, View.ld_unit_zero (S := S1024x2048) hzero0,
      View.ld_unit_zero (S := S2048x32) hzero0, View.ld_unit_zero (S := S1024x32) hzero0, View.readCov_unit_zero (S := S1024x32) _ hzero0]
  iexists _; isplitr
  swap; · iexact H5
  ipureintro
  try sl_unfold_words
  rw [View.read_writes_eq_canon _ _ _ (fun y => by refine ⟨_, List.mem_cons_self, ?_⟩; dsimp only; exact View.mem_set_unit_zero hzero0 _ y),
    View.canon_cons_unit_zero (S := S1024x32) hzero0]
  simp only [View.readAt_eq_ld, harg2.read_unread, harg3.read_unread, harg5.read_unread, View.ld_unit_zero (S := S1024x2048) hzero0,
    View.ld_unit_zero (S := S2048x32) hzero0, View.ld_unit_zero (S := S1024x32) hzero0]

/-! ## The accumulator point by point, the invariant, the proof data -/

section Data
variable (V : (c : Dev nD) → (b : Ref sig .tc) → Buf (Elt F) ((c : Thread nD τ).loc b))

/-- The staged block of `adj` and of the operand at point `t`, at their literal types. -/
abbrev ablk0 (c : Dev nD) (t : Fin cfg0.N) : Vec F S1024x2048 .f32 := iblk0 V c 0 t
abbrev xblk0 (c : Dev nD) (t : Fin cfg0.N) : Vec F S2048x32 .f32 := iblk0 V c 1 t

/-- THE ACCUMULATION. What the scratch accumulator holds after the body at position `n`: the point's product added
    to the cleared accumulator where `n` opens a row block (`n % 8 = 0`), to what position `n - 1` left otherwise. -/
def accAt0 (c : Dev nD) : (n : ℕ) → n < cfg0.N → Vec F S1024x32 .f32
  | 0, hn => k0_pay2 (ablk0 V c ⟨0, hn⟩) (xblk0 V c ⟨0, hn⟩) (k0_pay1 (F := F))
  | n + 1, hn =>
    if (n + 1) % 8 = 0 then k0_pay2 (ablk0 V c ⟨n + 1, hn⟩) (xblk0 V c ⟨n + 1, hn⟩) (k0_pay1 (F := F))
    else k0_pay2 (ablk0 V c ⟨n + 1, hn⟩) (xblk0 V c ⟨n + 1, hn⟩) (accAt0 c n (Nat.lt_of_succ_lt hn))

theorem accAt0_first (c : Dev nD) (t : Fin cfg0.N) (h : t.val % 8 = 0) :
    accAt0 V c t.val t.isLt = k0_pay2 (ablk0 V c t) (xblk0 V c t) (k0_pay1 (F := F)) := by
  obtain ⟨n, hn⟩ := t
  cases n with
  | zero => rfl
  | succ n => exact if_pos h

theorem accAt0_next (c : Dev nD) (t : Fin cfg0.N) (h : ¬t.val % 8 = 0) :
    accAt0 V c t.val t.isLt = k0_pay2 (ablk0 V c t) (xblk0 V c t) (accAt0 V c (t.val - 1) (Nat.lt_of_le_of_lt (Nat.sub_le _ _) t.isLt)) := by
  obtain ⟨n, hn⟩ := t
  cases n with
  | zero => exact absurd (Nat.zero_mod _) h
  | succ n => exact if_neg h

/-- The core's scoped buffers that are neither a staging buffer of this call nor its accumulator, at some contents each:
    carried through the region unopened. -/
abbrev restS0 (c : Dev nD) : sProp 𝕄 :=
  Pipeline.scopedRestBut (Ix := Unit) (Name := ℕ) (U := UR sig nD τ) (Lvl := ℕ) (Val := Elt F) spec0 c [cc0_scratch0]

/-- The class's invariant with the accumulator taken out. -/
theorem PhiA0_eq (c : Dev nD) :
    (Pipeline.ΦA spec0 c : sProp 𝕄)
      = iprop(((∃ d, owns (c : Thread nD τ) scM0 fullShare d) ∗ restS0 c) ∗ (∃ r, prngReg c r)) := by
  unfold Pipeline.ΦA
  rw [Pipeline.scopedRest_split_of_list spec0 c [cc0_scratch0] (by decide) (by decide)]
  simp only [scM0, owns_whole]
  rfl

/-- The region's invariant before position `n`: before the first point the class's (the accumulator at anything); afterwards
    the accumulator at what the point before left in it, the other scoped buffers at anything, the generator register at
    some state. -/
def PhiS0 (c : Dev nD) : (n : ℕ) → n ≤ cfg0.N → sProp 𝕄
  | 0, _ => Pipeline.ΦA spec0 c
  | n + 1, hn => iprop((owns (c : Thread nD τ) scM0 fullShare (accAt0 V c n hn) ∗ restS0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (accAt0 V c n hn) ∗ restS0 c) ∗ (∃ r, prngReg c r)) := rfl
theorem PhiS0_pos (c : Dev nD) (n : ℕ) (h : n ≤ cfg0.N) (hz : n ≠ 0) :
    PhiS0 V c n h = iprop((owns (c : Thread nD τ) scM0 fullShare (accAt0 V c (n - 1) (by omega)) ∗ restS0 c) ∗ (∃ r, prngReg c r)) := by
  cases n with
  | zero => exact absurd rfl hz
  | succ n => rfl

/-- The proof data of this call on core `c`: the arrays as the region finds them; after the body at point `t` each input's
    buffer at its block and the output's at the activation of the accumulator (consulted only where the block is written
    back, at the row block's last point); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (accAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (accAt0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point. The inputs' buffers hold their blocks; which case the point is in is read off its position;
    the invariant hands the body the accumulator (at anything at the very first point, at what the point before left
    afterwards) and takes it back at this point's contents; where the output is not stored its buffer is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 128 := lt_of_lt_of_eq t.isLt (show cfg0.N = 128 from N_0)
  by_cases h0 : t.val % 8 = 0
  · have hc0 : cond0_0 (grid0.coords t) := (hcond0_0 t).mpr h0
    have hc1 : ¬cond0_1 (grid0.coords t) := fun h => by have := (hcond0_1 t).mp h; omega
    rw [Dat.leavesExact_idle (dat0 V c) 2 t (idleAt0_2 t hc1) (noFlush0_2 t hc1)]
    rw [accAt0_first V c t h0]
    by_cases hz : t.val = 0
    · rw [PhiS0_castSucc V c t, PhiS0_zero V c _ _ hz, PhiA0_eq]
      iintro ⟨⟨⟨HS, Hr⟩, Hg⟩, Ho, ⟨%d0, H0⟩, ⟨%d1, H1⟩, H2⟩
      iapply (body0_first c Set.univ (grid0.coords t) _ _ _ _ _ _ _ _ (ablk0 V c t) (xblk0 V c t) _ hc0 hc1)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · rw [PhiS0_castSucc V c t, PhiS0_pos V c _ _ hz]
      iintro ⟨⟨⟨HS, Hr⟩, Hg⟩, Ho, ⟨%d0, H0⟩, ⟨%d1, H1⟩, H2⟩
      iapply (body0_first c Set.univ (grid0.coords t) _ _ _ _ _ _ _ _ (ablk0 V c t) (xblk0 V c t) _ hc0 hc1)
      isplitl [H0]; · iexact H0
      isplitl [H1]; · iexact H1
      isplitl [HS]; · iexists _; iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
  · have hc0 : ¬cond0_0 (grid0.coords t) := fun h => h0 ((hcond0_0 t).mp h)
    have hz : t.val ≠ 0 := fun h => h0 (by rw [h])
    rw [accAt0_next V c t h0]
    rw [PhiS0_castSucc V c t, PhiS0_pos V c _ _ hz]
    by_cases h7 : t.val % 8 = 7
    · have hc1 : cond0_1 (grid0.coords t) := (hcond0_1 t).mpr h7
      rw [show (dat0 V c).leavesExact 2 t = owns (c : Thread nD τ) (st0_2 t) fullShare ((dat0 V c).after 2 t) from by
        unfold Dat.leavesExact; rw [liveAt0_2 t hc1], after0_2, accAt0_next V c t h0]
      iintro ⟨⟨⟨HS, Hr⟩, Hg⟩, Ho, ⟨%d0, H0⟩, ⟨%d1, H1⟩, ⟨%d2, H2⟩⟩
      iapply (body0_last c Set.univ (grid0.coords t) _ _ _ _ _ _ _ _ (ablk0 V c t) (xblk0 V c t) _ hc0 hc1 _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hc1 : ¬cond0_1 (grid0.coords t) := fun h => h7 ((hcond0_1 t).mp h)
      rw [Dat.leavesExact_idle (dat0 V c) 2 t (idleAt0_2 t hc1) (noFlush0_2 t hc1)]
      iintro ⟨⟨⟨HS, Hr⟩, Hg⟩, Ho, ⟨%d0, H0⟩, ⟨%d1, H1⟩, H2⟩
      iapply (body0_mid c Set.univ (grid0.coords t) _ _ _ _ _ _ _ _ (ablk0 V c t) (xblk0 V c t) _ hc0 hc1 _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS, Hr⟩, Hg⟩
  isplitl [HS Hr]
  · isplitl [HS]; · iexists _; iexact HS
    iexact Hr
  iexact Hg

end Data

end Cert.Kernel.Hand

end
-- ==== Proof.K.Body1.lean ====
/-
  One call of the streaming product `adj · X`, followed through the pipeline: what the kernel's body does to its
  accumulator and to the output's staging buffer at each of the 128 grid points, as separation-logic triples, and
  the pipeline library's proof data and body obligation over them. Stated for any float instance `F`.
-/
import proofs.«146614_j73212012528270_1_alg».proof.Proof.Gen.Kernel.Launch
import proofs.«146614_j73212012528270_1_alg».proof.Proof.Gen.Kernel.Skeleton
import proofs.«146614_j73212012528270_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1 (custom_call 1): one row block of `adj` times the operand, accumulated along the grid's second axis

The grid is 16 × 8, row-major: point `t` is row block `t / 8`, reduction block `t % 8`. At every point the body
adds to a scratch accumulator the product of the staged `1024 × 2048` block of `adj` with the staged
`2048 × 32` block of the operand; where `t % 8 = 0` it first clears the accumulator; where `t % 8 = 7` it
then stores the activation of the accumulator into the output's staging buffer, which is written back there and
nowhere else. Everything is stated at a parameter `V`: core `c`'s unscoped buffers as the region finds them. -/

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point (fetched at every point, uncut, never idle),
    for any proof data over `V`'s arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region

/-! ## The two conditions of the body, and where they hold on the grid -/

/-- "this is the first reduction block": the accumulator is cleared. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "this is the last reduction block": the output is stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The body on any whole staging memrefs, case by case -/

/-- The scratch accumulator: a whole scoped buffer of the kernel's own. -/
abbrev scM1 : Memref sig .tc .vmem S1024x32 .f32 := Memref.whole cc1_scratch0

theorem hzero1 : (![0, 0] : Fin 2 → ℕ) = fun _ => 0 := by funext a; fin_cases a <;> rfl

set_option maxHeartbeats 2000000 in
/-- First reduction block: the accumulator, whatever it held, ends at the product added to the cleared accumulator;
    the output's staging buffer is not touched. -/
theorem body1_first (c : Dev nD) (E : Set ℕ) (i : grid1.Coords)
    (arg2 : Memref sig .tc .vmem S1024x2048 .f32) (harg2 : arg2.IsWhole) (arg3 : Memref sig .tc .vmem S2048x32 .f32) (harg3 : arg3.IsWhole)
    (arg4 : Memref sig .tc .vmem S1024x32 .f32) (harg4 : arg4.IsWhole) (arg5 : Memref sig .tc .vmem S1024x32 .f32) (harg5 : arg5.IsWhole)
    (x0 : Vec F S1024x2048 .f32) (x1 : Vec F S2048x32 .f32) (K : PUnit → sProp 𝕄)
    (hc0 : cond1_0 i) (hc1 : ¬cond1_1 i) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k1_pay2 x0 x1 (k1_pay1 (F := F)))) -∗ K ⟨⟩))
      ⊢ wp frame (wpE (defs₀ (F := F)) Variants.none c none) E (cc1__adj_matmul_kernel i arg2 harg2 arg3 harg3 arg4 harg4 arg5 harg5) K := by
  simp only [cc1__adj_matmul_kernel_eq_skeleton]; unfold cc1__adj_matmul_kernel_skel
  unfold owns
  iintro ⟨⟨%f0, %hf0, H0⟩, ⟨%f1, %hf1, H1⟩, ⟨%d5, %f5, -, H5⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H5
  ipureintro
  try sl_unfold_words
  rw [View.read_writes_eq_canon _ _ _ (fun y => by refine ⟨_, List.mem_cons_self, ?_⟩; dsimp only; exact View.mem_set_unit_zero hzero1 _ y),
    View.canon_cons_unit_zero (S := S1024x32) hzero1]
  simp only [View.readAt_eq_ld, harg2.read_unread, harg3.read_unread, View.ld_unit_zero (S := S1024x2048) hzero1,
    View.ld_unit_zero (S := S2048x32) hzero1, View.readCov_unit_zero (S := S1024x32) _ hzero1]

set_option maxHeartbeats 2000000 in
/-- A middle reduction block: the accumulator at `s` ends at `s` plus the product; the output's staging buffer is not touched. -/
theorem body1_mid (c : Dev nD) (E : Set ℕ) (i : grid1.Coords)
    (arg2 : Memref sig .tc .vmem S1024x2048 .f32) (harg2 : arg2.IsWhole) (arg3 : Memref sig .tc .vmem S2048x32 .f32) (harg3 : arg3.IsWhole)
    (arg4 : Memref sig .tc .vmem S1024x32 .f32) (harg4 : arg4.IsWhole) (arg5 : Memref sig .tc .vmem S1024x32 .f32) (harg5 : arg5.IsWhole)
    (x0 : Vec F S1024x2048 .f32) (x1 : Vec F S2048x32 .f32) (K : PUnit → sProp 𝕄)
    (hc0 : ¬cond1_0 i) (hc1 : ¬cond1_1 i) (s : Vec F S1024x32 .f32) :
    iprop(owns (c : Thread nD τ) arg2 fullShare x0 ∗ owns (c : Thread nD τ) arg3 fullShare x1 ∗ owns (c : Thread nD τ) arg5 fullShare s
        ∗ (iprop(owns (c : Thread nD τ) arg2 fullShare x0 ∗ owns (c : Thread nD τ) arg3 fullShare x1
            ∗ owns (c : Thread nD τ) arg5 fullShare (k1_pay2 x0 x1 s)) -∗ K ⟨⟩))
      ⊢ wp frame (wpE (defs₀ (F := F)) Variants.none c none) E (cc1__adj_matmul_kernel i arg2 harg2 arg3 harg3 arg4 harg4 arg5 harg5) K := by
  simp only [cc1__adj_matmul_kernel_eq_skeleton]; unfold cc1__adj_matmul_kernel_skel
  unfold owns
  iintro ⟨⟨%f0, %hf0, H0⟩, ⟨%f1, %hf1, H1⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H5
  ipureintro
  try sl_unfold_words
  rw [View.read_writes_eq_canon _ _ _ (fun y => by refine ⟨_, List.mem_cons_self, ?_⟩; dsimp only; exact View.mem_set_unit_zero hzero1 _ y),
    View.canon_cons_unit_zero (S := S1024x32) hzero1]
  simp only [View.readAt_eq_ld, harg2.read_unread, harg3.read_unread, harg5.read_unread, View.ld_unit_zero (S := S1024x2048) hzero1,
    View.ld_unit_zero (S := S2048x32) hzero1, View.ld_unit_zero (S := S1024x32) hzero1]

set_option maxHeartbeats 2000000 in
/-- The last reduction block: the accumulator at `s` ends at `s` plus the product, and the output's staging buffer,
    whatever it held, at the activation of that. -/
theorem body1_last (c : Dev nD) (E : Set ℕ) (i : grid1.Coords)
    (arg2 : Memref sig .tc .vmem S1024x2048 .f32) (harg2 : arg2.IsWhole) (arg3 : Memref sig .tc .vmem S2048x32 .f32) (harg3 : arg3.IsWhole)
    (arg4 : Memref sig .tc .vmem S1024x32 .f32) (harg4 : arg4.IsWhole) (arg5 : Memref sig .tc .vmem S1024x32 .f32) (harg5 : arg5.IsWhole)
    (x0 : Vec F S1024x2048 .f32) (x1 : Vec F S2048x32 .f32) (K : PUnit → sProp 𝕄)
    (hc0 : ¬cond1_0 i) (hc1 : cond1_1 i) (s : Vec F S1024x32 .f32) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (k1_pay3 (k1_pay2 x0 x1 s))
            ∗ owns (c : Thread nD τ) arg5 fullShare (k1_pay2 x0 x1 s)) -∗ K ⟨⟩))
      ⊢ wp frame (wpE (defs₀ (F := F)) Variants.none c none) E (cc1__adj_matmul_kernel i arg2 harg2 arg3 harg3 arg4 harg4 arg5 harg5) K := by
  simp only [cc1__adj_matmul_kernel_eq_skeleton]; unfold cc1__adj_matmul_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    try sl_unfold_words
    rw [View.read_writes_eq_canon _ _ _ (fun y => by refine ⟨_, List.mem_cons_self, ?_⟩; dsimp only; exact View.mem_set_unit_zero hzero1 _ y),
      View.canon_cons_unit_zero (S := S1024x32) hzero1]
    simp only [View.readAt_eq_ld, harg2.read_unread, harg3.read_unread, harg5.read_unread, View.ld_unit_zero (S := S1024x2048) hzero1,
      View.ld_unit_zero (S := S2048x32) hzero1, View.ld_unit_zero (S := S1024x32) hzero1, View.readCov_unit_zero (S := S1024x32) _ hzero1]
  iexists _; isplitr
  swap; · iexact H5
  ipureintro
  try sl_unfold_words
  rw [View.read_writes_eq_canon _ _ _ (fun y => by refine ⟨_, List.mem_cons_self, ?_⟩; dsimp only; exact View.mem_set_unit_zero hzero1 _ y),
    View.canon_cons_unit_zero (S := S1024x32) hzero1]
  simp only [View.readAt_eq_ld, harg2.read_unread, harg3.read_unread, harg5.read_unread, View.ld_unit_zero (S := S1024x2048) hzero1,
    View.ld_unit_zero (S := S2048x32) hzero1, View.ld_unit_zero (S := S1024x32) hzero1]

/-! ## The accumulator point by point, the invariant, the proof data -/

section Data
variable (V : (c : Dev nD) → (b : Ref sig .tc) → Buf (Elt F) ((c : Thread nD τ).loc b))

/-- The staged block of `adj` and of the operand at point `t`, at their literal types. -/
abbrev ablk1 (c : Dev nD) (t : Fin cfg1.N) : Vec F S1024x2048 .f32 := iblk1 V c 0 t
abbrev xblk1 (c : Dev nD) (t : Fin cfg1.N) : Vec F S2048x32 .f32 := iblk1 V c 1 t

/-- THE ACCUMULATION. What the scratch accumulator holds after the body at position `n`: the point's product added
    to the cleared accumulator where `n` opens a row block (`n % 8 = 0`), to what position `n - 1` left otherwise. -/
def accAt1 (c : Dev nD) : (n : ℕ) → n < cfg1.N → Vec F S1024x32 .f32
  | 0, hn => k1_pay2 (ablk1 V c ⟨0, hn⟩) (xblk1 V c ⟨0, hn⟩) (k1_pay1 (F := F))
  | n + 1, hn =>
    if (n + 1) % 8 = 0 then k1_pay2 (ablk1 V c ⟨n + 1, hn⟩) (xblk1 V c ⟨n + 1, hn⟩) (k1_pay1 (F := F))
    else k1_pay2 (ablk1 V c ⟨n + 1, hn⟩) (xblk1 V c ⟨n + 1, hn⟩) (accAt1 c n (Nat.lt_of_succ_lt hn))

theorem accAt1_first (c : Dev nD) (t : Fin cfg1.N) (h : t.val % 8 = 0) :
    accAt1 V c t.val t.isLt = k1_pay2 (ablk1 V c t) (xblk1 V c t) (k1_pay1 (F := F)) := by
  obtain ⟨n, hn⟩ := t
  cases n with
  | zero => rfl
  | succ n => exact if_pos h

theorem accAt1_next (c : Dev nD) (t : Fin cfg1.N) (h : ¬t.val % 8 = 0) :
    accAt1 V c t.val t.isLt = k1_pay2 (ablk1 V c t) (xblk1 V c t) (accAt1 V c (t.val - 1) (Nat.lt_of_le_of_lt (Nat.sub_le _ _) t.isLt)) := by
  obtain ⟨n, hn⟩ := t
  cases n with
  | zero => exact absurd (Nat.zero_mod _) h
  | succ n => exact if_neg h

/-- The core's scoped buffers that are neither a staging buffer of this call nor its accumulator, at some contents each:
    carried through the region unopened. -/
abbrev restS1 (c : Dev nD) : sProp 𝕄 :=
  Pipeline.scopedRestBut (Ix := Unit) (Name := ℕ) (U := UR sig nD τ) (Lvl := ℕ) (Val := Elt F) spec1 c [cc1_scratch0]

/-- The class's invariant with the accumulator taken out. -/
theorem PhiA1_eq (c : Dev nD) :
    (Pipeline.ΦA spec1 c : sProp 𝕄)
      = iprop(((∃ d, owns (c : Thread nD τ) scM1 fullShare d) ∗ restS1 c) ∗ (∃ r, prngReg c r)) := by
  unfold Pipeline.ΦA
  rw [Pipeline.scopedRest_split_of_list spec1 c [cc1_scratch0] (by decide) (by decide)]
  simp only [scM1, owns_whole]
  rfl

/-- The region's invariant before position `n`: before the first point the class's (the accumulator at anything); afterwards
    the accumulator at what the point before left in it, the other scoped buffers at anything, the generator register at
    some state. -/
def PhiS1 (c : Dev nD) : (n : ℕ) → n ≤ cfg1.N → sProp 𝕄
  | 0, _ => Pipeline.ΦA spec1 c
  | n + 1, hn => iprop((owns (c : Thread nD τ) scM1 fullShare (accAt1 V c n hn) ∗ restS1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare (accAt1 V c n hn) ∗ restS1 c) ∗ (∃ r, prngReg c r)) := rfl
theorem PhiS1_pos (c : Dev nD) (n : ℕ) (h : n ≤ cfg1.N) (hz : n ≠ 0) :
    PhiS1 V c n h = iprop((owns (c : Thread nD τ) scM1 fullShare (accAt1 V c (n - 1) (by omega)) ∗ restS1 c) ∗ (∃ r, prngReg c r)) := by
  cases n with
  | zero => exact absurd rfl hz
  | succ n => rfl

/-- The proof data of this call on core `c`: the arrays as the region finds them; after the body at point `t` each input's
    buffer at its block and the output's at the activation of the accumulator (consulted only where the block is written
    back, at the row block's last point); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (accAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (accAt1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The inputs' buffers hold their blocks; which case the point is in is read off its position;
    the invariant hands the body the accumulator (at anything at the very first point, at what the point before left
    afterwards) and takes it back at this point's contents; where the output is not stored its buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 128 := lt_of_lt_of_eq t.isLt (show cfg1.N = 128 from N_1)
  by_cases h0 : t.val % 8 = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1)]
    rw [accAt1_first V c t h0]
    by_cases hz : t.val = 0
    · rw [PhiS1_castSucc V c t, PhiS1_zero V c _ _ hz, PhiA1_eq]
      iintro ⟨⟨⟨HS, Hr⟩, Hg⟩, Ho, ⟨%d0, H0⟩, ⟨%d1, H1⟩, H2⟩
      iapply (body1_first c Set.univ (grid1.coords t) _ _ _ _ _ _ _ _ (ablk1 V c t) (xblk1 V c t) _ hc0 hc1)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · rw [PhiS1_castSucc V c t, PhiS1_pos V c _ _ hz]
      iintro ⟨⟨⟨HS, Hr⟩, Hg⟩, Ho, ⟨%d0, H0⟩, ⟨%d1, H1⟩, H2⟩
      iapply (body1_first c Set.univ (grid1.coords t) _ _ _ _ _ _ _ _ (ablk1 V c t) (xblk1 V c t) _ hc0 hc1)
      isplitl [H0]; · iexact H0
      isplitl [H1]; · iexact H1
      isplitl [HS]; · iexists _; iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
  · have hc0 : ¬cond1_0 (grid1.coords t) := fun h => h0 ((hcond1_0 t).mp h)
    have hz : t.val ≠ 0 := fun h => h0 (by rw [h])
    rw [accAt1_next V c t h0]
    rw [PhiS1_castSucc V c t, PhiS1_pos V c _ _ hz]
    by_cases h7 : t.val % 8 = 7
    · have hc1 : cond1_1 (grid1.coords t) := (hcond1_1 t).mpr h7
      rw [show (dat1 V c).leavesExact 2 t = owns (c : Thread nD τ) (st1_2 t) fullShare ((dat1 V c).after 2 t) from by
        unfold Dat.leavesExact; rw [liveAt1_2 t hc1], after1_2, accAt1_next V c t h0]
      iintro ⟨⟨⟨HS, Hr⟩, Hg⟩, Ho, ⟨%d0, H0⟩, ⟨%d1, H1⟩, ⟨%d2, H2⟩⟩
      iapply (body1_last c Set.univ (grid1.coords t) _ _ _ _ _ _ _ _ (ablk1 V c t) (xblk1 V c t) _ hc0 hc1 _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hc1 : ¬cond1_1 (grid1.coords t) := fun h => h7 ((hcond1_1 t).mp h)
      rw [Dat.leavesExact_idle (dat1 V c) 2 t (idleAt1_2 t hc1) (noFlush1_2 t hc1)]
      iintro ⟨⟨⟨HS, Hr⟩, Hg⟩, Ho, ⟨%d0, H0⟩, ⟨%d1, H1⟩, H2⟩
      iapply (body1_mid c Set.univ (grid1.coords t) _ _ _ _ _ _ _ _ (ablk1 V c t) (xblk1 V c t) _ hc0 hc1 _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS, Hr⟩, Hg⟩
  isplitl [HS Hr]
  · isplitl [HS]; · iexists _; iexact HS
    iexact Hr
  iexact Hg

end Data

end Cert.Kernel.Hand

end
-- ==== Proof.K.Body2.lean ====
/-
  One call of the streaming product `adj · X`, followed through the pipeline: what the kernel's body does to its
  accumulator and to the output's staging buffer at each of the 128 grid points, as separation-logic triples, and
  the pipeline library's proof data and body obligation over them. Stated for any float instance `F`.
-/
import proofs.«146614_j73212012528270_1_alg».proof.Proof.Gen.Kernel.Launch
import proofs.«146614_j73212012528270_1_alg».proof.Proof.Gen.Kernel.Skeleton
import proofs.«146614_j73212012528270_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 2 (custom_call 2): one row block of `adj` times the operand, accumulated along the grid's second axis

The grid is 16 × 8, row-major: point `t` is row block `t / 8`, reduction block `t % 8`. At every point the body
adds to a scratch accumulator the product of the staged `1024 × 2048` block of `adj` with the staged
`2048 × 32` block of the operand; where `t % 8 = 0` it first clears the accumulator; where `t % 8 = 7` it
then stores the activation of the accumulator into the output's staging buffer, which is written back there and
nowhere else. Everything is stated at a parameter `V`: core `c`'s unscoped buffers as the region finds them. -/

section Region
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point (fetched at every point, uncut, never idle),
    for any proof data over `V`'s arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end Region

/-! ## The two conditions of the body, and where they hold on the grid -/

/-- "this is the first reduction block": the accumulator is cleared. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- "this is the last reduction block": the output is stored. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-! ## The body on any whole staging memrefs, case by case -/

/-- The scratch accumulator: a whole scoped buffer of the kernel's own. -/
abbrev scM2 : Memref sig .tc .vmem S1024x1 .f32 := Memref.whole cc2_scratch0

theorem hzero2 : (![0, 0] : Fin 2 → ℕ) = fun _ => 0 := by funext a; fin_cases a <;> rfl

set_option maxHeartbeats 2000000 in
/-- First reduction block: the accumulator, whatever it held, ends at the product added to the cleared accumulator;
    the output's staging buffer is not touched. -/
theorem body2_first (c : Dev nD) (E : Set ℕ) (i : grid2.Coords)
    (arg2 : Memref sig .tc .vmem S1024x2048 .f32) (harg2 : arg2.IsWhole) (arg3 : Memref sig .tc .vmem S2048x1 .f32) (harg3 : arg3.IsWhole)
    (arg4 : Memref sig .tc .vmem S1024x1 .f32) (harg4 : arg4.IsWhole) (arg5 : Memref sig .tc .vmem S1024x1 .f32) (harg5 : arg5.IsWhole)
    (x0 : Vec F S1024x2048 .f32) (x1 : Vec F S2048x1 .f32) (K : PUnit → sProp 𝕄)
    (hc0 : cond2_0 i) (hc1 : ¬cond2_1 i) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k2_pay2 x0 x1 (k2_pay1 (F := F)))) -∗ K ⟨⟩))
      ⊢ wp frame (wpE (defs₀ (F := F)) Variants.none c none) E (cc2__adj_matmul_kernel i arg2 harg2 arg3 harg3 arg4 harg4 arg5 harg5) K := by
  simp only [cc2__adj_matmul_kernel_eq_skeleton]; unfold cc2__adj_matmul_kernel_skel
  unfold owns
  iintro ⟨⟨%f0, %hf0, H0⟩, ⟨%f1, %hf1, H1⟩, ⟨%d5, %f5, -, H5⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H5
  ipureintro
  try sl_unfold_words
  rw [View.read_writes_eq_canon _ _ _ (fun y => by refine ⟨_, List.mem_cons_self, ?_⟩; dsimp only; exact View.mem_set_unit_zero hzero2 _ y),
    View.canon_cons_unit_zero (S := S1024x1) hzero2]
  simp only [View.readAt_eq_ld, harg2.read_unread, harg3.read_unread, View.ld_unit_zero (S := S1024x2048) hzero2,
    View.ld_unit_zero (S := S2048x1) hzero2, View.readCov_unit_zero (S := S1024x1) _ hzero2]

set_option maxHeartbeats 2000000 in
/-- A middle reduction block: the accumulator at `s` ends at `s` plus the product; the output's staging buffer is not touched. -/
theorem body2_mid (c : Dev nD) (E : Set ℕ) (i : grid2.Coords)
    (arg2 : Memref sig .tc .vmem S1024x2048 .f32) (harg2 : arg2.IsWhole) (arg3 : Memref sig .tc .vmem S2048x1 .f32) (harg3 : arg3.IsWhole)
    (arg4 : Memref sig .tc .vmem S1024x1 .f32) (harg4 : arg4.IsWhole) (arg5 : Memref sig .tc .vmem S1024x1 .f32) (harg5 : arg5.IsWhole)
    (x0 : Vec F S1024x2048 .f32) (x1 : Vec F S2048x1 .f32) (K : PUnit → sProp 𝕄)
    (hc0 : ¬cond2_0 i) (hc1 : ¬cond2_1 i) (s : Vec F S1024x1 .f32) :
    iprop(owns (c : Thread nD τ) arg2 fullShare x0 ∗ owns (c : Thread nD τ) arg3 fullShare x1 ∗ owns (c : Thread nD τ) arg5 fullShare s
        ∗ (iprop(owns (c : Thread nD τ) arg2 fullShare x0 ∗ owns (c : Thread nD τ) arg3 fullShare x1
            ∗ owns (c : Thread nD τ) arg5 fullShare (k2_pay2 x0 x1 s)) -∗ K ⟨⟩))
      ⊢ wp frame (wpE (defs₀ (F := F)) Variants.none c none) E (cc2__adj_matmul_kernel i arg2 harg2 arg3 harg3 arg4 harg4 arg5 harg5) K := by
  simp only [cc2__adj_matmul_kernel_eq_skeleton]; unfold cc2__adj_matmul_kernel_skel
  unfold owns
  iintro ⟨⟨%f0, %hf0, H0⟩, ⟨%f1, %hf1, H1⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H5
  ipureintro
  try sl_unfold_words
  rw [View.read_writes_eq_canon _ _ _ (fun y => by refine ⟨_, List.mem_cons_self, ?_⟩; dsimp only; exact View.mem_set_unit_zero hzero2 _ y),
    View.canon_cons_unit_zero (S := S1024x1) hzero2]
  simp only [View.readAt_eq_ld, harg2.read_unread, harg3.read_unread, harg5.read_unread, View.ld_unit_zero (S := S1024x2048) hzero2,
    View.ld_unit_zero (S := S2048x1) hzero2, View.ld_unit_zero (S := S1024x1) hzero2]

set_option maxHeartbeats 2000000 in
/-- The last reduction block: the accumulator at `s` ends at `s` plus the product, and the output's staging buffer,
    whatever it held, at the activation of that. -/
theorem body2_last (c : Dev nD) (E : Set ℕ) (i : grid2.Coords)
    (arg2 : Memref sig .tc .vmem S1024x2048 .f32) (harg2 : arg2.IsWhole) (arg3 : Memref sig .tc .vmem S2048x1 .f32) (harg3 : arg3.IsWhole)
    (arg4 : Memref sig .tc .vmem S1024x1 .f32) (harg4 : arg4.IsWhole) (arg5 : Memref sig .tc .vmem S1024x1 .f32) (harg5 : arg5.IsWhole)
    (x0 : Vec F S1024x2048 .f32) (x1 : Vec F S2048x1 .f32) (K : PUnit → sProp 𝕄)
    (hc0 : ¬cond2_0 i) (hc1 : cond2_1 i) (s : Vec F S1024x1 .f32) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (k2_pay3 (k2_pay2 x0 x1 s))
            ∗ owns (c : Thread nD τ) arg5 fullShare (k2_pay2 x0 x1 s)) -∗ K ⟨⟩))
      ⊢ wp frame (wpE (defs₀ (F := F)) Variants.none c none) E (cc2__adj_matmul_kernel i arg2 harg2 arg3 harg3 arg4 harg4 arg5 harg5) K := by
  simp only [cc2__adj_matmul_kernel_eq_skeleton]; unfold cc2__adj_matmul_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    try sl_unfold_words
    rw [View.read_writes_eq_canon _ _ _ (fun y => by refine ⟨_, List.mem_cons_self, ?_⟩; dsimp only; exact View.mem_set_unit_zero hzero2 _ y),
      View.canon_cons_unit_zero (S := S1024x1) hzero2]
    simp only [View.readAt_eq_ld, harg2.read_unread, harg3.read_unread, harg5.read_unread, View.ld_unit_zero (S := S1024x2048) hzero2,
      View.ld_unit_zero (S := S2048x1) hzero2, View.ld_unit_zero (S := S1024x1) hzero2, View.readCov_unit_zero (S := S1024x1) _ hzero2]
  iexists _; isplitr
  swap; · iexact H5
  ipureintro
  try sl_unfold_words
  rw [View.read_writes_eq_canon _ _ _ (fun y => by refine ⟨_, List.mem_cons_self, ?_⟩; dsimp only; exact View.mem_set_unit_zero hzero2 _ y),
    View.canon_cons_unit_zero (S := S1024x1) hzero2]
  simp only [View.readAt_eq_ld, harg2.read_unread, harg3.read_unread, harg5.read_unread, View.ld_unit_zero (S := S1024x2048) hzero2,
    View.ld_unit_zero (S := S2048x1) hzero2, View.ld_unit_zero (S := S1024x1) hzero2]

/-! ## The accumulator point by point, the invariant, the proof data -/

section Data
variable (V : (c : Dev nD) → (b : Ref sig .tc) → Buf (Elt F) ((c : Thread nD τ).loc b))

/-- The staged block of `adj` and of the operand at point `t`, at their literal types. -/
abbrev ablk2 (c : Dev nD) (t : Fin cfg2.N) : Vec F S1024x2048 .f32 := iblk2 V c 0 t
abbrev xblk2 (c : Dev nD) (t : Fin cfg2.N) : Vec F S2048x1 .f32 := iblk2 V c 1 t

/-- THE ACCUMULATION. What the scratch accumulator holds after the body at position `n`: the point's product added
    to the cleared accumulator where `n` opens a row block (`n % 8 = 0`), to what position `n - 1` left otherwise. -/
def accAt2 (c : Dev nD) : (n : ℕ) → n < cfg2.N → Vec F S1024x1 .f32
  | 0, hn => k2_pay2 (ablk2 V c ⟨0, hn⟩) (xblk2 V c ⟨0, hn⟩) (k2_pay1 (F := F))
  | n + 1, hn =>
    if (n + 1) % 8 = 0 then k2_pay2 (ablk2 V c ⟨n + 1, hn⟩) (xblk2 V c ⟨n + 1, hn⟩) (k2_pay1 (F := F))
    else k2_pay2 (ablk2 V c ⟨n + 1, hn⟩) (xblk2 V c ⟨n + 1, hn⟩) (accAt2 c n (Nat.lt_of_succ_lt hn))

theorem accAt2_first (c : Dev nD) (t : Fin cfg2.N) (h : t.val % 8 = 0) :
    accAt2 V c t.val t.isLt = k2_pay2 (ablk2 V c t) (xblk2 V c t) (k2_pay1 (F := F)) := by
  obtain ⟨n, hn⟩ := t
  cases n with
  | zero => rfl
  | succ n => exact if_pos h

theorem accAt2_next (c : Dev nD) (t : Fin cfg2.N) (h : ¬t.val % 8 = 0) :
    accAt2 V c t.val t.isLt = k2_pay2 (ablk2 V c t) (xblk2 V c t) (accAt2 V c (t.val - 1) (Nat.lt_of_le_of_lt (Nat.sub_le _ _) t.isLt)) := by
  obtain ⟨n, hn⟩ := t
  cases n with
  | zero => exact absurd (Nat.zero_mod _) h
  | succ n => exact if_neg h

/-- The core's scoped buffers that are neither a staging buffer of this call nor its accumulator, at some contents each:
    carried through the region unopened. -/
abbrev restS2 (c : Dev nD) : sProp 𝕄 :=
  Pipeline.scopedRestBut (Ix := Unit) (Name := ℕ) (U := UR sig nD τ) (Lvl := ℕ) (Val := Elt F) spec2 c [cc2_scratch0]

/-- The class's invariant with the accumulator taken out. -/
theorem PhiA2_eq (c : Dev nD) :
    (Pipeline.ΦA spec2 c : sProp 𝕄)
      = iprop(((∃ d, owns (c : Thread nD τ) scM2 fullShare d) ∗ restS2 c) ∗ (∃ r, prngReg c r)) := by
  unfold Pipeline.ΦA
  rw [Pipeline.scopedRest_split_of_list spec2 c [cc2_scratch0] (by decide) (by decide)]
  simp only [scM2, owns_whole]
  rfl

/-- The region's invariant before position `n`: before the first point the class's (the accumulator at anything); afterwards
    the accumulator at what the point before left in it, the other scoped buffers at anything, the generator register at
    some state. -/
def PhiS2 (c : Dev nD) : (n : ℕ) → n ≤ cfg2.N → sProp 𝕄
  | 0, _ => Pipeline.ΦA spec2 c
  | n + 1, hn => iprop((owns (c : Thread nD τ) scM2 fullShare (accAt2 V c n hn) ∗ restS2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop((owns (c : Thread nD τ) scM2 fullShare (accAt2 V c n hn) ∗ restS2 c) ∗ (∃ r, prngReg c r)) := rfl
theorem PhiS2_pos (c : Dev nD) (n : ℕ) (h : n ≤ cfg2.N) (hz : n ≠ 0) :
    PhiS2 V c n h = iprop((owns (c : Thread nD τ) scM2 fullShare (accAt2 V c (n - 1) (by omega)) ∗ restS2 c) ∗ (∃ r, prngReg c r)) := by
  cases n with
  | zero => exact absurd rfl hz
  | succ n => rfl

/-- The proof data of this call on core `c`: the arrays as the region finds them; after the body at point `t` each input's
    buffer at its block and the output's at the activation of the accumulator (consulted only where the block is written
    back, at the row block's last point); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (accAt2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (accAt2 V c t.val t.isLt) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point. The inputs' buffers hold their blocks; which case the point is in is read off its position;
    the invariant hands the body the accumulator (at anything at the very first point, at what the point before left
    afterwards) and takes it back at this point's contents; where the output is not stored its buffer is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 128 := lt_of_lt_of_eq t.isLt (show cfg2.N = 128 from N_2)
  by_cases h0 : t.val % 8 = 0
  · have hc0 : cond2_0 (grid2.coords t) := (hcond2_0 t).mpr h0
    have hc1 : ¬cond2_1 (grid2.coords t) := fun h => by have := (hcond2_1 t).mp h; omega
    rw [Dat.leavesExact_idle (dat2 V c) 2 t (idleAt2_2 t hc1) (noFlush2_2 t hc1)]
    rw [accAt2_first V c t h0]
    by_cases hz : t.val = 0
    · rw [PhiS2_castSucc V c t, PhiS2_zero V c _ _ hz, PhiA2_eq]
      iintro ⟨⟨⟨HS, Hr⟩, Hg⟩, Ho, ⟨%d0, H0⟩, ⟨%d1, H1⟩, H2⟩
      iapply (body2_first c Set.univ (grid2.coords t) _ _ _ _ _ _ _ _ (ablk2 V c t) (xblk2 V c t) _ hc0 hc1)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · rw [PhiS2_castSucc V c t, PhiS2_pos V c _ _ hz]
      iintro ⟨⟨⟨HS, Hr⟩, Hg⟩, Ho, ⟨%d0, H0⟩, ⟨%d1, H1⟩, H2⟩
      iapply (body2_first c Set.univ (grid2.coords t) _ _ _ _ _ _ _ _ (ablk2 V c t) (xblk2 V c t) _ hc0 hc1)
      isplitl [H0]; · iexact H0
      isplitl [H1]; · iexact H1
      isplitl [HS]; · iexists _; iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
  · have hc0 : ¬cond2_0 (grid2.coords t) := fun h => h0 ((hcond2_0 t).mp h)
    have hz : t.val ≠ 0 := fun h => h0 (by rw [h])
    rw [accAt2_next V c t h0]
    rw [PhiS2_castSucc V c t, PhiS2_pos V c _ _ hz]
    by_cases h7 : t.val % 8 = 7
    · have hc1 : cond2_1 (grid2.coords t) := (hcond2_1 t).mpr h7
      rw [show (dat2 V c).leavesExact 2 t = owns (c : Thread nD τ) (st2_2 t) fullShare ((dat2 V c).after 2 t) from by
        unfold Dat.leavesExact; rw [liveAt2_2 t hc1], after2_2, accAt2_next V c t h0]
      iintro ⟨⟨⟨HS, Hr⟩, Hg⟩, Ho, ⟨%d0, H0⟩, ⟨%d1, H1⟩, ⟨%d2, H2⟩⟩
      iapply (body2_last c Set.univ (grid2.coords t) _ _ _ _ _ _ _ _ (ablk2 V c t) (xblk2 V c t) _ hc0 hc1 _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hc1 : ¬cond2_1 (grid2.coords t) := fun h => h7 ((hcond2_1 t).mp h)
      rw [Dat.leavesExact_idle (dat2 V c) 2 t (idleAt2_2 t hc1) (noFlush2_2 t hc1)]
      iintro ⟨⟨⟨HS, Hr⟩, Hg⟩, Ho, ⟨%d0, H0⟩, ⟨%d1, H1⟩, H2⟩
      iapply (body2_mid c Set.univ (grid2.coords t) _ _ _ _ _ _ _ _ (ablk2 V c t) (xblk2 V c t) _ hc0 hc1 _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 128 := N_2; omega), PhiA2_eq]
  iintro ⟨⟨HS, Hr⟩, Hg⟩
  isplitl [HS Hr]
  · isplitl [HS]; · iexists _; iexact HS
    iexact Hr
  iexact Hg

end Data

end Cert.Kernel.Hand

end
-- ==== Proof.K.Run.lean ====
/-
  The run of the idealized program's @main from the launch to the return, for any float instance `F`.

  @main is six items in order: a one-operation host stretch, the first call of the streaming product `adj · X`,
  a second host stretch, the second call, a third host stretch, the third call. Between two items every unscoped
  buffer of a core holds named contents: a fold from the launch memory in which a host stretch rewrites the one
  buffer it writes and a kernel region rewrites its output array with what the pipeline's write-backs leave there,
  every other buffer kept. Each region is entered from the contents the item before it left; its invariant carries
  the scratch accumulator, whose contents are forgotten when the region is left. From the run: every final memory
  holds each unscoped buffer at the last boundary's contents; the five argument arrays, which no item writes, end as
  launched; and the program's result buffer ends at what the third call's write-backs leave in it.
-/
import proofs.«146614_j73212012528270_1_alg».proof.Proof.Gen.Kernel.Launch
import proofs.«146614_j73212012528270_1_alg».proof.Proof.Gen.Kernel.Skeleton
import proofs.«146614_j73212012528270_1_alg».proof.Proof.Gen.Kernel.Points
import proofs.«146614_j73212012528270_1_alg».proof.Proof.K.Body0
import proofs.«146614_j73212012528270_1_alg».proof.Proof.K.Body1
import proofs.«146614_j73212012528270_1_alg».proof.Proof.K.Body2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What a host stretch keeps

Each host stretch is one matrix product written into one buffer; every other buffer keeps its contents. -/

/-- The first host stretch writes `main_v0` only. -/
theorem hostOps0_keeps (W : Valuation τ sig (Elt F)) (b : Ref sig .tc) (hb : b ≠ main_v0) :
    StableHlo.after (hostOps0 (F := F)) W (Proc.devRef .tc b) = W (Proc.devRef .tc b) :=
  StableHlo.after_of_forall_not_mem (b := Proc.devRef .tc b) _ _ (List.forall_iff_forall_mem.mp (by
    simp only [hostOps0, List.Forall, StableHlo.binary_writes, Finset.mem_singleton]
    exact StableHlo.devRef_ne_of_ne hb))
/-- The second host stretch writes `main_v2` only. -/
theorem hostOps1_keeps (W : Valuation τ sig (Elt F)) (b : Ref sig .tc) (hb : b ≠ main_v2) :
    StableHlo.after (hostOps1 (F := F)) W (Proc.devRef .tc b) = W (Proc.devRef .tc b) :=
  StableHlo.after_of_forall_not_mem (b := Proc.devRef .tc b) _ _ (List.forall_iff_forall_mem.mp (by
    simp only [hostOps1, List.Forall, StableHlo.binary_writes, Finset.mem_singleton]
    exact StableHlo.devRef_ne_of_ne hb))
/-- The third host stretch writes `main_v4` only. -/
theorem hostOps2_keeps (W : Valuation τ sig (Elt F)) (b : Ref sig .tc) (hb : b ≠ main_v4) :
    StableHlo.after (hostOps2 (F := F)) W (Proc.devRef .tc b) = W (Proc.devRef .tc b) :=
  StableHlo.after_of_forall_not_mem (b := Proc.devRef .tc b) _ _ (List.forall_iff_forall_mem.mp (by
    simp only [hostOps2, List.Forall, StableHlo.binary_writes, Finset.mem_singleton]
    exact StableHlo.devRef_ne_of_ne hb))

variable (m : (ℓ : Loc nD τ sig) → Buf (Elt F) ℓ) (ρ : Dev nD → PrngReg)

/-! ## The buffer contents at each boundary between two items: a fold through @main -/

/-- Core `c`'s buffers at launch. -/
abbrev W0 : Dev nD → Valuation τ sig (Elt F) := fun c b => (s₀ m ρ).mem ((c : Dev nD), b)
/-- After the first host stretch, where the first call is entered: `main_v0` holds the product of the first and third
    arguments. -/
abbrev W1 : Dev nD → Valuation τ sig (Elt F) := fun c => StableHlo.after hostOps0 (W0 m ρ c)
/-- The same read at the TensorCore's references (what the first call's proof data take). -/
abbrev V1 : (c : Dev nD) → (b : Ref sig .tc) → Buf (Elt F) ((c : Thread nD τ).loc b) := fun c b => W1 m ρ c b
/-- At the first call's exit: its three arrays at what the pipeline leaves (`adj` and the operand as entered, the output
    `main_v1` with every row block's write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the first call's exit contents). -/
abbrev V2 : (c : Dev nD) → (b : Ref sig .tc) → Buf (Elt F) ((c : Thread nD τ).loc b) := fun c b => W2 m ρ c b
/-- At the first call's exit each of its arrays holds what the pipeline leaves, and every other buffer what it held
    at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch, where the second call is entered: `main_v2` holds the product of the first call's
    output and the fourth argument. -/
abbrev W3 : Dev nD → Valuation τ sig (Elt F) := fun c => StableHlo.after hostOps1 (W2 m ρ c)
/-- The same read at the TensorCore's references (what the second call's proof data take). -/
abbrev V3 : (c : Dev nD) → (b : Ref sig .tc) → Buf (Elt F) ((c : Thread nD τ).loc b) := fun c b => W3 m ρ c b
/-- At the second call's exit: its three arrays at what the pipeline leaves (the output `main_v3` with every row
    block's write-back folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (the second call's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch, where the third call is entered: `main_v4` holds the product of the second call's
    output and the fifth argument. -/
abbrev W5 : Dev nD → Valuation τ sig (Elt F) := fun c => StableHlo.after hostOps2 (W4 m ρ c)
/-- The same read at the TensorCore's references (what the third call's proof data take). -/
abbrev V5 : (c : Dev nD) → (b : Ref sig .tc) → Buf (Elt F) ((c : Thread nD τ).loc b) := fun c b => W5 m ρ c b
/-- At the third call's exit, which is the return: its three arrays at what the pipeline leaves (the program's result
    `main_v5` with every row block's write-back folded in), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (the third call's exit contents). -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments end as launched

No host stretch writes an argument, and a call either reads it through an input window, whose array the pipeline leaves
as it found it, or does not touch it: the fold at an argument's buffer walks back to the launch memory. -/

/-- `main_arg0` is no window's array of any call and no host stretch writes it. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := hostOps2_keeps _ main_arg0 (by decide)
    _ = W3 m ρ c (Proc.devRef .tc main_arg0) := W4_of_ne m ρ c main_arg0 (by decide)
    _ = W2 m ρ c (Proc.devRef .tc main_arg0) := hostOps1_keeps _ main_arg0 (by decide)
    _ = W1 m ρ c (Proc.devRef .tc main_arg0) := W2_of_ne m ρ c main_arg0 (by decide)
    _ = W0 m ρ c (Proc.devRef .tc main_arg0) := hostOps0_keeps _ main_arg0 (by decide)
    _ = m ((c : Thread nD τ).loc main_arg0) := rfl

/-- `main_arg1` is `adj`: the first window's array of all three calls, an input, left as entered by each; no host
    stretch writes it. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := (W6_arr m ρ c 0).trans (((dat2 (V5 m ρ) c).arrAt_in 0 rfl _).trans (A_eq2 (V5 m ρ) c 0))
    _ = W4 m ρ c (Proc.devRef .tc main_arg1) := hostOps2_keeps _ main_arg1 (by decide)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := hostOps1_keeps _ main_arg1 (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := hostOps0_keeps _ main_arg1 (by decide)
    _ = m ((c : Thread nD τ).loc main_arg1) := rfl

/-- `main_arg2` is no window's array of any call and no host stretch writes it. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := hostOps2_keeps _ main_arg2 (by decide)
    _ = W3 m ρ c (Proc.devRef .tc main_arg2) := W4_of_ne m ρ c main_arg2 (by decide)
    _ = W2 m ρ c (Proc.devRef .tc main_arg2) := hostOps1_keeps _ main_arg2 (by decide)
    _ = W1 m ρ c (Proc.devRef .tc main_arg2) := W2_of_ne m ρ c main_arg2 (by decide)
    _ = W0 m ρ c (Proc.devRef .tc main_arg2) := hostOps0_keeps _ main_arg2 (by decide)
    _ = m ((c : Thread nD τ).loc main_arg2) := rfl

/-- `main_arg3` is no window's array of any call and no host stretch writes it. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := hostOps2_keeps _ main_arg3 (by decide)
    _ = W3 m ρ c (Proc.devRef .tc main_arg3) := W4_of_ne m ρ c main_arg3 (by decide)
    _ = W2 m ρ c (Proc.devRef .tc main_arg3) := hostOps1_keeps _ main_arg3 (by decide)
    _ = W1 m ρ c (Proc.devRef .tc main_arg3) := W2_of_ne m ρ c main_arg3 (by decide)
    _ = W0 m ρ c (Proc.devRef .tc main_arg3) := hostOps0_keeps _ main_arg3 (by decide)
    _ = m ((c : Thread nD τ).loc main_arg3) := rfl

/-- `main_arg4` is no window's array of any call and no host stretch writes it. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := hostOps2_keeps _ main_arg4 (by decide)
    _ = W3 m ρ c (Proc.devRef .tc main_arg4) := W4_of_ne m ρ c main_arg4 (by decide)
    _ = W2 m ρ c (Proc.devRef .tc main_arg4) := hostOps1_keeps _ main_arg4 (by decide)
    _ = W1 m ρ c (Proc.devRef .tc main_arg4) := W2_of_ne m ρ c main_arg4 (by decide)
    _ = W0 m ρ c (Proc.devRef .tc main_arg4) := hostOps0_keeps _ main_arg4 (by decide)
    _ = m ((c : Thread nD τ).loc main_arg4) := rfl

/-- The program's result buffer at the return: the third call's output array with every row block's write-back
    folded in. -/
theorem W6_main_v5 (c : Dev nD) : W6 m ρ c (Proc.devRef .tc main_v5) = (dat2 (V5 m ρ) c).arrAt 2 cfg2.N :=
  W6_arr m ρ c 2

/-! ## The proof data family and the thread state -/

/-- No call has a prefetched table. -/
abbrev adm : (p : Fin 3) → (pcfgs (F := F) p).Adm := fun p => (cfgs p).toPCfg_adm
/-- Every call's proof data, each at the contents its region is entered from. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's invariant
    takes it in and gives it back) and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends at those
    references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host stretch allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state beside the core owing nothing: every unscoped buffer at the last boundary's contents `W6`, the
    generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- THE FIRST CALL over the thread state: entered from every unscoped buffer at `W1`, left at `W2` (what the second host stretch
    is entered from). Its three arrays are split out of the unscoped buffers and put back at the exit contents; the
    generator register and the scoped buffers no window stages, the scratch accumulator among them at anything, make the
    invariant before the first point, and the invariant after the last point gives them back, the accumulator's contents
    forgotten; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND CALL over the thread state: entered from every unscoped buffer at `W3`, left at `W4` (what the third host stretch
    is entered from). Its three arrays are split out of the unscoped buffers and put back at the exit contents; the
    generator register and the scoped buffers no window stages, the scratch accumulator among them at anything, make the
    invariant before the first point, and the invariant after the last point gives them back, the accumulator's contents
    forgotten; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE THIRD CALL over the thread state: entered from every unscoped buffer at `W5`, left at `W6` (what the launch reads
    at the end), the core owing nothing set beside the rest. Otherwise as the first two: the arrays split out and put
    back, the generator register and the scoped buffers no window stages into the invariant and out, the accumulator's
    contents forgotten at the exit. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec2 c : sProp 𝕄) from ?_).trans (hin2 (V5 m ρ) c)
    unfold Pipeline.ΦA
    iintro ⟨Hp, -, Hr⟩
    isplitl [Hr]; · iexact Hr
    iexact Hp
  hout c := by
    rw [Pipeline.ownSems0_none]
    refine (hout2 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main is the run of the segments. -/
theorem main_run (c : Dev nD) : main (F := F) c = Pipeline.Seg.run (segs m ρ) := (main_chain c).trans (by chain_rfl)

set_option backward.isDefEq.respectTransparency.types false in
/-- THE RUN. At the compiled mesh, from any memory with zero counters, every weakly fair execution of @main on the
    TensorCores terminates, nothing faulting, and in every final state every unscoped buffer of every core holds the last
    boundary's contents `W6`: the segments chain from the launch memory to the return, and the last thread state is read
    against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME at any `F`: every weakly fair execution of @main terminates, nothing faulting, and every final state has
    the five argument arrays as launched: each is an unscoped buffer, read off the last boundary's contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩) (run_all m ρ)

end Cert.Kernel.Hand

end
-- ==== Proof.KI.Body0.lean ====
/-
  One call of the streaming product `adj · X`, followed through the pipeline: what the kernel's body does to its
  accumulator and to the output's staging buffer at each of the 128 grid points, as separation-logic triples, and
  the pipeline library's proof data and body obligation over them. Stated for any float instance `F`.
-/
import proofs.«146614_j73212012528270_1_alg».proof.Proof.Gen.KernelIdeal.Launch
import proofs.«146614_j73212012528270_1_alg».proof.Proof.Gen.KernelIdeal.Skeleton
import proofs.«146614_j73212012528270_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0 (custom_call 0): one row block of `adj` times the operand, accumulated along the grid's second axis

The grid is 16 × 8, row-major: point `t` is row block `t / 8`, reduction block `t % 8`. At every point the body
adds to a scratch accumulator the product of the staged `1024 × 2048` block of `adj` with the staged
`2048 × 32` block of the operand; where `t % 8 = 0` it first clears the accumulator; where `t % 8 = 7` it
then stores the activation of the accumulator into the output's staging buffer, which is written back there and
nowhere else. Everything is stated at a parameter `V`: core `c`'s unscoped buffers as the region finds them. -/

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point (fetched at every point, uncut, never idle),
    for any proof data over `V`'s arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region

/-! ## The two conditions of the body, and where they hold on the grid -/

/-- "this is the first reduction block": the accumulator is cleared. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- "this is the last reduction block": the output is stored. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The body on any whole staging memrefs, case by case -/

/-- The scratch accumulator: a whole scoped buffer of the kernel's own. -/
abbrev scM0 : Memref sig .tc .vmem S1024x32 .f32 := Memref.whole cc0_scratch0

theorem hzero0 : (![0, 0] : Fin 2 → ℕ) = fun _ => 0 := by funext a; fin_cases a <;> rfl

set_option maxHeartbeats 2000000 in
/-- First reduction block: the accumulator, whatever it held, ends at the product added to the cleared accumulator;
    the output's staging buffer is not touched. -/
theorem body0_first (c : Dev nD) (E : Set ℕ) (i : grid0.Coords)
    (arg2 : Memref sig .tc .vmem S1024x2048 .f32) (harg2 : arg2.IsWhole) (arg3 : Memref sig .tc .vmem S2048x32 .f32) (harg3 : arg3.IsWhole)
    (arg4 : Memref sig .tc .vmem S1024x32 .f32) (harg4 : arg4.IsWhole) (arg5 : Memref sig .tc .vmem S1024x32 .f32) (harg5 : arg5.IsWhole)
    (x0 : Vec F S1024x2048 .f32) (x1 : Vec F S2048x32 .f32) (K : PUnit → sProp 𝕄)
    (hc0 : cond0_0 i) (hc1 : ¬cond0_1 i) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k0_pay2 x0 x1 (k0_pay1 (F := F)))) -∗ K ⟨⟩))
      ⊢ wp frame (wpE (defs₀ (F := F)) Variants.none c none) E (cc0__adj_matmul_kernel i arg2 harg2 arg3 harg3 arg4 harg4 arg5 harg5) K := by
  simp only [cc0__adj_matmul_kernel_eq_skeleton]; unfold cc0__adj_matmul_kernel_skel
  unfold owns
  iintro ⟨⟨%f0, %hf0, H0⟩, ⟨%f1, %hf1, H1⟩, ⟨%d5, %f5, -, H5⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H5
  ipureintro
  try sl_unfold_words
  rw [View.read_writes_eq_canon _ _ _ (fun y => by refine ⟨_, List.mem_cons_self, ?_⟩; dsimp only; exact View.mem_set_unit_zero hzero0 _ y),
    View.canon_cons_unit_zero (S := S1024x32) hzero0]
  simp only [View.readAt_eq_ld, harg2.read_unread, harg3.read_unread, View.ld_unit_zero (S := S1024x2048) hzero0,
    View.ld_unit_zero (S := S2048x32) hzero0, View.readCov_unit_zero (S := S1024x32) _ hzero0]

set_option maxHeartbeats 2000000 in
/-- A middle reduction block: the accumulator at `s` ends at `s` plus the product; the output's staging buffer is not touched. -/
theorem body0_mid (c : Dev nD) (E : Set ℕ) (i : grid0.Coords)
    (arg2 : Memref sig .tc .vmem S1024x2048 .f32) (harg2 : arg2.IsWhole) (arg3 : Memref sig .tc .vmem S2048x32 .f32) (harg3 : arg3.IsWhole)
    (arg4 : Memref sig .tc .vmem S1024x32 .f32) (harg4 : arg4.IsWhole) (arg5 : Memref sig .tc .vmem S1024x32 .f32) (harg5 : arg5.IsWhole)
    (x0 : Vec F S1024x2048 .f32) (x1 : Vec F S2048x32 .f32) (K : PUnit → sProp 𝕄)
    (hc0 : ¬cond0_0 i) (hc1 : ¬cond0_1 i) (s : Vec F S1024x32 .f32) :
    iprop(owns (c : Thread nD τ) arg2 fullShare x0 ∗ owns (c : Thread nD τ) arg3 fullShare x1 ∗ owns (c : Thread nD τ) arg5 fullShare s
        ∗ (iprop(owns (c : Thread nD τ) arg2 fullShare x0 ∗ owns (c : Thread nD τ) arg3 fullShare x1
            ∗ owns (c : Thread nD τ) arg5 fullShare (k0_pay2 x0 x1 s)) -∗ K ⟨⟩))
      ⊢ wp frame (wpE (defs₀ (F := F)) Variants.none c none) E (cc0__adj_matmul_kernel i arg2 harg2 arg3 harg3 arg4 harg4 arg5 harg5) K := by
  simp only [cc0__adj_matmul_kernel_eq_skeleton]; unfold cc0__adj_matmul_kernel_skel
  unfold owns
  iintro ⟨⟨%f0, %hf0, H0⟩, ⟨%f1, %hf1, H1⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H5
  ipureintro
  try sl_unfold_words
  rw [View.read_writes_eq_canon _ _ _ (fun y => by refine ⟨_, List.mem_cons_self, ?_⟩; dsimp only; exact View.mem_set_unit_zero hzero0 _ y),
    View.canon_cons_unit_zero (S := S1024x32) hzero0]
  simp only [View.readAt_eq_ld, harg2.read_unread, harg3.read_unread, harg5.read_unread, View.ld_unit_zero (S := S1024x2048) hzero0,
    View.ld_unit_zero (S := S2048x32) hzero0, View.ld_unit_zero (S := S1024x32) hzero0]

set_option maxHeartbeats 2000000 in
/-- The last reduction block: the accumulator at `s` ends at `s` plus the product, and the output's staging buffer,
    whatever it held, at the activation of that. -/
theorem body0_last (c : Dev nD) (E : Set ℕ) (i : grid0.Coords)
    (arg2 : Memref sig .tc .vmem S1024x2048 .f32) (harg2 : arg2.IsWhole) (arg3 : Memref sig .tc .vmem S2048x32 .f32) (harg3 : arg3.IsWhole)
    (arg4 : Memref sig .tc .vmem S1024x32 .f32) (harg4 : arg4.IsWhole) (arg5 : Memref sig .tc .vmem S1024x32 .f32) (harg5 : arg5.IsWhole)
    (x0 : Vec F S1024x2048 .f32) (x1 : Vec F S2048x32 .f32) (K : PUnit → sProp 𝕄)
    (hc0 : ¬cond0_0 i) (hc1 : cond0_1 i) (s : Vec F S1024x32 .f32) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (k0_pay3 (k0_pay2 x0 x1 s))
            ∗ owns (c : Thread nD τ) arg5 fullShare (k0_pay2 x0 x1 s)) -∗ K ⟨⟩))
      ⊢ wp frame (wpE (defs₀ (F := F)) Variants.none c none) E (cc0__adj_matmul_kernel i arg2 harg2 arg3 harg3 arg4 harg4 arg5 harg5) K := by
  simp only [cc0__adj_matmul_kernel_eq_skeleton]; unfold cc0__adj_matmul_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    try sl_unfold_words
    rw [View.read_writes_eq_canon _ _ _ (fun y => by refine ⟨_, List.mem_cons_self, ?_⟩; dsimp only; exact View.mem_set_unit_zero hzero0 _ y),
      View.canon_cons_unit_zero (S := S1024x32) hzero0]
    simp only [View.readAt_eq_ld, harg2.read_unread, harg3.read_unread, harg5.read_unread, View.ld_unit_zero (S := S1024x2048) hzero0,
      View.ld_unit_zero (S := S2048x32) hzero0, View.ld_unit_zero (S := S1024x32) hzero0, View.readCov_unit_zero (S := S1024x32) _ hzero0]
  iexists _; isplitr
  swap; · iexact H5
  ipureintro
  try sl_unfold_words
  rw [View.read_writes_eq_canon _ _ _ (fun y => by refine ⟨_, List.mem_cons_self, ?_⟩; dsimp only; exact View.mem_set_unit_zero hzero0 _ y),
    View.canon_cons_unit_zero (S := S1024x32) hzero0]
  simp only [View.readAt_eq_ld, harg2.read_unread, harg3.read_unread, harg5.read_unread, View.ld_unit_zero (S := S1024x2048) hzero0,
    View.ld_unit_zero (S := S2048x32) hzero0, View.ld_unit_zero (S := S1024x32) hzero0]

/-! ## The accumulator point by point, the invariant, the proof data -/

section Data
variable (V : (c : Dev nD) → (b : Ref sig .tc) → Buf (Elt F) ((c : Thread nD τ).loc b))

/-- The staged block of `adj` and of the operand at point `t`, at their literal types. -/
abbrev ablk0 (c : Dev nD) (t : Fin cfg0.N) : Vec F S1024x2048 .f32 := iblk0 V c 0 t
abbrev xblk0 (c : Dev nD) (t : Fin cfg0.N) : Vec F S2048x32 .f32 := iblk0 V c 1 t

/-- THE ACCUMULATION. What the scratch accumulator holds after the body at position `n`: the point's product added
    to the cleared accumulator where `n` opens a row block (`n % 8 = 0`), to what position `n - 1` left otherwise. -/
def accAt0 (c : Dev nD) : (n : ℕ) → n < cfg0.N → Vec F S1024x32 .f32
  | 0, hn => k0_pay2 (ablk0 V c ⟨0, hn⟩) (xblk0 V c ⟨0, hn⟩) (k0_pay1 (F := F))
  | n + 1, hn =>
    if (n + 1) % 8 = 0 then k0_pay2 (ablk0 V c ⟨n + 1, hn⟩) (xblk0 V c ⟨n + 1, hn⟩) (k0_pay1 (F := F))
    else k0_pay2 (ablk0 V c ⟨n + 1, hn⟩) (xblk0 V c ⟨n + 1, hn⟩) (accAt0 c n (Nat.lt_of_succ_lt hn))

theorem accAt0_first (c : Dev nD) (t : Fin cfg0.N) (h : t.val % 8 = 0) :
    accAt0 V c t.val t.isLt = k0_pay2 (ablk0 V c t) (xblk0 V c t) (k0_pay1 (F := F)) := by
  obtain ⟨n, hn⟩ := t
  cases n with
  | zero => rfl
  | succ n => exact if_pos h

theorem accAt0_next (c : Dev nD) (t : Fin cfg0.N) (h : ¬t.val % 8 = 0) :
    accAt0 V c t.val t.isLt = k0_pay2 (ablk0 V c t) (xblk0 V c t) (accAt0 V c (t.val - 1) (Nat.lt_of_le_of_lt (Nat.sub_le _ _) t.isLt)) := by
  obtain ⟨n, hn⟩ := t
  cases n with
  | zero => exact absurd (Nat.zero_mod _) h
  | succ n => exact if_neg h

/-- The core's scoped buffers that are neither a staging buffer of this call nor its accumulator, at some contents each:
    carried through the region unopened. -/
abbrev restS0 (c : Dev nD) : sProp 𝕄 :=
  Pipeline.scopedRestBut (Ix := Unit) (Name := ℕ) (U := UR sig nD τ) (Lvl := ℕ) (Val := Elt F) spec0 c [cc0_scratch0]

/-- The class's invariant with the accumulator taken out. -/
theorem PhiA0_eq (c : Dev nD) :
    (Pipeline.ΦA spec0 c : sProp 𝕄)
      = iprop(((∃ d, owns (c : Thread nD τ) scM0 fullShare d) ∗ restS0 c) ∗ (∃ r, prngReg c r)) := by
  unfold Pipeline.ΦA
  rw [Pipeline.scopedRest_split_of_list spec0 c [cc0_scratch0] (by decide) (by decide)]
  simp only [scM0, owns_whole]
  rfl

/-- The region's invariant before position `n`: before the first point the class's (the accumulator at anything); afterwards
    the accumulator at what the point before left in it, the other scoped buffers at anything, the generator register at
    some state. -/
def PhiS0 (c : Dev nD) : (n : ℕ) → n ≤ cfg0.N → sProp 𝕄
  | 0, _ => Pipeline.ΦA spec0 c
  | n + 1, hn => iprop((owns (c : Thread nD τ) scM0 fullShare (accAt0 V c n hn) ∗ restS0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (accAt0 V c n hn) ∗ restS0 c) ∗ (∃ r, prngReg c r)) := rfl
theorem PhiS0_pos (c : Dev nD) (n : ℕ) (h : n ≤ cfg0.N) (hz : n ≠ 0) :
    PhiS0 V c n h = iprop((owns (c : Thread nD τ) scM0 fullShare (accAt0 V c (n - 1) (by omega)) ∗ restS0 c) ∗ (∃ r, prngReg c r)) := by
  cases n with
  | zero => exact absurd rfl hz
  | succ n => rfl

/-- The proof data of this call on core `c`: the arrays as the region finds them; after the body at point `t` each input's
    buffer at its block and the output's at the activation of the accumulator (consulted only where the block is written
    back, at the row block's last point); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (accAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (accAt0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point. The inputs' buffers hold their blocks; which case the point is in is read off its position;
    the invariant hands the body the accumulator (at anything at the very first point, at what the point before left
    afterwards) and takes it back at this point's contents; where the output is not stored its buffer is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 128 := lt_of_lt_of_eq t.isLt (show cfg0.N = 128 from N_0)
  by_cases h0 : t.val % 8 = 0
  · have hc0 : cond0_0 (grid0.coords t) := (hcond0_0 t).mpr h0
    have hc1 : ¬cond0_1 (grid0.coords t) := fun h => by have := (hcond0_1 t).mp h; omega
    rw [Dat.leavesExact_idle (dat0 V c) 2 t (idleAt0_2 t hc1) (noFlush0_2 t hc1)]
    rw [accAt0_first V c t h0]
    by_cases hz : t.val = 0
    · rw [PhiS0_castSucc V c t, PhiS0_zero V c _ _ hz, PhiA0_eq]
      iintro ⟨⟨⟨HS, Hr⟩, Hg⟩, Ho, ⟨%d0, H0⟩, ⟨%d1, H1⟩, H2⟩
      iapply (body0_first c Set.univ (grid0.coords t) _ _ _ _ _ _ _ _ (ablk0 V c t) (xblk0 V c t) _ hc0 hc1)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · rw [PhiS0_castSucc V c t, PhiS0_pos V c _ _ hz]
      iintro ⟨⟨⟨HS, Hr⟩, Hg⟩, Ho, ⟨%d0, H0⟩, ⟨%d1, H1⟩, H2⟩
      iapply (body0_first c Set.univ (grid0.coords t) _ _ _ _ _ _ _ _ (ablk0 V c t) (xblk0 V c t) _ hc0 hc1)
      isplitl [H0]; · iexact H0
      isplitl [H1]; · iexact H1
      isplitl [HS]; · iexists _; iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
  · have hc0 : ¬cond0_0 (grid0.coords t) := fun h => h0 ((hcond0_0 t).mp h)
    have hz : t.val ≠ 0 := fun h => h0 (by rw [h])
    rw [accAt0_next V c t h0]
    rw [PhiS0_castSucc V c t, PhiS0_pos V c _ _ hz]
    by_cases h7 : t.val % 8 = 7
    · have hc1 : cond0_1 (grid0.coords t) := (hcond0_1 t).mpr h7
      rw [show (dat0 V c).leavesExact 2 t = owns (c : Thread nD τ) (st0_2 t) fullShare ((dat0 V c).after 2 t) from by
        unfold Dat.leavesExact; rw [liveAt0_2 t hc1], after0_2, accAt0_next V c t h0]
      iintro ⟨⟨⟨HS, Hr⟩, Hg⟩, Ho, ⟨%d0, H0⟩, ⟨%d1, H1⟩, ⟨%d2, H2⟩⟩
      iapply (body0_last c Set.univ (grid0.coords t) _ _ _ _ _ _ _ _ (ablk0 V c t) (xblk0 V c t) _ hc0 hc1 _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hc1 : ¬cond0_1 (grid0.coords t) := fun h => h7 ((hcond0_1 t).mp h)
      rw [Dat.leavesExact_idle (dat0 V c) 2 t (idleAt0_2 t hc1) (noFlush0_2 t hc1)]
      iintro ⟨⟨⟨HS, Hr⟩, Hg⟩, Ho, ⟨%d0, H0⟩, ⟨%d1, H1⟩, H2⟩
      iapply (body0_mid c Set.univ (grid0.coords t) _ _ _ _ _ _ _ _ (ablk0 V c t) (xblk0 V c t) _ hc0 hc1 _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS, Hr⟩, Hg⟩
  isplitl [HS Hr]
  · isplitl [HS]; · iexists _; iexact HS
    iexact Hr
  iexact Hg

end Data

end Cert.KernelIdeal.Hand

end
-- ==== Proof.KI.Body1.lean ====
/-
  One call of the streaming product `adj · X`, followed through the pipeline: what the kernel's body does to its
  accumulator and to the output's staging buffer at each of the 128 grid points, as separation-logic triples, and
  the pipeline library's proof data and body obligation over them. Stated for any float instance `F`.
-/
import proofs.«146614_j73212012528270_1_alg».proof.Proof.Gen.KernelIdeal.Launch
import proofs.«146614_j73212012528270_1_alg».proof.Proof.Gen.KernelIdeal.Skeleton
import proofs.«146614_j73212012528270_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1 (custom_call 1): one row block of `adj` times the operand, accumulated along the grid's second axis

The grid is 16 × 8, row-major: point `t` is row block `t / 8`, reduction block `t % 8`. At every point the body
adds to a scratch accumulator the product of the staged `1024 × 2048` block of `adj` with the staged
`2048 × 32` block of the operand; where `t % 8 = 0` it first clears the accumulator; where `t % 8 = 7` it
then stores the activation of the accumulator into the output's staging buffer, which is written back there and
nowhere else. Everything is stated at a parameter `V`: core `c`'s unscoped buffers as the region finds them. -/

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point (fetched at every point, uncut, never idle),
    for any proof data over `V`'s arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region

/-! ## The two conditions of the body, and where they hold on the grid -/

/-- "this is the first reduction block": the accumulator is cleared. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "this is the last reduction block": the output is stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The body on any whole staging memrefs, case by case -/

/-- The scratch accumulator: a whole scoped buffer of the kernel's own. -/
abbrev scM1 : Memref sig .tc .vmem S1024x32 .f32 := Memref.whole cc1_scratch0

theorem hzero1 : (![0, 0] : Fin 2 → ℕ) = fun _ => 0 := by funext a; fin_cases a <;> rfl

set_option maxHeartbeats 2000000 in
/-- First reduction block: the accumulator, whatever it held, ends at the product added to the cleared accumulator;
    the output's staging buffer is not touched. -/
theorem body1_first (c : Dev nD) (E : Set ℕ) (i : grid1.Coords)
    (arg2 : Memref sig .tc .vmem S1024x2048 .f32) (harg2 : arg2.IsWhole) (arg3 : Memref sig .tc .vmem S2048x32 .f32) (harg3 : arg3.IsWhole)
    (arg4 : Memref sig .tc .vmem S1024x32 .f32) (harg4 : arg4.IsWhole) (arg5 : Memref sig .tc .vmem S1024x32 .f32) (harg5 : arg5.IsWhole)
    (x0 : Vec F S1024x2048 .f32) (x1 : Vec F S2048x32 .f32) (K : PUnit → sProp 𝕄)
    (hc0 : cond1_0 i) (hc1 : ¬cond1_1 i) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k1_pay2 x0 x1 (k1_pay1 (F := F)))) -∗ K ⟨⟩))
      ⊢ wp frame (wpE (defs₀ (F := F)) Variants.none c none) E (cc1__adj_matmul_kernel i arg2 harg2 arg3 harg3 arg4 harg4 arg5 harg5) K := by
  simp only [cc1__adj_matmul_kernel_eq_skeleton]; unfold cc1__adj_matmul_kernel_skel
  unfold owns
  iintro ⟨⟨%f0, %hf0, H0⟩, ⟨%f1, %hf1, H1⟩, ⟨%d5, %f5, -, H5⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H5
  ipureintro
  try sl_unfold_words
  rw [View.read_writes_eq_canon _ _ _ (fun y => by refine ⟨_, List.mem_cons_self, ?_⟩; dsimp only; exact View.mem_set_unit_zero hzero1 _ y),
    View.canon_cons_unit_zero (S := S1024x32) hzero1]
  simp only [View.readAt_eq_ld, harg2.read_unread, harg3.read_unread, View.ld_unit_zero (S := S1024x2048) hzero1,
    View.ld_unit_zero (S := S2048x32) hzero1, View.readCov_unit_zero (S := S1024x32) _ hzero1]

set_option maxHeartbeats 2000000 in
/-- A middle reduction block: the accumulator at `s` ends at `s` plus the product; the output's staging buffer is not touched. -/
theorem body1_mid (c : Dev nD) (E : Set ℕ) (i : grid1.Coords)
    (arg2 : Memref sig .tc .vmem S1024x2048 .f32) (harg2 : arg2.IsWhole) (arg3 : Memref sig .tc .vmem S2048x32 .f32) (harg3 : arg3.IsWhole)
    (arg4 : Memref sig .tc .vmem S1024x32 .f32) (harg4 : arg4.IsWhole) (arg5 : Memref sig .tc .vmem S1024x32 .f32) (harg5 : arg5.IsWhole)
    (x0 : Vec F S1024x2048 .f32) (x1 : Vec F S2048x32 .f32) (K : PUnit → sProp 𝕄)
    (hc0 : ¬cond1_0 i) (hc1 : ¬cond1_1 i) (s : Vec F S1024x32 .f32) :
    iprop(owns (c : Thread nD τ) arg2 fullShare x0 ∗ owns (c : Thread nD τ) arg3 fullShare x1 ∗ owns (c : Thread nD τ) arg5 fullShare s
        ∗ (iprop(owns (c : Thread nD τ) arg2 fullShare x0 ∗ owns (c : Thread nD τ) arg3 fullShare x1
            ∗ owns (c : Thread nD τ) arg5 fullShare (k1_pay2 x0 x1 s)) -∗ K ⟨⟩))
      ⊢ wp frame (wpE (defs₀ (F := F)) Variants.none c none) E (cc1__adj_matmul_kernel i arg2 harg2 arg3 harg3 arg4 harg4 arg5 harg5) K := by
  simp only [cc1__adj_matmul_kernel_eq_skeleton]; unfold cc1__adj_matmul_kernel_skel
  unfold owns
  iintro ⟨⟨%f0, %hf0, H0⟩, ⟨%f1, %hf1, H1⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H5
  ipureintro
  try sl_unfold_words
  rw [View.read_writes_eq_canon _ _ _ (fun y => by refine ⟨_, List.mem_cons_self, ?_⟩; dsimp only; exact View.mem_set_unit_zero hzero1 _ y),
    View.canon_cons_unit_zero (S := S1024x32) hzero1]
  simp only [View.readAt_eq_ld, harg2.read_unread, harg3.read_unread, harg5.read_unread, View.ld_unit_zero (S := S1024x2048) hzero1,
    View.ld_unit_zero (S := S2048x32) hzero1, View.ld_unit_zero (S := S1024x32) hzero1]

set_option maxHeartbeats 2000000 in
/-- The last reduction block: the accumulator at `s` ends at `s` plus the product, and the output's staging buffer,
    whatever it held, at the activation of that. -/
theorem body1_last (c : Dev nD) (E : Set ℕ) (i : grid1.Coords)
    (arg2 : Memref sig .tc .vmem S1024x2048 .f32) (harg2 : arg2.IsWhole) (arg3 : Memref sig .tc .vmem S2048x32 .f32) (harg3 : arg3.IsWhole)
    (arg4 : Memref sig .tc .vmem S1024x32 .f32) (harg4 : arg4.IsWhole) (arg5 : Memref sig .tc .vmem S1024x32 .f32) (harg5 : arg5.IsWhole)
    (x0 : Vec F S1024x2048 .f32) (x1 : Vec F S2048x32 .f32) (K : PUnit → sProp 𝕄)
    (hc0 : ¬cond1_0 i) (hc1 : cond1_1 i) (s : Vec F S1024x32 .f32) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (k1_pay3 (k1_pay2 x0 x1 s))
            ∗ owns (c : Thread nD τ) arg5 fullShare (k1_pay2 x0 x1 s)) -∗ K ⟨⟩))
      ⊢ wp frame (wpE (defs₀ (F := F)) Variants.none c none) E (cc1__adj_matmul_kernel i arg2 harg2 arg3 harg3 arg4 harg4 arg5 harg5) K := by
  simp only [cc1__adj_matmul_kernel_eq_skeleton]; unfold cc1__adj_matmul_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    try sl_unfold_words
    rw [View.read_writes_eq_canon _ _ _ (fun y => by refine ⟨_, List.mem_cons_self, ?_⟩; dsimp only; exact View.mem_set_unit_zero hzero1 _ y),
      View.canon_cons_unit_zero (S := S1024x32) hzero1]
    simp only [View.readAt_eq_ld, harg2.read_unread, harg3.read_unread, harg5.read_unread, View.ld_unit_zero (S := S1024x2048) hzero1,
      View.ld_unit_zero (S := S2048x32) hzero1, View.ld_unit_zero (S := S1024x32) hzero1, View.readCov_unit_zero (S := S1024x32) _ hzero1]
  iexists _; isplitr
  swap; · iexact H5
  ipureintro
  try sl_unfold_words
  rw [View.read_writes_eq_canon _ _ _ (fun y => by refine ⟨_, List.mem_cons_self, ?_⟩; dsimp only; exact View.mem_set_unit_zero hzero1 _ y),
    View.canon_cons_unit_zero (S := S1024x32) hzero1]
  simp only [View.readAt_eq_ld, harg2.read_unread, harg3.read_unread, harg5.read_unread, View.ld_unit_zero (S := S1024x2048) hzero1,
    View.ld_unit_zero (S := S2048x32) hzero1, View.ld_unit_zero (S := S1024x32) hzero1]

/-! ## The accumulator point by point, the invariant, the proof data -/

section Data
variable (V : (c : Dev nD) → (b : Ref sig .tc) → Buf (Elt F) ((c : Thread nD τ).loc b))

/-- The staged block of `adj` and of the operand at point `t`, at their literal types. -/
abbrev ablk1 (c : Dev nD) (t : Fin cfg1.N) : Vec F S1024x2048 .f32 := iblk1 V c 0 t
abbrev xblk1 (c : Dev nD) (t : Fin cfg1.N) : Vec F S2048x32 .f32 := iblk1 V c 1 t

/-- THE ACCUMULATION. What the scratch accumulator holds after the body at position `n`: the point's product added
    to the cleared accumulator where `n` opens a row block (`n % 8 = 0`), to what position `n - 1` left otherwise. -/
def accAt1 (c : Dev nD) : (n : ℕ) → n < cfg1.N → Vec F S1024x32 .f32
  | 0, hn => k1_pay2 (ablk1 V c ⟨0, hn⟩) (xblk1 V c ⟨0, hn⟩) (k1_pay1 (F := F))
  | n + 1, hn =>
    if (n + 1) % 8 = 0 then k1_pay2 (ablk1 V c ⟨n + 1, hn⟩) (xblk1 V c ⟨n + 1, hn⟩) (k1_pay1 (F := F))
    else k1_pay2 (ablk1 V c ⟨n + 1, hn⟩) (xblk1 V c ⟨n + 1, hn⟩) (accAt1 c n (Nat.lt_of_succ_lt hn))

theorem accAt1_first (c : Dev nD) (t : Fin cfg1.N) (h : t.val % 8 = 0) :
    accAt1 V c t.val t.isLt = k1_pay2 (ablk1 V c t) (xblk1 V c t) (k1_pay1 (F := F)) := by
  obtain ⟨n, hn⟩ := t
  cases n with
  | zero => rfl
  | succ n => exact if_pos h

theorem accAt1_next (c : Dev nD) (t : Fin cfg1.N) (h : ¬t.val % 8 = 0) :
    accAt1 V c t.val t.isLt = k1_pay2 (ablk1 V c t) (xblk1 V c t) (accAt1 V c (t.val - 1) (Nat.lt_of_le_of_lt (Nat.sub_le _ _) t.isLt)) := by
  obtain ⟨n, hn⟩ := t
  cases n with
  | zero => exact absurd (Nat.zero_mod _) h
  | succ n => exact if_neg h

/-- The core's scoped buffers that are neither a staging buffer of this call nor its accumulator, at some contents each:
    carried through the region unopened. -/
abbrev restS1 (c : Dev nD) : sProp 𝕄 :=
  Pipeline.scopedRestBut (Ix := Unit) (Name := ℕ) (U := UR sig nD τ) (Lvl := ℕ) (Val := Elt F) spec1 c [cc1_scratch0]

/-- The class's invariant with the accumulator taken out. -/
theorem PhiA1_eq (c : Dev nD) :
    (Pipeline.ΦA spec1 c : sProp 𝕄)
      = iprop(((∃ d, owns (c : Thread nD τ) scM1 fullShare d) ∗ restS1 c) ∗ (∃ r, prngReg c r)) := by
  unfold Pipeline.ΦA
  rw [Pipeline.scopedRest_split_of_list spec1 c [cc1_scratch0] (by decide) (by decide)]
  simp only [scM1, owns_whole]
  rfl

/-- The region's invariant before position `n`: before the first point the class's (the accumulator at anything); afterwards
    the accumulator at what the point before left in it, the other scoped buffers at anything, the generator register at
    some state. -/
def PhiS1 (c : Dev nD) : (n : ℕ) → n ≤ cfg1.N → sProp 𝕄
  | 0, _ => Pipeline.ΦA spec1 c
  | n + 1, hn => iprop((owns (c : Thread nD τ) scM1 fullShare (accAt1 V c n hn) ∗ restS1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare (accAt1 V c n hn) ∗ restS1 c) ∗ (∃ r, prngReg c r)) := rfl
theorem PhiS1_pos (c : Dev nD) (n : ℕ) (h : n ≤ cfg1.N) (hz : n ≠ 0) :
    PhiS1 V c n h = iprop((owns (c : Thread nD τ) scM1 fullShare (accAt1 V c (n - 1) (by omega)) ∗ restS1 c) ∗ (∃ r, prngReg c r)) := by
  cases n with
  | zero => exact absurd rfl hz
  | succ n => rfl

/-- The proof data of this call on core `c`: the arrays as the region finds them; after the body at point `t` each input's
    buffer at its block and the output's at the activation of the accumulator (consulted only where the block is written
    back, at the row block's last point); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (accAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (accAt1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The inputs' buffers hold their blocks; which case the point is in is read off its position;
    the invariant hands the body the accumulator (at anything at the very first point, at what the point before left
    afterwards) and takes it back at this point's contents; where the output is not stored its buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 128 := lt_of_lt_of_eq t.isLt (show cfg1.N = 128 from N_1)
  by_cases h0 : t.val % 8 = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1)]
    rw [accAt1_first V c t h0]
    by_cases hz : t.val = 0
    · rw [PhiS1_castSucc V c t, PhiS1_zero V c _ _ hz, PhiA1_eq]
      iintro ⟨⟨⟨HS, Hr⟩, Hg⟩, Ho, ⟨%d0, H0⟩, ⟨%d1, H1⟩, H2⟩
      iapply (body1_first c Set.univ (grid1.coords t) _ _ _ _ _ _ _ _ (ablk1 V c t) (xblk1 V c t) _ hc0 hc1)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · rw [PhiS1_castSucc V c t, PhiS1_pos V c _ _ hz]
      iintro ⟨⟨⟨HS, Hr⟩, Hg⟩, Ho, ⟨%d0, H0⟩, ⟨%d1, H1⟩, H2⟩
      iapply (body1_first c Set.univ (grid1.coords t) _ _ _ _ _ _ _ _ (ablk1 V c t) (xblk1 V c t) _ hc0 hc1)
      isplitl [H0]; · iexact H0
      isplitl [H1]; · iexact H1
      isplitl [HS]; · iexists _; iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
  · have hc0 : ¬cond1_0 (grid1.coords t) := fun h => h0 ((hcond1_0 t).mp h)
    have hz : t.val ≠ 0 := fun h => h0 (by rw [h])
    rw [accAt1_next V c t h0]
    rw [PhiS1_castSucc V c t, PhiS1_pos V c _ _ hz]
    by_cases h7 : t.val % 8 = 7
    · have hc1 : cond1_1 (grid1.coords t) := (hcond1_1 t).mpr h7
      rw [show (dat1 V c).leavesExact 2 t = owns (c : Thread nD τ) (st1_2 t) fullShare ((dat1 V c).after 2 t) from by
        unfold Dat.leavesExact; rw [liveAt1_2 t hc1], after1_2, accAt1_next V c t h0]
      iintro ⟨⟨⟨HS, Hr⟩, Hg⟩, Ho, ⟨%d0, H0⟩, ⟨%d1, H1⟩, ⟨%d2, H2⟩⟩
      iapply (body1_last c Set.univ (grid1.coords t) _ _ _ _ _ _ _ _ (ablk1 V c t) (xblk1 V c t) _ hc0 hc1 _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hc1 : ¬cond1_1 (grid1.coords t) := fun h => h7 ((hcond1_1 t).mp h)
      rw [Dat.leavesExact_idle (dat1 V c) 2 t (idleAt1_2 t hc1) (noFlush1_2 t hc1)]
      iintro ⟨⟨⟨HS, Hr⟩, Hg⟩, Ho, ⟨%d0, H0⟩, ⟨%d1, H1⟩, H2⟩
      iapply (body1_mid c Set.univ (grid1.coords t) _ _ _ _ _ _ _ _ (ablk1 V c t) (xblk1 V c t) _ hc0 hc1 _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS, Hr⟩, Hg⟩
  isplitl [HS Hr]
  · isplitl [HS]; · iexists _; iexact HS
    iexact Hr
  iexact Hg

end Data

end Cert.KernelIdeal.Hand

end
-- ==== Proof.KI.Body2.lean ====
/-
  One call of the streaming product `adj · X`, followed through the pipeline: what the kernel's body does to its
  accumulator and to the output's staging buffer at each of the 128 grid points, as separation-logic triples, and
  the pipeline library's proof data and body obligation over them. Stated for any float instance `F`.
-/
import proofs.«146614_j73212012528270_1_alg».proof.Proof.Gen.KernelIdeal.Launch
import proofs.«146614_j73212012528270_1_alg».proof.Proof.Gen.KernelIdeal.Skeleton
import proofs.«146614_j73212012528270_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 2 (custom_call 2): one row block of `adj` times the operand, accumulated along the grid's second axis

The grid is 16 × 8, row-major: point `t` is row block `t / 8`, reduction block `t % 8`. At every point the body
adds to a scratch accumulator the product of the staged `1024 × 2048` block of `adj` with the staged
`2048 × 32` block of the operand; where `t % 8 = 0` it first clears the accumulator; where `t % 8 = 7` it
then stores the activation of the accumulator into the output's staging buffer, which is written back there and
nowhere else. Everything is stated at a parameter `V`: core `c`'s unscoped buffers as the region finds them. -/

section Region
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point (fetched at every point, uncut, never idle),
    for any proof data over `V`'s arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end Region

/-! ## The two conditions of the body, and where they hold on the grid -/

/-- "this is the first reduction block": the accumulator is cleared. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- "this is the last reduction block": the output is stored. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-! ## The body on any whole staging memrefs, case by case -/

/-- The scratch accumulator: a whole scoped buffer of the kernel's own. -/
abbrev scM2 : Memref sig .tc .vmem S1024x1 .f32 := Memref.whole cc2_scratch0

theorem hzero2 : (![0, 0] : Fin 2 → ℕ) = fun _ => 0 := by funext a; fin_cases a <;> rfl

set_option maxHeartbeats 2000000 in
/-- First reduction block: the accumulator, whatever it held, ends at the product added to the cleared accumulator;
    the output's staging buffer is not touched. -/
theorem body2_first (c : Dev nD) (E : Set ℕ) (i : grid2.Coords)
    (arg2 : Memref sig .tc .vmem S1024x2048 .f32) (harg2 : arg2.IsWhole) (arg3 : Memref sig .tc .vmem S2048x1 .f32) (harg3 : arg3.IsWhole)
    (arg4 : Memref sig .tc .vmem S1024x1 .f32) (harg4 : arg4.IsWhole) (arg5 : Memref sig .tc .vmem S1024x1 .f32) (harg5 : arg5.IsWhole)
    (x0 : Vec F S1024x2048 .f32) (x1 : Vec F S2048x1 .f32) (K : PUnit → sProp 𝕄)
    (hc0 : cond2_0 i) (hc1 : ¬cond2_1 i) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k2_pay2 x0 x1 (k2_pay1 (F := F)))) -∗ K ⟨⟩))
      ⊢ wp frame (wpE (defs₀ (F := F)) Variants.none c none) E (cc2__adj_matmul_kernel i arg2 harg2 arg3 harg3 arg4 harg4 arg5 harg5) K := by
  simp only [cc2__adj_matmul_kernel_eq_skeleton]; unfold cc2__adj_matmul_kernel_skel
  unfold owns
  iintro ⟨⟨%f0, %hf0, H0⟩, ⟨%f1, %hf1, H1⟩, ⟨%d5, %f5, -, H5⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H5
  ipureintro
  try sl_unfold_words
  rw [View.read_writes_eq_canon _ _ _ (fun y => by refine ⟨_, List.mem_cons_self, ?_⟩; dsimp only; exact View.mem_set_unit_zero hzero2 _ y),
    View.canon_cons_unit_zero (S := S1024x1) hzero2]
  simp only [View.readAt_eq_ld, harg2.read_unread, harg3.read_unread, View.ld_unit_zero (S := S1024x2048) hzero2,
    View.ld_unit_zero (S := S2048x1) hzero2, View.readCov_unit_zero (S := S1024x1) _ hzero2]

set_option maxHeartbeats 2000000 in
/-- A middle reduction block: the accumulator at `s` ends at `s` plus the product; the output's staging buffer is not touched. -/
theorem body2_mid (c : Dev nD) (E : Set ℕ) (i : grid2.Coords)
    (arg2 : Memref sig .tc .vmem S1024x2048 .f32) (harg2 : arg2.IsWhole) (arg3 : Memref sig .tc .vmem S2048x1 .f32) (harg3 : arg3.IsWhole)
    (arg4 : Memref sig .tc .vmem S1024x1 .f32) (harg4 : arg4.IsWhole) (arg5 : Memref sig .tc .vmem S1024x1 .f32) (harg5 : arg5.IsWhole)
    (x0 : Vec F S1024x2048 .f32) (x1 : Vec F S2048x1 .f32) (K : PUnit → sProp 𝕄)
    (hc0 : ¬cond2_0 i) (hc1 : ¬cond2_1 i) (s : Vec F S1024x1 .f32) :
    iprop(owns (c : Thread nD τ) arg2 fullShare x0 ∗ owns (c : Thread nD τ) arg3 fullShare x1 ∗ owns (c : Thread nD τ) arg5 fullShare s
        ∗ (iprop(owns (c : Thread nD τ) arg2 fullShare x0 ∗ owns (c : Thread nD τ) arg3 fullShare x1
            ∗ owns (c : Thread nD τ) arg5 fullShare (k2_pay2 x0 x1 s)) -∗ K ⟨⟩))
      ⊢ wp frame (wpE (defs₀ (F := F)) Variants.none c none) E (cc2__adj_matmul_kernel i arg2 harg2 arg3 harg3 arg4 harg4 arg5 harg5) K := by
  simp only [cc2__adj_matmul_kernel_eq_skeleton]; unfold cc2__adj_matmul_kernel_skel
  unfold owns
  iintro ⟨⟨%f0, %hf0, H0⟩, ⟨%f1, %hf1, H1⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H5
  ipureintro
  try sl_unfold_words
  rw [View.read_writes_eq_canon _ _ _ (fun y => by refine ⟨_, List.mem_cons_self, ?_⟩; dsimp only; exact View.mem_set_unit_zero hzero2 _ y),
    View.canon_cons_unit_zero (S := S1024x1) hzero2]
  simp only [View.readAt_eq_ld, harg2.read_unread, harg3.read_unread, harg5.read_unread, View.ld_unit_zero (S := S1024x2048) hzero2,
    View.ld_unit_zero (S := S2048x1) hzero2, View.ld_unit_zero (S := S1024x1) hzero2]

set_option maxHeartbeats 2000000 in
/-- The last reduction block: the accumulator at `s` ends at `s` plus the product, and the output's staging buffer,
    whatever it held, at the activation of that. -/
theorem body2_last (c : Dev nD) (E : Set ℕ) (i : grid2.Coords)
    (arg2 : Memref sig .tc .vmem S1024x2048 .f32) (harg2 : arg2.IsWhole) (arg3 : Memref sig .tc .vmem S2048x1 .f32) (harg3 : arg3.IsWhole)
    (arg4 : Memref sig .tc .vmem S1024x1 .f32) (harg4 : arg4.IsWhole) (arg5 : Memref sig .tc .vmem S1024x1 .f32) (harg5 : arg5.IsWhole)
    (x0 : Vec F S1024x2048 .f32) (x1 : Vec F S2048x1 .f32) (K : PUnit → sProp 𝕄)
    (hc0 : ¬cond2_0 i) (hc1 : cond2_1 i) (s : Vec F S1024x1 .f32) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (k2_pay3 (k2_pay2 x0 x1 s))
            ∗ owns (c : Thread nD τ) arg5 fullShare (k2_pay2 x0 x1 s)) -∗ K ⟨⟩))
      ⊢ wp frame (wpE (defs₀ (F := F)) Variants.none c none) E (cc2__adj_matmul_kernel i arg2 harg2 arg3 harg3 arg4 harg4 arg5 harg5) K := by
  simp only [cc2__adj_matmul_kernel_eq_skeleton]; unfold cc2__adj_matmul_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    try sl_unfold_words
    rw [View.read_writes_eq_canon _ _ _ (fun y => by refine ⟨_, List.mem_cons_self, ?_⟩; dsimp only; exact View.mem_set_unit_zero hzero2 _ y),
      View.canon_cons_unit_zero (S := S1024x1) hzero2]
    simp only [View.readAt_eq_ld, harg2.read_unread, harg3.read_unread, harg5.read_unread, View.ld_unit_zero (S := S1024x2048) hzero2,
      View.ld_unit_zero (S := S2048x1) hzero2, View.ld_unit_zero (S := S1024x1) hzero2, View.readCov_unit_zero (S := S1024x1) _ hzero2]
  iexists _; isplitr
  swap; · iexact H5
  ipureintro
  try sl_unfold_words
  rw [View.read_writes_eq_canon _ _ _ (fun y => by refine ⟨_, List.mem_cons_self, ?_⟩; dsimp only; exact View.mem_set_unit_zero hzero2 _ y),
    View.canon_cons_unit_zero (S := S1024x1) hzero2]
  simp only [View.readAt_eq_ld, harg2.read_unread, harg3.read_unread, harg5.read_unread, View.ld_unit_zero (S := S1024x2048) hzero2,
    View.ld_unit_zero (S := S2048x1) hzero2, View.ld_unit_zero (S := S1024x1) hzero2]

/-! ## The accumulator point by point, the invariant, the proof data -/

section Data
variable (V : (c : Dev nD) → (b : Ref sig .tc) → Buf (Elt F) ((c : Thread nD τ).loc b))

/-- The staged block of `adj` and of the operand at point `t`, at their literal types. -/
abbrev ablk2 (c : Dev nD) (t : Fin cfg2.N) : Vec F S1024x2048 .f32 := iblk2 V c 0 t
abbrev xblk2 (c : Dev nD) (t : Fin cfg2.N) : Vec F S2048x1 .f32 := iblk2 V c 1 t

/-- THE ACCUMULATION. What the scratch accumulator holds after the body at position `n`: the point's product added
    to the cleared accumulator where `n` opens a row block (`n % 8 = 0`), to what position `n - 1` left otherwise. -/
def accAt2 (c : Dev nD) : (n : ℕ) → n < cfg2.N → Vec F S1024x1 .f32
  | 0, hn => k2_pay2 (ablk2 V c ⟨0, hn⟩) (xblk2 V c ⟨0, hn⟩) (k2_pay1 (F := F))
  | n + 1, hn =>
    if (n + 1) % 8 = 0 then k2_pay2 (ablk2 V c ⟨n + 1, hn⟩) (xblk2 V c ⟨n + 1, hn⟩) (k2_pay1 (F := F))
    else k2_pay2 (ablk2 V c ⟨n + 1, hn⟩) (xblk2 V c ⟨n + 1, hn⟩) (accAt2 c n (Nat.lt_of_succ_lt hn))

theorem accAt2_first (c : Dev nD) (t : Fin cfg2.N) (h : t.val % 8 = 0) :
    accAt2 V c t.val t.isLt = k2_pay2 (ablk2 V c t) (xblk2 V c t) (k2_pay1 (F := F)) := by
  obtain ⟨n, hn⟩ := t
  cases n with
  | zero => rfl
  | succ n => exact if_pos h

theorem accAt2_next (c : Dev nD) (t : Fin cfg2.N) (h : ¬t.val % 8 = 0) :
    accAt2 V c t.val t.isLt = k2_pay2 (ablk2 V c t) (xblk2 V c t) (accAt2 V c (t.val - 1) (Nat.lt_of_le_of_lt (Nat.sub_le _ _) t.isLt)) := by
  obtain ⟨n, hn⟩ := t
  cases n with
  | zero => exact absurd (Nat.zero_mod _) h
  | succ n => exact if_neg h

/-- The core's scoped buffers that are neither a staging buffer of this call nor its accumulator, at some contents each:
    carried through the region unopened. -/
abbrev restS2 (c : Dev nD) : sProp 𝕄 :=
  Pipeline.scopedRestBut (Ix := Unit) (Name := ℕ) (U := UR sig nD τ) (Lvl := ℕ) (Val := Elt F) spec2 c [cc2_scratch0]

/-- The class's invariant with the accumulator taken out. -/
theorem PhiA2_eq (c : Dev nD) :
    (Pipeline.ΦA spec2 c : sProp 𝕄)
      = iprop(((∃ d, owns (c : Thread nD τ) scM2 fullShare d) ∗ restS2 c) ∗ (∃ r, prngReg c r)) := by
  unfold Pipeline.ΦA
  rw [Pipeline.scopedRest_split_of_list spec2 c [cc2_scratch0] (by decide) (by decide)]
  simp only [scM2, owns_whole]
  rfl

/-- The region's invariant before position `n`: before the first point the class's (the accumulator at anything); afterwards
    the accumulator at what the point before left in it, the other scoped buffers at anything, the generator register at
    some state. -/
def PhiS2 (c : Dev nD) : (n : ℕ) → n ≤ cfg2.N → sProp 𝕄
  | 0, _ => Pipeline.ΦA spec2 c
  | n + 1, hn => iprop((owns (c : Thread nD τ) scM2 fullShare (accAt2 V c n hn) ∗ restS2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop((owns (c : Thread nD τ) scM2 fullShare (accAt2 V c n hn) ∗ restS2 c) ∗ (∃ r, prngReg c r)) := rfl
theorem PhiS2_pos (c : Dev nD) (n : ℕ) (h : n ≤ cfg2.N) (hz : n ≠ 0) :
    PhiS2 V c n h = iprop((owns (c : Thread nD τ) scM2 fullShare (accAt2 V c (n - 1) (by omega)) ∗ restS2 c) ∗ (∃ r, prngReg c r)) := by
  cases n with
  | zero => exact absurd rfl hz
  | succ n => rfl

/-- The proof data of this call on core `c`: the arrays as the region finds them; after the body at point `t` each input's
    buffer at its block and the output's at the activation of the accumulator (consulted only where the block is written
    back, at the row block's last point); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (accAt2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (accAt2 V c t.val t.isLt) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point. The inputs' buffers hold their blocks; which case the point is in is read off its position;
    the invariant hands the body the accumulator (at anything at the very first point, at what the point before left
    afterwards) and takes it back at this point's contents; where the output is not stored its buffer is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 128 := lt_of_lt_of_eq t.isLt (show cfg2.N = 128 from N_2)
  by_cases h0 : t.val % 8 = 0
  · have hc0 : cond2_0 (grid2.coords t) := (hcond2_0 t).mpr h0
    have hc1 : ¬cond2_1 (grid2.coords t) := fun h => by have := (hcond2_1 t).mp h; omega
    rw [Dat.leavesExact_idle (dat2 V c) 2 t (idleAt2_2 t hc1) (noFlush2_2 t hc1)]
    rw [accAt2_first V c t h0]
    by_cases hz : t.val = 0
    · rw [PhiS2_castSucc V c t, PhiS2_zero V c _ _ hz, PhiA2_eq]
      iintro ⟨⟨⟨HS, Hr⟩, Hg⟩, Ho, ⟨%d0, H0⟩, ⟨%d1, H1⟩, H2⟩
      iapply (body2_first c Set.univ (grid2.coords t) _ _ _ _ _ _ _ _ (ablk2 V c t) (xblk2 V c t) _ hc0 hc1)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · rw [PhiS2_castSucc V c t, PhiS2_pos V c _ _ hz]
      iintro ⟨⟨⟨HS, Hr⟩, Hg⟩, Ho, ⟨%d0, H0⟩, ⟨%d1, H1⟩, H2⟩
      iapply (body2_first c Set.univ (grid2.coords t) _ _ _ _ _ _ _ _ (ablk2 V c t) (xblk2 V c t) _ hc0 hc1)
      isplitl [H0]; · iexact H0
      isplitl [H1]; · iexact H1
      isplitl [HS]; · iexists _; iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
  · have hc0 : ¬cond2_0 (grid2.coords t) := fun h => h0 ((hcond2_0 t).mp h)
    have hz : t.val ≠ 0 := fun h => h0 (by rw [h])
    rw [accAt2_next V c t h0]
    rw [PhiS2_castSucc V c t, PhiS2_pos V c _ _ hz]
    by_cases h7 : t.val % 8 = 7
    · have hc1 : cond2_1 (grid2.coords t) := (hcond2_1 t).mpr h7
      rw [show (dat2 V c).leavesExact 2 t = owns (c : Thread nD τ) (st2_2 t) fullShare ((dat2 V c).after 2 t) from by
        unfold Dat.leavesExact; rw [liveAt2_2 t hc1], after2_2, accAt2_next V c t h0]
      iintro ⟨⟨⟨HS, Hr⟩, Hg⟩, Ho, ⟨%d0, H0⟩, ⟨%d1, H1⟩, ⟨%d2, H2⟩⟩
      iapply (body2_last c Set.univ (grid2.coords t) _ _ _ _ _ _ _ _ (ablk2 V c t) (xblk2 V c t) _ hc0 hc1 _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hc1 : ¬cond2_1 (grid2.coords t) := fun h => h7 ((hcond2_1 t).mp h)
      rw [Dat.leavesExact_idle (dat2 V c) 2 t (idleAt2_2 t hc1) (noFlush2_2 t hc1)]
      iintro ⟨⟨⟨HS, Hr⟩, Hg⟩, Ho, ⟨%d0, H0⟩, ⟨%d1, H1⟩, H2⟩
      iapply (body2_mid c Set.univ (grid2.coords t) _ _ _ _ _ _ _ _ (ablk2 V c t) (xblk2 V c t) _ hc0 hc1 _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 128 := N_2; omega), PhiA2_eq]
  iintro ⟨⟨HS, Hr⟩, Hg⟩
  isplitl [HS Hr]
  · isplitl [HS]; · iexists _; iexact HS
    iexact Hr
  iexact Hg

end Data

end Cert.KernelIdeal.Hand

end
-- ==== Proof.KI.Run.lean ====
/-
  The run of the idealized program's @main from the launch to the return, for any float instance `F`.

  @main is six items in order: a one-operation host stretch, the first call of the streaming product `adj · X`,
  a second host stretch, the second call, a third host stretch, the third call. Between two items every unscoped
  buffer of a core holds named contents: a fold from the launch memory in which a host stretch rewrites the one
  buffer it writes and a kernel region rewrites its output array with what the pipeline's write-backs leave there,
  every other buffer kept. Each region is entered from the contents the item before it left; its invariant carries
  the scratch accumulator, whose contents are forgotten when the region is left. From the run: every final memory
  holds each unscoped buffer at the last boundary's contents; the five argument arrays, which no item writes, end as
  launched; and the program's result buffer ends at what the third call's write-backs leave in it.
-/
import proofs.«146614_j73212012528270_1_alg».proof.Proof.Gen.KernelIdeal.Launch
import proofs.«146614_j73212012528270_1_alg».proof.Proof.Gen.KernelIdeal.Skeleton
import proofs.«146614_j73212012528270_1_alg».proof.Proof.Gen.KernelIdeal.Points
import proofs.«146614_j73212012528270_1_alg».proof.Proof.KI.Body0
import proofs.«146614_j73212012528270_1_alg».proof.Proof.KI.Body1
import proofs.«146614_j73212012528270_1_alg».proof.Proof.KI.Body2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What a host stretch keeps

Each host stretch is one matrix product written into one buffer; every other buffer keeps its contents. -/

/-- The first host stretch writes `main_v0` only. -/
theorem hostOps0_keeps (W : Valuation τ sig (Elt F)) (b : Ref sig .tc) (hb : b ≠ main_v0) :
    StableHlo.after (hostOps0 (F := F)) W (Proc.devRef .tc b) = W (Proc.devRef .tc b) :=
  StableHlo.after_of_forall_not_mem (b := Proc.devRef .tc b) _ _ (List.forall_iff_forall_mem.mp (by
    simp only [hostOps0, List.Forall, StableHlo.binary_writes, Finset.mem_singleton]
    exact StableHlo.devRef_ne_of_ne hb))
/-- The second host stretch writes `main_v2` only. -/
theorem hostOps1_keeps (W : Valuation τ sig (Elt F)) (b : Ref sig .tc) (hb : b ≠ main_v2) :
    StableHlo.after (hostOps1 (F := F)) W (Proc.devRef .tc b) = W (Proc.devRef .tc b) :=
  StableHlo.after_of_forall_not_mem (b := Proc.devRef .tc b) _ _ (List.forall_iff_forall_mem.mp (by
    simp only [hostOps1, List.Forall, StableHlo.binary_writes, Finset.mem_singleton]
    exact StableHlo.devRef_ne_of_ne hb))
/-- The third host stretch writes `main_v4` only. -/
theorem hostOps2_keeps (W : Valuation τ sig (Elt F)) (b : Ref sig .tc) (hb : b ≠ main_v4) :
    StableHlo.after (hostOps2 (F := F)) W (Proc.devRef .tc b) = W (Proc.devRef .tc b) :=
  StableHlo.after_of_forall_not_mem (b := Proc.devRef .tc b) _ _ (List.forall_iff_forall_mem.mp (by
    simp only [hostOps2, List.Forall, StableHlo.binary_writes, Finset.mem_singleton]
    exact StableHlo.devRef_ne_of_ne hb))

variable (m : (ℓ : Loc nD τ sig) → Buf (Elt F) ℓ) (ρ : Dev nD → PrngReg)

/-! ## The buffer contents at each boundary between two items: a fold through @main -/

/-- Core `c`'s buffers at launch. -/
abbrev W0 : Dev nD → Valuation τ sig (Elt F) := fun c b => (s₀ m ρ).mem ((c : Dev nD), b)
/-- After the first host stretch, where the first call is entered: `main_v0` holds the product of the first and third
    arguments. -/
abbrev W1 : Dev nD → Valuation τ sig (Elt F) := fun c => StableHlo.after hostOps0 (W0 m ρ c)
/-- The same read at the TensorCore's references (what the first call's proof data take). -/
abbrev V1 : (c : Dev nD) → (b : Ref sig .tc) → Buf (Elt F) ((c : Thread nD τ).loc b) := fun c b => W1 m ρ c b
/-- At the first call's exit: its three arrays at what the pipeline leaves (`adj` and the operand as entered, the output
    `main_v1` with every row block's write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the first call's exit contents). -/
abbrev V2 : (c : Dev nD) → (b : Ref sig .tc) → Buf (Elt F) ((c : Thread nD τ).loc b) := fun c b => W2 m ρ c b
/-- At the first call's exit each of its arrays holds what the pipeline leaves, and every other buffer what it held
    at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch, where the second call is entered: `main_v2` holds the product of the first call's
    output and the fourth argument. -/
abbrev W3 : Dev nD → Valuation τ sig (Elt F) := fun c => StableHlo.after hostOps1 (W2 m ρ c)
/-- The same read at the TensorCore's references (what the second call's proof data take). -/
abbrev V3 : (c : Dev nD) → (b : Ref sig .tc) → Buf (Elt F) ((c : Thread nD τ).loc b) := fun c b => W3 m ρ c b
/-- At the second call's exit: its three arrays at what the pipeline leaves (the output `main_v3` with every row
    block's write-back folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (the second call's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch, where the third call is entered: `main_v4` holds the product of the second call's
    output and the fifth argument. -/
abbrev W5 : Dev nD → Valuation τ sig (Elt F) := fun c => StableHlo.after hostOps2 (W4 m ρ c)
/-- The same read at the TensorCore's references (what the third call's proof data take). -/
abbrev V5 : (c : Dev nD) → (b : Ref sig .tc) → Buf (Elt F) ((c : Thread nD τ).loc b) := fun c b => W5 m ρ c b
/-- At the third call's exit, which is the return: its three arrays at what the pipeline leaves (the program's result
    `main_v5` with every row block's write-back folded in), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (the third call's exit contents). -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments end as launched

No host stretch writes an argument, and a call either reads it through an input window, whose array the pipeline leaves
as it found it, or does not touch it: the fold at an argument's buffer walks back to the launch memory. -/

/-- `main_arg0` is no window's array of any call and no host stretch writes it. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := hostOps2_keeps _ main_arg0 (by decide)
    _ = W3 m ρ c (Proc.devRef .tc main_arg0) := W4_of_ne m ρ c main_arg0 (by decide)
    _ = W2 m ρ c (Proc.devRef .tc main_arg0) := hostOps1_keeps _ main_arg0 (by decide)
    _ = W1 m ρ c (Proc.devRef .tc main_arg0) := W2_of_ne m ρ c main_arg0 (by decide)
    _ = W0 m ρ c (Proc.devRef .tc main_arg0) := hostOps0_keeps _ main_arg0 (by decide)
    _ = m ((c : Thread nD τ).loc main_arg0) := rfl

/-- `main_arg1` is `adj`: the first window's array of all three calls, an input, left as entered by each; no host
    stretch writes it. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := (W6_arr m ρ c 0).trans (((dat2 (V5 m ρ) c).arrAt_in 0 rfl _).trans (A_eq2 (V5 m ρ) c 0))
    _ = W4 m ρ c (Proc.devRef .tc main_arg1) := hostOps2_keeps _ main_arg1 (by decide)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := hostOps1_keeps _ main_arg1 (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := hostOps0_keeps _ main_arg1 (by decide)
    _ = m ((c : Thread nD τ).loc main_arg1) := rfl

/-- `main_arg2` is no window's array of any call and no host stretch writes it. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := hostOps2_keeps _ main_arg2 (by decide)
    _ = W3 m ρ c (Proc.devRef .tc main_arg2) := W4_of_ne m ρ c main_arg2 (by decide)
    _ = W2 m ρ c (Proc.devRef .tc main_arg2) := hostOps1_keeps _ main_arg2 (by decide)
    _ = W1 m ρ c (Proc.devRef .tc main_arg2) := W2_of_ne m ρ c main_arg2 (by decide)
    _ = W0 m ρ c (Proc.devRef .tc main_arg2) := hostOps0_keeps _ main_arg2 (by decide)
    _ = m ((c : Thread nD τ).loc main_arg2) := rfl

/-- `main_arg3` is no window's array of any call and no host stretch writes it. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := hostOps2_keeps _ main_arg3 (by decide)
    _ = W3 m ρ c (Proc.devRef .tc main_arg3) := W4_of_ne m ρ c main_arg3 (by decide)
    _ = W2 m ρ c (Proc.devRef .tc main_arg3) := hostOps1_keeps _ main_arg3 (by decide)
    _ = W1 m ρ c (Proc.devRef .tc main_arg3) := W2_of_ne m ρ c main_arg3 (by decide)
    _ = W0 m ρ c (Proc.devRef .tc main_arg3) := hostOps0_keeps _ main_arg3 (by decide)
    _ = m ((c : Thread nD τ).loc main_arg3) := rfl

/-- `main_arg4` is no window's array of any call and no host stretch writes it. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := hostOps2_keeps _ main_arg4 (by decide)
    _ = W3 m ρ c (Proc.devRef .tc main_arg4) := W4_of_ne m ρ c main_arg4 (by decide)
    _ = W2 m ρ c (Proc.devRef .tc main_arg4) := hostOps1_keeps _ main_arg4 (by decide)
    _ = W1 m ρ c (Proc.devRef .tc main_arg4) := W2_of_ne m ρ c main_arg4 (by decide)
    _ = W0 m ρ c (Proc.devRef .tc main_arg4) := hostOps0_keeps _ main_arg4 (by decide)
    _ = m ((c : Thread nD τ).loc main_arg4) := rfl

/-- The program's result buffer at the return: the third call's output array with every row block's write-back
    folded in. -/
theorem W6_main_v5 (c : Dev nD) : W6 m ρ c (Proc.devRef .tc main_v5) = (dat2 (V5 m ρ) c).arrAt 2 cfg2.N :=
  W6_arr m ρ c 2

/-! ## The proof data family and the thread state -/

/-- No call has a prefetched table. -/
abbrev adm : (p : Fin 3) → (pcfgs (F := F) p).Adm := fun p => (cfgs p).toPCfg_adm
/-- Every call's proof data, each at the contents its region is entered from. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's invariant
    takes it in and gives it back) and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends at those
    references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host stretch allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state beside the core owing nothing: every unscoped buffer at the last boundary's contents `W6`, the
    generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- THE FIRST CALL over the thread state: entered from every unscoped buffer at `W1`, left at `W2` (what the second host stretch
    is entered from). Its three arrays are split out of the unscoped buffers and put back at the exit contents; the
    generator register and the scoped buffers no window stages, the scratch accumulator among them at anything, make the
    invariant before the first point, and the invariant after the last point gives them back, the accumulator's contents
    forgotten; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND CALL over the thread state: entered from every unscoped buffer at `W3`, left at `W4` (what the third host stretch
    is entered from). Its three arrays are split out of the unscoped buffers and put back at the exit contents; the
    generator register and the scoped buffers no window stages, the scratch accumulator among them at anything, make the
    invariant before the first point, and the invariant after the last point gives them back, the accumulator's contents
    forgotten; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE THIRD CALL over the thread state: entered from every unscoped buffer at `W5`, left at `W6` (what the launch reads
    at the end), the core owing nothing set beside the rest. Otherwise as the first two: the arrays split out and put
    back, the generator register and the scoped buffers no window stages into the invariant and out, the accumulator's
    contents forgotten at the exit. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec2 c : sProp 𝕄) from ?_).trans (hin2 (V5 m ρ) c)
    unfold Pipeline.ΦA
    iintro ⟨Hp, -, Hr⟩
    isplitl [Hr]; · iexact Hr
    iexact Hp
  hout c := by
    rw [Pipeline.ownSems0_none]
    refine (hout2 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main is the run of the segments. -/
theorem main_run (c : Dev nD) : main (F := F) c = Pipeline.Seg.run (segs m ρ) := (main_chain c).trans (by chain_rfl)

set_option backward.isDefEq.respectTransparency.types false in
/-- THE RUN. At the compiled mesh, from any memory with zero counters, every weakly fair execution of @main on the
    TensorCores terminates, nothing faulting, and in every final state every unscoped buffer of every core holds the last
    boundary's contents `W6`: the segments chain from the launch memory to the return, and the last thread state is read
    against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME at any `F`: every weakly fair execution of @main terminates, nothing faulting, and every final state has
    the five argument arrays as launched: each is an unscoped buffer, read off the last boundary's contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩) (run_all m ρ)

end Cert.KernelIdeal.Hand

end
-- ==== Proof.Val.Host.lean ====
/-
  The idealized kernel program between its regions, at the ideal instance: what the buffers the value of the result
  depends on hold at each boundary of @main.

  `adj` reaches every region as launched; each host stretch's one product is read off the contents the stretch
  found; a weight matrix is as launched when its stretch reads it; a region's output array holds what the
  region's write-backs leave.
-/
import proofs.«146614_j73212012528270_1_alg».proof.Proof.KI.Run
import Idealize.ShloMosaic.Lib.StableHlo.Run
import Idealize.ShloMosaic.PureOps.Ideal

set_option maxRecDepth 16384

noncomputable section

namespace Cert.KernelIdeal.Hand

open Idealize.ShloMosaic Idealize.ShloMosaic.TcCoe Idealize.ShloMosaic.StableHlo
open Idealize.SL Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## `adj` at each region's entry -/

theorem W1_adj (c : Dev nD) : W1 m ρ c (Proc.devRef .tc main_arg1) = m ((c : Thread nD τ).loc main_arg1) :=
  (hostOps0_keeps _ main_arg1 (by decide)).trans rfl
theorem W2_adj (c : Dev nD) : W2 m ρ c (Proc.devRef .tc main_arg1) = m ((c : Thread nD τ).loc main_arg1) :=
  ((W2_arr m ρ c 0).trans (((dat0 (V1 m ρ) c).arrAt_in 0 rfl _).trans (A_eq0 (V1 m ρ) c 0))).trans (W1_adj m ρ c)
theorem W3_adj (c : Dev nD) : W3 m ρ c (Proc.devRef .tc main_arg1) = m ((c : Thread nD τ).loc main_arg1) :=
  (hostOps1_keeps _ main_arg1 (by decide)).trans (W2_adj m ρ c)
theorem W4_adj (c : Dev nD) : W4 m ρ c (Proc.devRef .tc main_arg1) = m ((c : Thread nD τ).loc main_arg1) :=
  ((W4_arr m ρ c 0).trans (((dat1 (V3 m ρ) c).arrAt_in 0 rfl _).trans (A_eq1 (V3 m ρ) c 0))).trans (W3_adj m ρ c)
theorem W5_adj (c : Dev nD) : W5 m ρ c (Proc.devRef .tc main_arg1) = m ((c : Thread nD τ).loc main_arg1) :=
  (hostOps2_keeps _ main_arg1 (by decide)).trans (W4_adj m ρ c)

/-! ## The weights where a host stretch reads them -/

theorem W2_W1 (c : Dev nD) : W2 m ρ c (Proc.devRef .tc main_arg3) = m ((c : Thread nD τ).loc main_arg3) :=
  (W2_of_ne m ρ c main_arg3 (by decide)).trans ((hostOps0_keeps _ main_arg3 (by decide)).trans rfl)
theorem W4_W2 (c : Dev nD) : W4 m ρ c (Proc.devRef .tc main_arg4) = m ((c : Thread nD τ).loc main_arg4) :=
  (W4_of_ne m ρ c main_arg4 (by decide)).trans <| (hostOps1_keeps _ main_arg4 (by decide)).trans <|
    (W2_of_ne m ρ c main_arg4 (by decide)).trans <| (hostOps0_keeps _ main_arg4 (by decide)).trans rfl

/-! ## The host stretches' products -/

/-- The first stretch: `v0 = x · W₀` of the launch contents. -/
theorem W1_v0 (c : Dev nD) :
    (W1 m ρ c (Proc.devRef .tc main_v0) : FVec Ideal S16384x32 .f32)
      = Host.dotGeneral (F := Ideal) (φ₁ := .f32) (φ₂ := .f32) dot_S16384x1_S1x32_S16384x32_1_0_0_1_n_n none (m ((c : Thread nD τ).loc main_arg0)) (m ((c : Thread nD τ).loc main_arg2)) := by
  show StableHlo.after hostOps0 (W0 m ρ c) (Proc.devRef .tc main_v0) = _
  after_results

/-- The second stretch: `v2 = v1 · W₁` of what the first region left and the launch contents. -/
theorem W3_v2 (c : Dev nD) :
    (W3 m ρ c (Proc.devRef .tc main_v2) : FVec Ideal S16384x32 .f32)
      = Host.dotGeneral (F := Ideal) (φ₁ := .f32) (φ₂ := .f32) dot_S16384x32_S32x32_S16384x32_1_0_0_1_n_n none (W2 m ρ c (Proc.devRef .tc main_v1)) (W2 m ρ c (Proc.devRef .tc main_arg3)) := by
  show StableHlo.after hostOps1 (W2 m ρ c) (Proc.devRef .tc main_v2) = _
  after_results

/-- The third stretch: `v4 = v3 · W₂`. -/
theorem W5_v4 (c : Dev nD) :
    (W5 m ρ c (Proc.devRef .tc main_v4) : FVec Ideal S16384x1 .f32)
      = Host.dotGeneral (F := Ideal) (φ₁ := .f32) (φ₂ := .f32) dot_S16384x32_S32x1_S16384x1_1_0_0_1_n_n none (W4 m ρ c (Proc.devRef .tc main_v3)) (W4 m ρ c (Proc.devRef .tc main_arg4)) := by
  show StableHlo.after hostOps2 (W4 m ρ c) (Proc.devRef .tc main_v4) = _
  after_results

end Cert.KernelIdeal.Hand

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Val.Spec.lean ====
/-
  The function both programs compute, on the extended reals.

  Three graph-convolution layers without bias over a dense `16384 × 16384` adjacency matrix `A`:
      h₁ = relu (A · (x · W₀)),   h₂ = relu (A · (h₁ · W₁)),   out = σ (A · (h₂ · W₂)),
  with `relu v = max v 0` entry by entry and `σ` the logistic function. Every product is the plain matrix
  product, written as the host's general dot product with the dimension numbers of `[M, K] × [K, N]`; at the
  ideal instance it has no rounding and no order of summation in it.
-/
import Idealize.ShloMosaic.PureOps.Ideal
import Idealize.ShloMosaic.PureOps.Ideal.Laws
import Idealize.ShloMosaic.Lib.ValueIdx
import proofs.«146614_j73212012528270_1_alg».proof.Proof.LibDot2

noncomputable section

namespace Cert.Spec

open Idealize.ShloMosaic Idealize.ShloMosaic.ValueIdx Idealize.ShloMosaic.Dot2

theorem wf_mm_16384_1_32 : DotDims.WF ⟨2, ![16384, 1]⟩ ⟨2, ![1, 32]⟩ ⟨2, ![16384, 32]⟩ [1] [0] [0] [1] [] [] := by decide
theorem wf_mm_16384_32_32 : DotDims.WF ⟨2, ![16384, 32]⟩ ⟨2, ![32, 32]⟩ ⟨2, ![16384, 32]⟩ [1] [0] [0] [1] [] [] := by decide
theorem wf_mm_16384_32_1 : DotDims.WF ⟨2, ![16384, 32]⟩ ⟨2, ![32, 1]⟩ ⟨2, ![16384, 1]⟩ [1] [0] [0] [1] [] [] := by decide
theorem wf_mm_16384_16384_32 : DotDims.WF ⟨2, ![16384, 16384]⟩ ⟨2, ![16384, 32]⟩ ⟨2, ![16384, 32]⟩ [1] [0] [0] [1] [] [] := by decide
theorem wf_mm_16384_16384_1 : DotDims.WF ⟨2, ![16384, 16384]⟩ ⟨2, ![16384, 1]⟩ ⟨2, ![16384, 1]⟩ [1] [0] [0] [1] [] [] := by decide

/-- The matrix product `[M, K] × [K, N]`, as the host's general dot product. -/
def mm {M K N : Nat} (wf : DotDims.WF ⟨2, ![M, K]⟩ ⟨2, ![K, N]⟩ ⟨2, ![M, N]⟩ [1] [0] [0] [1] [] [])
    (A : FVec Ideal ⟨2, ![M, K]⟩ .f32) (X : FVec Ideal ⟨2, ![K, N]⟩ .f32) : FVec Ideal ⟨2, ![M, N]⟩ .f32 :=
  Host.dotGeneral (mmDims M K N wf) none A X

/-- At `(p, q)` the product is `∑ k, A[p, k] * X[k, q]`. -/
theorem mm_apply {M K N : Nat} (wf : DotDims.WF ⟨2, ![M, K]⟩ ⟨2, ![K, N]⟩ ⟨2, ![M, N]⟩ [1] [0] [0] [1] [] [])
    (A : FVec Ideal ⟨2, ![M, K]⟩ .f32) (X : FVec Ideal ⟨2, ![K, N]⟩ .f32) (p : Fin M) (q : Fin N) :
    mm wf A X (ix2 p q) = ∑ k : Fin K, A (ix2 p k) * X (ix2 k q) :=
  host_dotGeneral_mm_apply wf none A X p q

/-- `max v 0`, entry by entry. -/
def relu {s : Shape} (v : FVec Ideal s .f32) : FVec Ideal s .f32 :=
  maximumf v (broadcast s (Scalar.ofBits .f32 0x00000000#32))

/-- One hidden layer: `relu (A · X)`. -/
def hidden (A : FVec Ideal ⟨2, ![16384, 16384]⟩ .f32) (X : FVec Ideal ⟨2, ![16384, 32]⟩ .f32) : FVec Ideal ⟨2, ![16384, 32]⟩ .f32 :=
  relu (mm wf_mm_16384_16384_32 A X)

/-- The last layer: `σ (A · X)`. -/
def last (A : FVec Ideal ⟨2, ![16384, 16384]⟩ .f32) (X : FVec Ideal ⟨2, ![16384, 1]⟩ .f32) : FVec Ideal ⟨2, ![16384, 1]⟩ .f32 :=
  logistic (mm wf_mm_16384_16384_1 A X)

/-- The network: the result as one function of the five argument arrays. -/
def G (x : FVec Ideal ⟨2, ![16384, 1]⟩ .f32) (A : FVec Ideal ⟨2, ![16384, 16384]⟩ .f32) (W0 : FVec Ideal ⟨2, ![1, 32]⟩ .f32)
    (W1 : FVec Ideal ⟨2, ![32, 32]⟩ .f32) (W2 : FVec Ideal ⟨2, ![32, 1]⟩ .f32) : FVec Ideal ⟨2, ![16384, 1]⟩ .f32 :=
  last A (mm wf_mm_16384_32_1 (hidden A (mm wf_mm_16384_32_32 (hidden A (mm wf_mm_16384_1_32 x W0)) W1)) W2)

end Cert.Spec

end
-- ==== Proof.Val.Region0.lean ====
/-
  Region 0 at the ideal instance: what this call's streaming product leaves in its output array.

  Floats are extended reals, every operation is exact and a change of float format is the identity. The region
  walks a 16 × 8 grid in row-major order; point `t` multiplies the `1024 × 2048` block `(t / 8, t % 8)` of the
  matrix by the `2048`-row block `t % 8` of the operand and adds the product onto an accumulator that is cleared
  where `t % 8 = 0`; where `t % 8 = 7` the activation of the accumulator is written back as row block `t / 8`
  of the output. Read at an index, the accumulator after point `t` is the sum over the reduction blocks
  `0 … t % 8` of the blocks' partial dot products; after the eighth block that is the full row-by-column sum,
  the matrix product at that index. The activation acts entry by entry, so it commutes with reading a block
  out of an array. So the output array ends holding the activation of `adj · X`, one whole-array function of the two arrays
  the region reads.
-/
import proofs.«146614_j73212012528270_1_alg».proof.Proof.KI.Body0
import proofs.«146614_j73212012528270_1_alg».proof.Proof.Val.Spec
import proofs.«146614_j73212012528270_1_alg».proof.Proof.LibDot2
import Idealize.ShloMosaic.Lib.ValueIdx
import Idealize.ShloMosaic.Lib.Pipeline.Value
import Idealize.ShloMosaic.Lib.ValueLayout
import Idealize.ShloMosaic.PureOps.Ideal.Laws
import Mathlib.Algebra.BigOperators.Group.Finset.Basic
import Mathlib.Data.Fintype.BigOperators

set_option maxRecDepth 16384

noncomputable section

open scoped BigOperators

namespace Cert.KernelIdeal.Hand

open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal Cert.KernelIdeal.Gen

/-! ## The index maps on the grid -/

/-- The three index maps, decided once over the 128 points: the matrix's block is `(t / 8, t % 8)`, the operand's
    `(t % 8, 0)`, the output's `(t / 8, 0)`. -/
theorem idx_facts0 : ∀ t : Fin cfg0.N, win0_0.index t (0 : Fin 2) = t.val / 8
    ∧ win0_0.index t (1 : Fin 2) = t.val % 8
    ∧ win0_1.index t (0 : Fin 2) = t.val % 8
    ∧ win0_1.index t (1 : Fin 2) = 0
    ∧ win0_2.index t (0 : Fin 2) = t.val / 8
    ∧ win0_2.index t (1 : Fin 2) = 0 :=
  (by decide +kernel : ∀ t : Fin grid0.N, _)

section Blocks
variable (V : (c : Dev nD) → (b : Ref sig .tc) → Buf (Elt Ideal) ((c : Thread nD τ).loc b))

/-! ## The staged blocks read at an index -/

/-- Entry `(r, j)` of the matrix's block at point `t` is entry `(1024 (t / 8) + r, 2048 (t % 8) + j)` of the matrix. -/
theorem ablk0_apply (c : Dev nD) (t : Fin cfg0.N) (r : Fin 1024) (j : Fin 2048)
    (hr : 1024 * (t.val / 8) + r.val < 16384) (hj : 2048 * (t.val % 8) + j.val < 16384) :
    ablk0 V c t (ix2 r j)
      = (V c (Pipeline.arrRef spec0 0) : FVec Ideal ⟨2, ![16384, 16384]⟩ .f32)
          (ix2 ⟨1024 * (t.val / 8) + r.val, hr⟩ ⟨2048 * (t.val % 8) + j.val, hj⟩) := by
  obtain ⟨ea, eb, -, -, -, -⟩ := idx_facts0 t
  unfold ablk0 iblk0
  rw [View.read_apply]
  show V c (Pipeline.arrRef spec0 0) _ = V c (Pipeline.arrRef spec0 0) _
  congr 1
  funext a
  apply Fin.ext
  match a with
  | ⟨0, _⟩ => show win0_0.index t (0 : Fin 2) * 1024 + 1 * r.val = 1024 * (t.val / 8) + r.val; rw [ea]; omega
  | ⟨1, _⟩ => show win0_0.index t (1 : Fin 2) * 2048 + 1 * j.val = 2048 * (t.val % 8) + j.val; rw [eb]; omega

/-- Entry `(j, q)` of the operand's block at point `t` is entry `(2048 (t % 8) + j, q)` of the operand. -/
theorem xblk0_apply (c : Dev nD) (t : Fin cfg0.N) (j : Fin 2048) (q : Fin 32)
    (hj : 2048 * (t.val % 8) + j.val < 16384) :
    xblk0 V c t (ix2 j q)
      = (V c (Pipeline.arrRef spec0 1) : FVec Ideal ⟨2, ![16384, (32 : ℕ)]⟩ .f32) (ix2 ⟨2048 * (t.val % 8) + j.val, hj⟩ q) := by
  obtain ⟨-, -, ec, ed, -, -⟩ := idx_facts0 t
  unfold xblk0 iblk0
  rw [View.read_apply]
  show V c (Pipeline.arrRef spec0 1) _ = V c (Pipeline.arrRef spec0 1) _
  congr 1
  funext a
  apply Fin.ext
  match a with
  | ⟨0, _⟩ => show win0_1.index t (0 : Fin 2) * 2048 + 1 * j.val = 2048 * (t.val % 8) + j.val; rw [ec]; omega
  | ⟨1, _⟩ => show win0_1.index t (1 : Fin 2) * (32 : ℕ) + 1 * q.val = q.val; rw [ed]; omega

end Blocks

/-! ## The payloads read at an index -/

/-- The activation the body stores is the specification's. -/
theorem pay3_eq0 (v : Vec Ideal S1024x32 .f32) : k0_pay3 (F := Ideal) v = Cert.Spec.relu v := rfl

/-- The activation acts entry by entry: on an array read through any map of indices it is the activation of the
    array, read through that map. -/
theorem act0_reindex {s s' : Shape} (M : FVec Ideal s' .f32) (e : s.Idx → s'.Idx) (y : s.Idx) :
    Cert.Spec.relu (fun y => M (e y)) y = Cert.Spec.relu M (e y) := rfl

/-- The cleared accumulator is zero at every index. -/
theorem k0_pay1_apply (r : Fin 1024) (q : Fin 32) : k0_pay1 (F := Ideal) (ix2 r q) = 0 := by
  unfold k0_pay1
  refine (congrFun (shapeCast_self _ _) (ix2 r q)).trans ?_
  exact Ideal.ofBits_zero_f32

/-- The printed dimension numbers are those of the plain matrix product `[1024, 2048] × [2048, 32]`. -/
theorem dot0_eq : dot_S1024x2048_S2048x32_S1024x32_1_0_0_1_n_n
    = Dot2.mmDims 1024 2048 32 dot_S1024x2048_S2048x32_S1024x32_1_0_0_1_n_n_wf := rfl

/-- One point's update of the accumulator, at `(r, q)`: the entry plus the dot product of row `r` of the matrix's block
    with column `q` of the operand's block (the format changes are the identity, the product is exact). -/
theorem k0_pay2_apply (xa : Vec Ideal S1024x2048 .f32) (xb : Vec Ideal S2048x32 .f32) (s : Vec Ideal S1024x32 .f32)
    (r : Fin 1024) (q : Fin 32) :
    k0_pay2 xa xb s (ix2 r q) = s (ix2 r q) + ∑ j : Fin 2048, xa (ix2 r j) * xb (ix2 j q) := by
  have ecast : shapeCast S2048x32 xb shapeCasts_S2048x32_S2048x32 = xb := shapeCast_self _ _
  unfold k0_pay2
  refine (congrFun (shapeCast_self _ _) (ix2 r q)).trans ?_
  refine congrArg (s (ix2 r q) + ·) ?_
  rw [ecast, dot0_eq]
  exact Dot2.matmul_zero_mm_apply _ none _ _ r q

/-! ## Consecutive blocks of positions make one range -/

/-- A sum over `m` consecutive blocks of `n` positions each is the sum over the `m * n` positions. -/
private theorem sum_blocks_range {M : Type*} [AddCommMonoid M] (n : ℕ) (f : ℕ → M) :
    ∀ m : ℕ, ∑ k ∈ Finset.range m, ∑ j ∈ Finset.range n, f (n * k + j) = ∑ J ∈ Finset.range (m * n), f J
  | 0 => by simp
  | m + 1 => by
    rw [Finset.sum_range_succ, sum_blocks_range n f m, Nat.succ_mul, Finset.sum_range_add, Nat.mul_comm m n]

/-- The same with the position inside a block, and the position in the whole, running over `Fin`. -/
private theorem sum_blocks {M : Type*} [AddCommMonoid M] (m n : ℕ) (f : ℕ → M) :
    ∑ k ∈ Finset.range m, ∑ j : Fin n, f (n * k + j.val) = ∑ J : Fin (m * n), f J.val := by
  rw [Fin.sum_univ_eq_sum_range f (m * n), ← sum_blocks_range n f m]
  exact Finset.sum_congr rfl fun k _ => Fin.sum_univ_eq_sum_range (fun j => f (n * k + j)) n

/-! ## The accumulator read at an index -/

section Terms
variable (A : FVec Ideal ⟨2, ![16384, 16384]⟩ .f32) (X : FVec Ideal ⟨2, ![16384, (32 : ℕ)]⟩ .f32)

/-- The product `A[R, J] * X[J, q]` as a function of the natural-number positions `R` and `J`, zero outside the
    arrays: the sums below range over plain positions. -/
def term0 (R : ℕ) (q : Fin 32) (J : ℕ) : EReal :=
  if h : R < 16384 ∧ J < 16384 then A (ix2 ⟨R, h.1⟩ ⟨J, h.2⟩) * X (ix2 ⟨J, h.2⟩ q) else 0

theorem term0_eq (R : Fin 16384) (q : Fin 32) (J : Fin 16384) : term0 A X R.val q J.val = A (ix2 R J) * X (ix2 J q) := by
  unfold term0
  rw [dif_pos ⟨R.isLt, J.isLt⟩]

/-- Over the eight reduction blocks the partial dot products add up to the matrix product's entry. -/
theorem term0_sum (R : Fin 16384) (q : Fin 32) :
    ∑ k ∈ Finset.range 8, ∑ j : Fin 2048, term0 A X R.val q (2048 * k + j.val)
      = Cert.Spec.mm Cert.Spec.wf_mm_16384_16384_32 A X (ix2 R q) := by
  rw [Cert.Spec.mm_apply]
  refine (sum_blocks 8 2048 (term0 A X R.val q)).trans ?_
  exact Finset.sum_congr rfl fun J _ => term0_eq A X R q J

end Terms

section Acc
variable (V : (c : Dev nD) → (b : Ref sig .tc) → Buf (Elt Ideal) ((c : Thread nD τ).loc b))

/-- One point's partial dot product, in the positions of the two arrays. -/
theorem blk0_sum (c : Dev nD) (n : ℕ) (hn : n < cfg0.N) (r : Fin 1024) (q : Fin 32) :
    ∑ j : Fin 2048, ablk0 V c ⟨n, hn⟩ (ix2 r j) * xblk0 V c ⟨n, hn⟩ (ix2 j q)
      = ∑ j : Fin 2048, term0 (V c (Pipeline.arrRef spec0 0)) (V c (Pipeline.arrRef spec0 1)) (1024 * (n / 8) + r.val) q (2048 * (n % 8) + j.val) := by
  have hN : n < 128 := lt_of_lt_of_eq hn N_0
  have hr : 1024 * (n / 8) + r.val < 16384 := by have := r.isLt; omega
  refine Finset.sum_congr rfl fun j _ => ?_
  have hj : 2048 * (n % 8) + j.val < 16384 := by have := j.isLt; omega
  rw [ablk0_apply V c ⟨n, hn⟩ r j hr hj, xblk0_apply V c ⟨n, hn⟩ j q hj]
  unfold term0
  rw [dif_pos ⟨hr, hj⟩]

/-- THE ACCUMULATOR after point `n`, at `(r, q)`: the partial dot products of the reduction blocks `0 … n % 8` of row
    `1024 (n / 8) + r` of the matrix with column `q` of the operand. By induction on the point: a row block's first point
    adds its product to zero, every other to what the point before left. -/
theorem accAt0_apply (c : Dev nD) (n : ℕ) : ∀ (hn : n < cfg0.N) (r : Fin 1024) (q : Fin 32),
    accAt0 V c n hn (ix2 r q)
      = ∑ k ∈ Finset.range (n % 8 + 1), ∑ j : Fin 2048,
          term0 (V c (Pipeline.arrRef spec0 0)) (V c (Pipeline.arrRef spec0 1)) (1024 * (n / 8) + r.val) q (2048 * k + j.val) := by
  induction n using Nat.strong_induction_on with
  | _ n ih =>
    intro hn r q
    by_cases h : n % 8 = 0
    · refine (congrFun (accAt0_first V c ⟨n, hn⟩ h) (ix2 r q)).trans ?_
      refine (k0_pay2_apply _ _ _ r q).trans ?_
      rw [k0_pay1_apply, zero_add, blk0_sum V c n hn r q, h, Finset.sum_range_one]
    · have hd : (n - 1) / 8 = n / 8 := by omega
      have hm : (n - 1) % 8 + 1 = n % 8 := by omega
      refine (congrFun (accAt0_next V c ⟨n, hn⟩ h) (ix2 r q)).trans ?_
      refine (k0_pay2_apply _ _ _ r q).trans ?_
      refine (congrArg₂ (· + ·) (ih (n - 1) (by omega) _ r q) (blk0_sum V c n hn r q)).trans ?_
      rw [hd, hm, Finset.sum_range_succ]

/-- After a row block's last point the accumulator holds, at `(r, q)`, the matrix product's entry of row
    `1024 (t / 8) + r` and column `q`. -/
theorem accAt0_last (c : Dev nD) (t : Fin cfg0.N) (h7 : t.val % 8 = 7) (r : Fin 1024) (q : Fin 32)
    (hR : 1024 * (t.val / 8) + r.val < 16384) :
    accAt0 V c t.val t.isLt (ix2 r q)
      = Cert.Spec.mm Cert.Spec.wf_mm_16384_16384_32 (V c (Pipeline.arrRef spec0 0)) (V c (Pipeline.arrRef spec0 1))
          (ix2 ⟨1024 * (t.val / 8) + r.val, hR⟩ q) := by
  rw [accAt0_apply V c t.val t.isLt r q, h7]
  exact term0_sum _ _ ⟨1024 * (t.val / 8) + r.val, hR⟩ q

/-- So the whole accumulator is then the matrix product read through any map `e` of the block's indices to the output's
    that sends `(y₀, y₁)` to row `1024 (t / 8) + y₀`, column `y₁`. -/
theorem accAt0_full (c : Dev nD) (t : Fin cfg0.N) (h7 : t.val % 8 = 7)
    (e : S1024x32.Idx → (⟨2, ![16384, (32 : ℕ)]⟩ : Shape).Idx)
    (hrow : ∀ y, (e y 0).val = 1024 * (t.val / 8) + (y 0).val) (hcol : ∀ y, (e y 1).val = (y 1).val) :
    accAt0 V c t.val t.isLt
      = fun y => Cert.Spec.mm Cert.Spec.wf_mm_16384_16384_32 (V c (Pipeline.arrRef spec0 0)) (V c (Pipeline.arrRef spec0 1)) (e y) := by
  funext y
  obtain ⟨r, q, rfl⟩ : ∃ (r : Fin 1024) (q : Fin 32), y = ix2 r q := ⟨y 0, y 1, eq_ix2 y⟩
  have hlt := idx2_lt0 (e (ix2 r q))
  have hrq : (e (ix2 r q) 0).val = 1024 * (t.val / 8) + r.val := hrow (ix2 r q)
  have hcq : (e (ix2 r q) 1).val = q.val := hcol (ix2 r q)
  have hR : 1024 * (t.val / 8) + r.val < 16384 := by omega
  refine (accAt0_last V c t h7 r q hR).trans (congrArg _ ?_)
  funext a
  match a with
  | ⟨0, _⟩ => exact Fin.ext hrq.symm
  | ⟨1, _⟩ => exact Fin.ext hcq.symm

end Acc

/-! ## What a row block's last point writes back, the cover, the array -/

section Final
variable (V : (c : Dev nD) → (b : Ref sig .tc) → Buf (Elt Ideal) ((c : Thread nD τ).loc b))

/-- At a row block's last point the activation of the accumulator, at `y`, is the specification's array at the index
    of the output that `y` sits at. -/
theorem out0_apply (c : Dev nD) (t : Fin cfg0.N) (h7 : t.val % 8 = 7)
    (e : S1024x32.Idx → (⟨2, ![16384, (32 : ℕ)]⟩ : Shape).Idx)
    (hrow : ∀ y, (e y 0).val = 1024 * (t.val / 8) + (y 0).val) (hcol : ∀ y, (e y 1).val = (y 1).val) (y : S1024x32.Idx) :
    Cert.Spec.relu (accAt0 V c t.val t.isLt) y
      = Cert.Spec.hidden (V c (Pipeline.arrRef spec0 0)) (V c (Pipeline.arrRef spec0 1)) (e y) := by
  rw [accAt0_full V c t h7 e hrow hcol]
  exact act0_reindex _ e y

/-- WHAT POINT `t` WRITES BACK, where it writes back, is block `t` of the specification's array of the two arrays the
    region reads. -/
theorem flushed0_eq (c : Dev nD) (t : Fin cfg0.N) (hf : (cfg0.win 2).flush t = true) :
    (dat0 (F := Ideal) V c).flushed 2 t
      = ((cfg0.win 2).blk t).view.read (Elt Ideal)
          (Cert.Spec.hidden (V c (Pipeline.arrRef spec0 0)) (V c (Pipeline.arrRef spec0 1))) := by
  have h7 : t.val % 8 = 7 := (flush0_2 t).mp hf
  obtain ⟨-, -, -, -, ee, ef⟩ := idx_facts0 t
  show (cfg0.win 2).cut (grid0.coords t) ((dat0 V c).after 2 t) = _
  rw [after0_2, pay3_eq0]
  funext y
  show Cert.Spec.relu (accAt0 V c t.val t.isLt) y
    = Cert.Spec.hidden (V c (Pipeline.arrRef spec0 0)) (V c (Pipeline.arrRef spec0 1)) (((cfg0.win 2).blk t).view.emb y)
  refine out0_apply V c t h7 (fun y => ((cfg0.win 2).blk t).view.emb y) (fun y => ?_) (fun y => ?_) y
  · show win0_2.index t (0 : Fin 2) * 1024 + 1 * (y 0).val = 1024 * (t.val / 8) + (y 0).val
    rw [ee]; omega
  · show win0_2.index t (1 : Fin 2) * (32 : ℕ) + 1 * (y 1).val = (y 1).val
    rw [ef]; omega

/-- An index of the output array is in point `t`'s block iff each coordinate is in the block's range on its axis. -/
theorem mem_blk0 (t : Fin cfg0.N) (i : (⟨2, ![16384, (32 : ℕ)]⟩ : Shape).Idx) :
    i ∈ ((cfg0.win 2).blk t).view.set
      ↔ ∀ a : Fin 2, win0_2.index t a * S1024x32.size a ≤ (i a).val ∧ (i a).val < win0_2.index t a * S1024x32.size a + S1024x32.size a := by
  show i ∈ ((View.whole (Pipeline.arrRef spec0 2)).slice (win0_2.rect t)).set ↔ _
  rw [View.set_slice_whole, Rect.mem_set_unit]
  exact Iff.rfl

/-- THE COVER: row `R` of the output lies in the block that the last point of row block `R / 1024` writes back. -/
theorem cover0 (i : (⟨2, ![16384, (32 : ℕ)]⟩ : Shape).Idx) :
    ∃ t : Fin cfg0.N, (cfg0.win 2).flush t = true ∧ i ∈ ((cfg0.win 2).blk t).view.set := by
  have hrow : (i 0).val < 16384 := idx2_lt0 i
  have hcol : (i 1).val < (32 : ℕ) := idx2_lt1 i
  have hN : cfg0.N = 128 := N_0
  have ht : 8 * ((i 0).val / 1024) + 7 < cfg0.N := by rw [hN]; omega
  obtain ⟨-, -, -, -, ee, ef⟩ := idx_facts0 ⟨8 * ((i 0).val / 1024) + 7, ht⟩
  refine ⟨⟨8 * ((i 0).val / 1024) + 7, ht⟩, (flush0_2 _).mpr (by show (8 * ((i 0).val / 1024) + 7) % 8 = 7; omega), ?_⟩
  rw [mem_blk0]
  intro a
  match a with
  | ⟨0, _⟩ =>
    show win0_2.index ⟨8 * ((i 0).val / 1024) + 7, ht⟩ (0 : Fin 2) * 1024 ≤ (i 0).val
      ∧ (i 0).val < win0_2.index ⟨8 * ((i 0).val / 1024) + 7, ht⟩ (0 : Fin 2) * 1024 + 1024
    rw [ee]
    show (8 * ((i 0).val / 1024) + 7) / 8 * 1024 ≤ (i 0).val ∧ (i 0).val < (8 * ((i 0).val / 1024) + 7) / 8 * 1024 + 1024
    omega
  | ⟨1, _⟩ =>
    show win0_2.index ⟨8 * ((i 0).val / 1024) + 7, ht⟩ (1 : Fin 2) * (32 : ℕ) ≤ (i 1).val
      ∧ (i 1).val < win0_2.index ⟨8 * ((i 0).val / 1024) + 7, ht⟩ (1 : Fin 2) * (32 : ℕ) + (32 : ℕ)
    rw [ef]
    omega

/-- THE OUTPUT ARRAY after the region: the specification's array, one function of the two arrays the region reads. -/
theorem final0 (c : Dev nD) :
    (dat0 (F := Ideal) V c).arrAt 2 cfg0.N
      = Cert.Spec.hidden (V c (Pipeline.arrRef spec0 0)) (V c (Pipeline.arrRef spec0 1)) :=
  (dat0 V c).arrAt_eq_of_cover 2 _ (fun t hf => flushed0_eq V c t hf) cover0

end Final

end Cert.KernelIdeal.Hand

end
-- ==== Proof.Val.Region1.lean ====
/-
  Region 1 at the ideal instance: what this call's streaming product leaves in its output array.

  Floats are extended reals, every operation is exact and a change of float format is the identity. The region
  walks a 16 × 8 grid in row-major order; point `t` multiplies the `1024 × 2048` block `(t / 8, t % 8)` of the
  matrix by the `2048`-row block `t % 8` of the operand and adds the product onto an accumulator that is cleared
  where `t % 8 = 0`; where `t % 8 = 7` the activation of the accumulator is written back as row block `t / 8`
  of the output. Read at an index, the accumulator after point `t` is the sum over the reduction blocks
  `0 … t % 8` of the blocks' partial dot products; after the eighth block that is the full row-by-column sum,
  the matrix product at that index. The activation acts entry by entry, so it commutes with reading a block
  out of an array. So the output array ends holding the activation of `adj · X`, one whole-array function of the two arrays
  the region reads.
-/
import proofs.«146614_j73212012528270_1_alg».proof.Proof.KI.Body1
import proofs.«146614_j73212012528270_1_alg».proof.Proof.Val.Spec
import proofs.«146614_j73212012528270_1_alg».proof.Proof.LibDot2
import Idealize.ShloMosaic.Lib.ValueIdx
import Idealize.ShloMosaic.Lib.Pipeline.Value
import Idealize.ShloMosaic.Lib.ValueLayout
import Idealize.ShloMosaic.PureOps.Ideal.Laws
import Mathlib.Algebra.BigOperators.Group.Finset.Basic
import Mathlib.Data.Fintype.BigOperators

set_option maxRecDepth 16384

noncomputable section

open scoped BigOperators

namespace Cert.KernelIdeal.Hand

open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal Cert.KernelIdeal.Gen

/-! ## The index maps on the grid -/

/-- The three index maps, decided once over the 128 points: the matrix's block is `(t / 8, t % 8)`, the operand's
    `(t % 8, 0)`, the output's `(t / 8, 0)`. -/
theorem idx_facts1 : ∀ t : Fin cfg1.N, win1_0.index t (0 : Fin 2) = t.val / 8
    ∧ win1_0.index t (1 : Fin 2) = t.val % 8
    ∧ win1_1.index t (0 : Fin 2) = t.val % 8
    ∧ win1_1.index t (1 : Fin 2) = 0
    ∧ win1_2.index t (0 : Fin 2) = t.val / 8
    ∧ win1_2.index t (1 : Fin 2) = 0 :=
  (by decide +kernel : ∀ t : Fin grid1.N, _)

section Blocks
variable (V : (c : Dev nD) → (b : Ref sig .tc) → Buf (Elt Ideal) ((c : Thread nD τ).loc b))

/-! ## The staged blocks read at an index -/

/-- Entry `(r, j)` of the matrix's block at point `t` is entry `(1024 (t / 8) + r, 2048 (t % 8) + j)` of the matrix. -/
theorem ablk1_apply (c : Dev nD) (t : Fin cfg1.N) (r : Fin 1024) (j : Fin 2048)
    (hr : 1024 * (t.val / 8) + r.val < 16384) (hj : 2048 * (t.val % 8) + j.val < 16384) :
    ablk1 V c t (ix2 r j)
      = (V c (Pipeline.arrRef spec1 0) : FVec Ideal ⟨2, ![16384, 16384]⟩ .f32)
          (ix2 ⟨1024 * (t.val / 8) + r.val, hr⟩ ⟨2048 * (t.val % 8) + j.val, hj⟩) := by
  obtain ⟨ea, eb, -, -, -, -⟩ := idx_facts1 t
  unfold ablk1 iblk1
  rw [View.read_apply]
  show V c (Pipeline.arrRef spec1 0) _ = V c (Pipeline.arrRef spec1 0) _
  congr 1
  funext a
  apply Fin.ext
  match a with
  | ⟨0, _⟩ => show win1_0.index t (0 : Fin 2) * 1024 + 1 * r.val = 1024 * (t.val / 8) + r.val; rw [ea]; omega
  | ⟨1, _⟩ => show win1_0.index t (1 : Fin 2) * 2048 + 1 * j.val = 2048 * (t.val % 8) + j.val; rw [eb]; omega

/-- Entry `(j, q)` of the operand's block at point `t` is entry `(2048 (t % 8) + j, q)` of the operand. -/
theorem xblk1_apply (c : Dev nD) (t : Fin cfg1.N) (j : Fin 2048) (q : Fin 32)
    (hj : 2048 * (t.val % 8) + j.val < 16384) :
    xblk1 V c t (ix2 j q)
      = (V c (Pipeline.arrRef spec1 1) : FVec Ideal ⟨2, ![16384, (32 : ℕ)]⟩ .f32) (ix2 ⟨2048 * (t.val % 8) + j.val, hj⟩ q) := by
  obtain ⟨-, -, ec, ed, -, -⟩ := idx_facts1 t
  unfold xblk1 iblk1
  rw [View.read_apply]
  show V c (Pipeline.arrRef spec1 1) _ = V c (Pipeline.arrRef spec1 1) _
  congr 1
  funext a
  apply Fin.ext
  match a with
  | ⟨0, _⟩ => show win1_1.index t (0 : Fin 2) * 2048 + 1 * j.val = 2048 * (t.val % 8) + j.val; rw [ec]; omega
  | ⟨1, _⟩ => show win1_1.index t (1 : Fin 2) * (32 : ℕ) + 1 * q.val = q.val; rw [ed]; omega

end Blocks

/-! ## The payloads read at an index -/

/-- The activation the body stores is the specification's. -/
theorem pay3_eq1 (v : Vec Ideal S1024x32 .f32) : k1_pay3 (F := Ideal) v = Cert.Spec.relu v := rfl

/-- The activation acts entry by entry: on an array read through any map of indices it is the activation of the
    array, read through that map. -/
theorem act1_reindex {s s' : Shape} (M : FVec Ideal s' .f32) (e : s.Idx → s'.Idx) (y : s.Idx) :
    Cert.Spec.relu (fun y => M (e y)) y = Cert.Spec.relu M (e y) := rfl

/-- The cleared accumulator is zero at every index. -/
theorem k1_pay1_apply (r : Fin 1024) (q : Fin 32) : k1_pay1 (F := Ideal) (ix2 r q) = 0 := by
  unfold k1_pay1
  refine (congrFun (shapeCast_self _ _) (ix2 r q)).trans ?_
  exact Ideal.ofBits_zero_f32

/-- The printed dimension numbers are those of the plain matrix product `[1024, 2048] × [2048, 32]`. -/
theorem dot1_eq : dot_S1024x2048_S2048x32_S1024x32_1_0_0_1_n_n
    = Dot2.mmDims 1024 2048 32 dot_S1024x2048_S2048x32_S1024x32_1_0_0_1_n_n_wf := rfl

/-- One point's update of the accumulator, at `(r, q)`: the entry plus the dot product of row `r` of the matrix's block
    with column `q` of the operand's block (the format changes are the identity, the product is exact). -/
theorem k1_pay2_apply (xa : Vec Ideal S1024x2048 .f32) (xb : Vec Ideal S2048x32 .f32) (s : Vec Ideal S1024x32 .f32)
    (r : Fin 1024) (q : Fin 32) :
    k1_pay2 xa xb s (ix2 r q) = s (ix2 r q) + ∑ j : Fin 2048, xa (ix2 r j) * xb (ix2 j q) := by
  have ecast : shapeCast S2048x32 xb shapeCasts_S2048x32_S2048x32 = xb := shapeCast_self _ _
  unfold k1_pay2
  refine (congrFun (shapeCast_self _ _) (ix2 r q)).trans ?_
  refine congrArg (s (ix2 r q) + ·) ?_
  rw [ecast, dot1_eq]
  exact Dot2.matmul_zero_mm_apply _ none _ _ r q

/-! ## Consecutive blocks of positions make one range -/

/-- A sum over `m` consecutive blocks of `n` positions each is the sum over the `m * n` positions. -/
private theorem sum_blocks_range {M : Type*} [AddCommMonoid M] (n : ℕ) (f : ℕ → M) :
    ∀ m : ℕ, ∑ k ∈ Finset.range m, ∑ j ∈ Finset.range n, f (n * k + j) = ∑ J ∈ Finset.range (m * n), f J
  | 0 => by simp
  | m + 1 => by
    rw [Finset.sum_range_succ, sum_blocks_range n f m, Nat.succ_mul, Finset.sum_range_add, Nat.mul_comm m n]

/-- The same with the position inside a block, and the position in the whole, running over `Fin`. -/
private theorem sum_blocks {M : Type*} [AddCommMonoid M] (m n : ℕ) (f : ℕ → M) :
    ∑ k ∈ Finset.range m, ∑ j : Fin n, f (n * k + j.val) = ∑ J : Fin (m * n), f J.val := by
  rw [Fin.sum_univ_eq_sum_range f (m * n), ← sum_blocks_range n f m]
  exact Finset.sum_congr rfl fun k _ => Fin.sum_univ_eq_sum_range (fun j => f (n * k + j)) n

/-! ## The accumulator read at an index -/

section Terms
variable (A : FVec Ideal ⟨2, ![16384, 16384]⟩ .f32) (X : FVec Ideal ⟨2, ![16384, (32 : ℕ)]⟩ .f32)

/-- The product `A[R, J] * X[J, q]` as a function of the natural-number positions `R` and `J`, zero outside the
    arrays: the sums below range over plain positions. -/
def term1 (R : ℕ) (q : Fin 32) (J : ℕ) : EReal :=
  if h : R < 16384 ∧ J < 16384 then A (ix2 ⟨R, h.1⟩ ⟨J, h.2⟩) * X (ix2 ⟨J, h.2⟩ q) else 0

theorem term1_eq (R : Fin 16384) (q : Fin 32) (J : Fin 16384) : term1 A X R.val q J.val = A (ix2 R J) * X (ix2 J q) := by
  unfold term1
  rw [dif_pos ⟨R.isLt, J.isLt⟩]

/-- Over the eight reduction blocks the partial dot products add up to the matrix product's entry. -/
theorem term1_sum (R : Fin 16384) (q : Fin 32) :
    ∑ k ∈ Finset.range 8, ∑ j : Fin 2048, term1 A X R.val q (2048 * k + j.val)
      = Cert.Spec.mm Cert.Spec.wf_mm_16384_16384_32 A X (ix2 R q) := by
  rw [Cert.Spec.mm_apply]
  refine (sum_blocks 8 2048 (term1 A X R.val q)).trans ?_
  exact Finset.sum_congr rfl fun J _ => term1_eq A X R q J

end Terms

section Acc
variable (V : (c : Dev nD) → (b : Ref sig .tc) → Buf (Elt Ideal) ((c : Thread nD τ).loc b))

/-- One point's partial dot product, in the positions of the two arrays. -/
theorem blk1_sum (c : Dev nD) (n : ℕ) (hn : n < cfg1.N) (r : Fin 1024) (q : Fin 32) :
    ∑ j : Fin 2048, ablk1 V c ⟨n, hn⟩ (ix2 r j) * xblk1 V c ⟨n, hn⟩ (ix2 j q)
      = ∑ j : Fin 2048, term1 (V c (Pipeline.arrRef spec1 0)) (V c (Pipeline.arrRef spec1 1)) (1024 * (n / 8) + r.val) q (2048 * (n % 8) + j.val) := by
  have hN : n < 128 := lt_of_lt_of_eq hn N_1
  have hr : 1024 * (n / 8) + r.val < 16384 := by have := r.isLt; omega
  refine Finset.sum_congr rfl fun j _ => ?_
  have hj : 2048 * (n % 8) + j.val < 16384 := by have := j.isLt; omega
  rw [ablk1_apply V c ⟨n, hn⟩ r j hr hj, xblk1_apply V c ⟨n, hn⟩ j q hj]
  unfold term1
  rw [dif_pos ⟨hr, hj⟩]

/-- THE ACCUMULATOR after point `n`, at `(r, q)`: the partial dot products of the reduction blocks `0 … n % 8` of row
    `1024 (n / 8) + r` of the matrix with column `q` of the operand. By induction on the point: a row block's first point
    adds its product to zero, every other to what the point before left. -/
theorem accAt1_apply (c : Dev nD) (n : ℕ) : ∀ (hn : n < cfg1.N) (r : Fin 1024) (q : Fin 32),
    accAt1 V c n hn (ix2 r q)
      = ∑ k ∈ Finset.range (n % 8 + 1), ∑ j : Fin 2048,
          term1 (V c (Pipeline.arrRef spec1 0)) (V c (Pipeline.arrRef spec1 1)) (1024 * (n / 8) + r.val) q (2048 * k + j.val) := by
  induction n using Nat.strong_induction_on with
  | _ n ih =>
    intro hn r q
    by_cases h : n % 8 = 0
    · refine (congrFun (accAt1_first V c ⟨n, hn⟩ h) (ix2 r q)).trans ?_
      refine (k1_pay2_apply _ _ _ r q).trans ?_
      rw [k1_pay1_apply, zero_add, blk1_sum V c n hn r q, h, Finset.sum_range_one]
    · have hd : (n - 1) / 8 = n / 8 := by omega
      have hm : (n - 1) % 8 + 1 = n % 8 := by omega
      refine (congrFun (accAt1_next V c ⟨n, hn⟩ h) (ix2 r q)).trans ?_
      refine (k1_pay2_apply _ _ _ r q).trans ?_
      refine (congrArg₂ (· + ·) (ih (n - 1) (by omega) _ r q) (blk1_sum V c n hn r q)).trans ?_
      rw [hd, hm, Finset.sum_range_succ]

/-- After a row block's last point the accumulator holds, at `(r, q)`, the matrix product's entry of row
    `1024 (t / 8) + r` and column `q`. -/
theorem accAt1_last (c : Dev nD) (t : Fin cfg1.N) (h7 : t.val % 8 = 7) (r : Fin 1024) (q : Fin 32)
    (hR : 1024 * (t.val / 8) + r.val < 16384) :
    accAt1 V c t.val t.isLt (ix2 r q)
      = Cert.Spec.mm Cert.Spec.wf_mm_16384_16384_32 (V c (Pipeline.arrRef spec1 0)) (V c (Pipeline.arrRef spec1 1))
          (ix2 ⟨1024 * (t.val / 8) + r.val, hR⟩ q) := by
  rw [accAt1_apply V c t.val t.isLt r q, h7]
  exact term1_sum _ _ ⟨1024 * (t.val / 8) + r.val, hR⟩ q

/-- So the whole accumulator is then the matrix product read through any map `e` of the block's indices to the output's
    that sends `(y₀, y₁)` to row `1024 (t / 8) + y₀`, column `y₁`. -/
theorem accAt1_full (c : Dev nD) (t : Fin cfg1.N) (h7 : t.val % 8 = 7)
    (e : S1024x32.Idx → (⟨2, ![16384, (32 : ℕ)]⟩ : Shape).Idx)
    (hrow : ∀ y, (e y 0).val = 1024 * (t.val / 8) + (y 0).val) (hcol : ∀ y, (e y 1).val = (y 1).val) :
    accAt1 V c t.val t.isLt
      = fun y => Cert.Spec.mm Cert.Spec.wf_mm_16384_16384_32 (V c (Pipeline.arrRef spec1 0)) (V c (Pipeline.arrRef spec1 1)) (e y) := by
  funext y
  obtain ⟨r, q, rfl⟩ : ∃ (r : Fin 1024) (q : Fin 32), y = ix2 r q := ⟨y 0, y 1, eq_ix2 y⟩
  have hlt := idx2_lt0 (e (ix2 r q))
  have hrq : (e (ix2 r q) 0).val = 1024 * (t.val / 8) + r.val := hrow (ix2 r q)
  have hcq : (e (ix2 r q) 1).val = q.val := hcol (ix2 r q)
  have hR : 1024 * (t.val / 8) + r.val < 16384 := by omega
  refine (accAt1_last V c t h7 r q hR).trans (congrArg _ ?_)
  funext a
  match a with
  | ⟨0, _⟩ => exact Fin.ext hrq.symm
  | ⟨1, _⟩ => exact Fin.ext hcq.symm

end Acc

/-! ## What a row block's last point writes back, the cover, the array -/

section Final
variable (V : (c : Dev nD) → (b : Ref sig .tc) → Buf (Elt Ideal) ((c : Thread nD τ).loc b))

/-- At a row block's last point the activation of the accumulator, at `y`, is the specification's array at the index
    of the output that `y` sits at. -/
theorem out1_apply (c : Dev nD) (t : Fin cfg1.N) (h7 : t.val % 8 = 7)
    (e : S1024x32.Idx → (⟨2, ![16384, (32 : ℕ)]⟩ : Shape).Idx)
    (hrow : ∀ y, (e y 0).val = 1024 * (t.val / 8) + (y 0).val) (hcol : ∀ y, (e y 1).val = (y 1).val) (y : S1024x32.Idx) :
    Cert.Spec.relu (accAt1 V c t.val t.isLt) y
      = Cert.Spec.hidden (V c (Pipeline.arrRef spec1 0)) (V c (Pipeline.arrRef spec1 1)) (e y) := by
  rw [accAt1_full V c t h7 e hrow hcol]
  exact act1_reindex _ e y

/-- WHAT POINT `t` WRITES BACK, where it writes back, is block `t` of the specification's array of the two arrays the
    region reads. -/
theorem flushed1_eq (c : Dev nD) (t : Fin cfg1.N) (hf : (cfg1.win 2).flush t = true) :
    (dat1 (F := Ideal) V c).flushed 2 t
      = ((cfg1.win 2).blk t).view.read (Elt Ideal)
          (Cert.Spec.hidden (V c (Pipeline.arrRef spec1 0)) (V c (Pipeline.arrRef spec1 1))) := by
  have h7 : t.val % 8 = 7 := (flush1_2 t).mp hf
  obtain ⟨-, -, -, -, ee, ef⟩ := idx_facts1 t
  show (cfg1.win 2).cut (grid1.coords t) ((dat1 V c).after 2 t) = _
  rw [after1_2, pay3_eq1]
  funext y
  show Cert.Spec.relu (accAt1 V c t.val t.isLt) y
    = Cert.Spec.hidden (V c (Pipeline.arrRef spec1 0)) (V c (Pipeline.arrRef spec1 1)) (((cfg1.win 2).blk t).view.emb y)
  refine out1_apply V c t h7 (fun y => ((cfg1.win 2).blk t).view.emb y) (fun y => ?_) (fun y => ?_) y
  · show win1_2.index t (0 : Fin 2) * 1024 + 1 * (y 0).val = 1024 * (t.val / 8) + (y 0).val
    rw [ee]; omega
  · show win1_2.index t (1 : Fin 2) * (32 : ℕ) + 1 * (y 1).val = (y 1).val
    rw [ef]; omega

/-- An index of the output array is in point `t`'s block iff each coordinate is in the block's range on its axis. -/
theorem mem_blk1 (t : Fin cfg1.N) (i : (⟨2, ![16384, (32 : ℕ)]⟩ : Shape).Idx) :
    i ∈ ((cfg1.win 2).blk t).view.set
      ↔ ∀ a : Fin 2, win1_2.index t a * S1024x32.size a ≤ (i a).val ∧ (i a).val < win1_2.index t a * S1024x32.size a + S1024x32.size a := by
  show i ∈ ((View.whole (Pipeline.arrRef spec1 2)).slice (win1_2.rect t)).set ↔ _
  rw [View.set_slice_whole, Rect.mem_set_unit]
  exact Iff.rfl

/-- THE COVER: row `R` of the output lies in the block that the last point of row block `R / 1024` writes back. -/
theorem cover1 (i : (⟨2, ![16384, (32 : ℕ)]⟩ : Shape).Idx) :
    ∃ t : Fin cfg1.N, (cfg1.win 2).flush t = true ∧ i ∈ ((cfg1.win 2).blk t).view.set := by
  have hrow : (i 0).val < 16384 := idx2_lt0 i
  have hcol : (i 1).val < (32 : ℕ) := idx2_lt1 i
  have hN : cfg1.N = 128 := N_1
  have ht : 8 * ((i 0).val / 1024) + 7 < cfg1.N := by rw [hN]; omega
  obtain ⟨-, -, -, -, ee, ef⟩ := idx_facts1 ⟨8 * ((i 0).val / 1024) + 7, ht⟩
  refine ⟨⟨8 * ((i 0).val / 1024) + 7, ht⟩, (flush1_2 _).mpr (by show (8 * ((i 0).val / 1024) + 7) % 8 = 7; omega), ?_⟩
  rw [mem_blk1]
  intro a
  match a with
  | ⟨0, _⟩ =>
    show win1_2.index ⟨8 * ((i 0).val / 1024) + 7, ht⟩ (0 : Fin 2) * 1024 ≤ (i 0).val
      ∧ (i 0).val < win1_2.index ⟨8 * ((i 0).val / 1024) + 7, ht⟩ (0 : Fin 2) * 1024 + 1024
    rw [ee]
    show (8 * ((i 0).val / 1024) + 7) / 8 * 1024 ≤ (i 0).val ∧ (i 0).val < (8 * ((i 0).val / 1024) + 7) / 8 * 1024 + 1024
    omega
  | ⟨1, _⟩ =>
    show win1_2.index ⟨8 * ((i 0).val / 1024) + 7, ht⟩ (1 : Fin 2) * (32 : ℕ) ≤ (i 1).val
      ∧ (i 1).val < win1_2.index ⟨8 * ((i 0).val / 1024) + 7, ht⟩ (1 : Fin 2) * (32 : ℕ) + (32 : ℕ)
    rw [ef]
    omega

/-- THE OUTPUT ARRAY after the region: the specification's array, one function of the two arrays the region reads. -/
theorem final1 (c : Dev nD) :
    (dat1 (F := Ideal) V c).arrAt 2 cfg1.N
      = Cert.Spec.hidden (V c (Pipeline.arrRef spec1 0)) (V c (Pipeline.arrRef spec1 1)) :=
  (dat1 V c).arrAt_eq_of_cover 2 _ (fun t hf => flushed1_eq V c t hf) cover1

end Final

end Cert.KernelIdeal.Hand

end
-- ==== Proof.Val.Region2.lean ====
/-
  Region 2 at the ideal instance: what this call's streaming product leaves in its output array.

  Floats are extended reals, every operation is exact and a change of float format is the identity. The region
  walks a 16 × 8 grid in row-major order; point `t` multiplies the `1024 × 2048` block `(t / 8, t % 8)` of the
  matrix by the `2048`-row block `t % 8` of the operand and adds the product onto an accumulator that is cleared
  where `t % 8 = 0`; where `t % 8 = 7` the activation of the accumulator is written back as row block `t / 8`
  of the output. Read at an index, the accumulator after point `t` is the sum over the reduction blocks
  `0 … t % 8` of the blocks' partial dot products; after the eighth block that is the full row-by-column sum,
  the matrix product at that index. The activation acts entry by entry, so it commutes with reading a block
  out of an array. So the output array ends holding the activation of `adj · X`, one whole-array function of the two arrays
  the region reads.
-/
import proofs.«146614_j73212012528270_1_alg».proof.Proof.KI.Body2
import proofs.«146614_j73212012528270_1_alg».proof.Proof.Val.Spec
import proofs.«146614_j73212012528270_1_alg».proof.Proof.LibDot2
import Idealize.ShloMosaic.Lib.ValueIdx
import Idealize.ShloMosaic.Lib.Pipeline.Value
import Idealize.ShloMosaic.Lib.ValueLayout
import Idealize.ShloMosaic.PureOps.Ideal.Laws
import Mathlib.Algebra.BigOperators.Group.Finset.Basic
import Mathlib.Data.Fintype.BigOperators

set_option maxRecDepth 16384

noncomputable section

open scoped BigOperators

namespace Cert.KernelIdeal.Hand

open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal Cert.KernelIdeal.Gen

/-! ## The index maps on the grid -/

/-- The three index maps, decided once over the 128 points: the matrix's block is `(t / 8, t % 8)`, the operand's
    `(t % 8, 0)`, the output's `(t / 8, 0)`. -/
theorem idx_facts2 : ∀ t : Fin cfg2.N, win2_0.index t (0 : Fin 2) = t.val / 8
    ∧ win2_0.index t (1 : Fin 2) = t.val % 8
    ∧ win2_1.index t (0 : Fin 2) = t.val % 8
    ∧ win2_1.index t (1 : Fin 2) = 0
    ∧ win2_2.index t (0 : Fin 2) = t.val / 8
    ∧ win2_2.index t (1 : Fin 2) = 0 :=
  (by decide +kernel : ∀ t : Fin grid2.N, _)

section Blocks
variable (V : (c : Dev nD) → (b : Ref sig .tc) → Buf (Elt Ideal) ((c : Thread nD τ).loc b))

/-! ## The staged blocks read at an index -/

/-- Entry `(r, j)` of the matrix's block at point `t` is entry `(1024 (t / 8) + r, 2048 (t % 8) + j)` of the matrix. -/
theorem ablk2_apply (c : Dev nD) (t : Fin cfg2.N) (r : Fin 1024) (j : Fin 2048)
    (hr : 1024 * (t.val / 8) + r.val < 16384) (hj : 2048 * (t.val % 8) + j.val < 16384) :
    ablk2 V c t (ix2 r j)
      = (V c (Pipeline.arrRef spec2 0) : FVec Ideal ⟨2, ![16384, 16384]⟩ .f32)
          (ix2 ⟨1024 * (t.val / 8) + r.val, hr⟩ ⟨2048 * (t.val % 8) + j.val, hj⟩) := by
  obtain ⟨ea, eb, -, -, -, -⟩ := idx_facts2 t
  unfold ablk2 iblk2
  rw [View.read_apply]
  show V c (Pipeline.arrRef spec2 0) _ = V c (Pipeline.arrRef spec2 0) _
  congr 1
  funext a
  apply Fin.ext
  match a with
  | ⟨0, _⟩ => show win2_0.index t (0 : Fin 2) * 1024 + 1 * r.val = 1024 * (t.val / 8) + r.val; rw [ea]; omega
  | ⟨1, _⟩ => show win2_0.index t (1 : Fin 2) * 2048 + 1 * j.val = 2048 * (t.val % 8) + j.val; rw [eb]; omega

/-- Entry `(j, q)` of the operand's block at point `t` is entry `(2048 (t % 8) + j, q)` of the operand. -/
theorem xblk2_apply (c : Dev nD) (t : Fin cfg2.N) (j : Fin 2048) (q : Fin 1)
    (hj : 2048 * (t.val % 8) + j.val < 16384) :
    xblk2 V c t (ix2 j q)
      = (V c (Pipeline.arrRef spec2 1) : FVec Ideal ⟨2, ![16384, (1 : ℕ)]⟩ .f32) (ix2 ⟨2048 * (t.val % 8) + j.val, hj⟩ q) := by
  obtain ⟨-, -, ec, ed, -, -⟩ := idx_facts2 t
  unfold xblk2 iblk2
  rw [View.read_apply]
  show V c (Pipeline.arrRef spec2 1) _ = V c (Pipeline.arrRef spec2 1) _
  congr 1
  funext a
  apply Fin.ext
  match a with
  | ⟨0, _⟩ => show win2_1.index t (0 : Fin 2) * 2048 + 1 * j.val = 2048 * (t.val % 8) + j.val; rw [ec]; omega
  | ⟨1, _⟩ => show win2_1.index t (1 : Fin 2) * (1 : ℕ) + 1 * q.val = q.val; rw [ed]; omega

end Blocks

/-! ## The payloads read at an index -/

/-- The activation the body stores is the specification's. -/
theorem pay3_eq2 (v : Vec Ideal S1024x1 .f32) : k2_pay3 (F := Ideal) v = Idealize.ShloMosaic.logistic v := rfl

/-- The activation acts entry by entry: on an array read through any map of indices it is the activation of the
    array, read through that map. -/
theorem act2_reindex {s s' : Shape} (M : FVec Ideal s' .f32) (e : s.Idx → s'.Idx) (y : s.Idx) :
    Idealize.ShloMosaic.logistic (fun y => M (e y)) y = Idealize.ShloMosaic.logistic M (e y) := rfl

/-- The cleared accumulator is zero at every index. -/
theorem k2_pay1_apply (r : Fin 1024) (q : Fin 1) : k2_pay1 (F := Ideal) (ix2 r q) = 0 := by
  unfold k2_pay1
  refine (congrFun (shapeCast_self _ _) (ix2 r q)).trans ?_
  exact Ideal.ofBits_zero_f32

/-- The printed dimension numbers are those of the plain matrix product `[1024, 2048] × [2048, 32]`. -/
theorem dot2_eq : dot_S1024x2048_S2048x1_S1024x1_1_0_0_1_n_n
    = Dot2.mmDims 1024 2048 1 dot_S1024x2048_S2048x1_S1024x1_1_0_0_1_n_n_wf := rfl

/-- One point's update of the accumulator, at `(r, q)`: the entry plus the dot product of row `r` of the matrix's block
    with column `q` of the operand's block (the format changes are the identity, the product is exact). -/
theorem k2_pay2_apply (xa : Vec Ideal S1024x2048 .f32) (xb : Vec Ideal S2048x1 .f32) (s : Vec Ideal S1024x1 .f32)
    (r : Fin 1024) (q : Fin 1) :
    k2_pay2 xa xb s (ix2 r q) = s (ix2 r q) + ∑ j : Fin 2048, xa (ix2 r j) * xb (ix2 j q) := by
  have ecast : shapeCast S2048x1 xb shapeCasts_S2048x1_S2048x1 = xb := shapeCast_self _ _
  unfold k2_pay2
  refine (congrFun (shapeCast_self _ _) (ix2 r q)).trans ?_
  refine congrArg (s (ix2 r q) + ·) ?_
  rw [ecast, dot2_eq]
  exact Dot2.matmul_zero_mm_apply _ none _ _ r q

/-! ## Consecutive blocks of positions make one range -/

/-- A sum over `m` consecutive blocks of `n` positions each is the sum over the `m * n` positions. -/
private theorem sum_blocks_range {M : Type*} [AddCommMonoid M] (n : ℕ) (f : ℕ → M) :
    ∀ m : ℕ, ∑ k ∈ Finset.range m, ∑ j ∈ Finset.range n, f (n * k + j) = ∑ J ∈ Finset.range (m * n), f J
  | 0 => by simp
  | m + 1 => by
    rw [Finset.sum_range_succ, sum_blocks_range n f m, Nat.succ_mul, Finset.sum_range_add, Nat.mul_comm m n]

/-- The same with the position inside a block, and the position in the whole, running over `Fin`. -/
private theorem sum_blocks {M : Type*} [AddCommMonoid M] (m n : ℕ) (f : ℕ → M) :
    ∑ k ∈ Finset.range m, ∑ j : Fin n, f (n * k + j.val) = ∑ J : Fin (m * n), f J.val := by
  rw [Fin.sum_univ_eq_sum_range f (m * n), ← sum_blocks_range n f m]
  exact Finset.sum_congr rfl fun k _ => Fin.sum_univ_eq_sum_range (fun j => f (n * k + j)) n

/-! ## The accumulator read at an index -/

section Terms
variable (A : FVec Ideal ⟨2, ![16384, 16384]⟩ .f32) (X : FVec Ideal ⟨2, ![16384, (1 : ℕ)]⟩ .f32)

/-- The product `A[R, J] * X[J, q]` as a function of the natural-number positions `R` and `J`, zero outside the
    arrays: the sums below range over plain positions. -/
def term2 (R : ℕ) (q : Fin 1) (J : ℕ) : EReal :=
  if h : R < 16384 ∧ J < 16384 then A (ix2 ⟨R, h.1⟩ ⟨J, h.2⟩) * X (ix2 ⟨J, h.2⟩ q) else 0

theorem term2_eq (R : Fin 16384) (q : Fin 1) (J : Fin 16384) : term2 A X R.val q J.val = A (ix2 R J) * X (ix2 J q) := by
  unfold term2
  rw [dif_pos ⟨R.isLt, J.isLt⟩]

/-- Over the eight reduction blocks the partial dot products add up to the matrix product's entry. -/
theorem term2_sum (R : Fin 16384) (q : Fin 1) :
    ∑ k ∈ Finset.range 8, ∑ j : Fin 2048, term2 A X R.val q (2048 * k + j.val)
      = Cert.Spec.mm Cert.Spec.wf_mm_16384_16384_1 A X (ix2 R q) := by
  rw [Cert.Spec.mm_apply]
  refine (sum_blocks 8 2048 (term2 A X R.val q)).trans ?_
  exact Finset.sum_congr rfl fun J _ => term2_eq A X R q J

end Terms

section Acc
variable (V : (c : Dev nD) → (b : Ref sig .tc) → Buf (Elt Ideal) ((c : Thread nD τ).loc b))

/-- One point's partial dot product, in the positions of the two arrays. -/
theorem blk2_sum (c : Dev nD) (n : ℕ) (hn : n < cfg2.N) (r : Fin 1024) (q : Fin 1) :
    ∑ j : Fin 2048, ablk2 V c ⟨n, hn⟩ (ix2 r j) * xblk2 V c ⟨n, hn⟩ (ix2 j q)
      = ∑ j : Fin 2048, term2 (V c (Pipeline.arrRef spec2 0)) (V c (Pipeline.arrRef spec2 1)) (1024 * (n / 8) + r.val) q (2048 * (n % 8) + j.val) := by
  have hN : n < 128 := lt_of_lt_of_eq hn N_2
  have hr : 1024 * (n / 8) + r.val < 16384 := by have := r.isLt; omega
  refine Finset.sum_congr rfl fun j _ => ?_
  have hj : 2048 * (n % 8) + j.val < 16384 := by have := j.isLt; omega
  rw [ablk2_apply V c ⟨n, hn⟩ r j hr hj, xblk2_apply V c ⟨n, hn⟩ j q hj]
  unfold term2
  rw [dif_pos ⟨hr, hj⟩]

/-- THE ACCUMULATOR after point `n`, at `(r, q)`: the partial dot products of the reduction blocks `0 … n % 8` of row
    `1024 (n / 8) + r` of the matrix with column `q` of the operand. By induction on the point: a row block's first point
    adds its product to zero, every other to what the point before left. -/
theorem accAt2_apply (c : Dev nD) (n : ℕ) : ∀ (hn : n < cfg2.N) (r : Fin 1024) (q : Fin 1),
    accAt2 V c n hn (ix2 r q)
      = ∑ k ∈ Finset.range (n % 8 + 1), ∑ j : Fin 2048,
          term2 (V c (Pipeline.arrRef spec2 0)) (V c (Pipeline.arrRef spec2 1)) (1024 * (n / 8) + r.val) q (2048 * k + j.val) := by
  induction n using Nat.strong_induction_on with
  | _ n ih =>
    intro hn r q
    by_cases h : n % 8 = 0
    · refine (congrFun (accAt2_first V c ⟨n, hn⟩ h) (ix2 r q)).trans ?_
      refine (k2_pay2_apply _ _ _ r q).trans ?_
      rw [k2_pay1_apply, zero_add, blk2_sum V c n hn r q, h, Finset.sum_range_one]
    · have hd : (n - 1) / 8 = n / 8 := by omega
      have hm : (n - 1) % 8 + 1 = n % 8 := by omega
      refine (congrFun (accAt2_next V c ⟨n, hn⟩ h) (ix2 r q)).trans ?_
      refine (k2_pay2_apply _ _ _ r q).trans ?_
      refine (congrArg₂ (· + ·) (ih (n - 1) (by omega) _ r q) (blk2_sum V c n hn r q)).trans ?_
      rw [hd, hm, Finset.sum_range_succ]

/-- After a row block's last point the accumulator holds, at `(r, q)`, the matrix product's entry of row
    `1024 (t / 8) + r` and column `q`. -/
theorem accAt2_last (c : Dev nD) (t : Fin cfg2.N) (h7 : t.val % 8 = 7) (r : Fin 1024) (q : Fin 1)
    (hR : 1024 * (t.val / 8) + r.val < 16384) :
    accAt2 V c t.val t.isLt (ix2 r q)
      = Cert.Spec.mm Cert.Spec.wf_mm_16384_16384_1 (V c (Pipeline.arrRef spec2 0)) (V c (Pipeline.arrRef spec2 1))
          (ix2 ⟨1024 * (t.val / 8) + r.val, hR⟩ q) := by
  rw [accAt2_apply V c t.val t.isLt r q, h7]
  exact term2_sum _ _ ⟨1024 * (t.val / 8) + r.val, hR⟩ q

/-- So the whole accumulator is then the matrix product read through any map `e` of the block's indices to the output's
    that sends `(y₀, y₁)` to row `1024 (t / 8) + y₀`, column `y₁`. -/
theorem accAt2_full (c : Dev nD) (t : Fin cfg2.N) (h7 : t.val % 8 = 7)
    (e : S1024x1.Idx → (⟨2, ![16384, (1 : ℕ)]⟩ : Shape).Idx)
    (hrow : ∀ y, (e y 0).val = 1024 * (t.val / 8) + (y 0).val) (hcol : ∀ y, (e y 1).val = (y 1).val) :
    accAt2 V c t.val t.isLt
      = fun y => Cert.Spec.mm Cert.Spec.wf_mm_16384_16384_1 (V c (Pipeline.arrRef spec2 0)) (V c (Pipeline.arrRef spec2 1)) (e y) := by
  funext y
  obtain ⟨r, q, rfl⟩ : ∃ (r : Fin 1024) (q : Fin 1), y = ix2 r q := ⟨y 0, y 1, eq_ix2 y⟩
  have hlt := idx2_lt0 (e (ix2 r q))
  have hrq : (e (ix2 r q) 0).val = 1024 * (t.val / 8) + r.val := hrow (ix2 r q)
  have hcq : (e (ix2 r q) 1).val = q.val := hcol (ix2 r q)
  have hR : 1024 * (t.val / 8) + r.val < 16384 := by omega
  refine (accAt2_last V c t h7 r q hR).trans (congrArg _ ?_)
  funext a
  match a with
  | ⟨0, _⟩ => exact Fin.ext hrq.symm
  | ⟨1, _⟩ => exact Fin.ext hcq.symm

end Acc

/-! ## What a row block's last point writes back, the cover, the array -/

section Final
variable (V : (c : Dev nD) → (b : Ref sig .tc) → Buf (Elt Ideal) ((c : Thread nD τ).loc b))

/-- At a row block's last point the activation of the accumulator, at `y`, is the specification's array at the index
    of the output that `y` sits at. -/
theorem out2_apply (c : Dev nD) (t : Fin cfg2.N) (h7 : t.val % 8 = 7)
    (e : S1024x1.Idx → (⟨2, ![16384, (1 : ℕ)]⟩ : Shape).Idx)
    (hrow : ∀ y, (e y 0).val = 1024 * (t.val / 8) + (y 0).val) (hcol : ∀ y, (e y 1).val = (y 1).val) (y : S1024x1.Idx) :
    Idealize.ShloMosaic.logistic (accAt2 V c t.val t.isLt) y
      = Cert.Spec.last (V c (Pipeline.arrRef spec2 0)) (V c (Pipeline.arrRef spec2 1)) (e y) := by
  rw [accAt2_full V c t h7 e hrow hcol]
  exact act2_reindex _ e y

/-- WHAT POINT `t` WRITES BACK, where it writes back, is block `t` of the specification's array of the two arrays the
    region reads. -/
theorem flushed2_eq (c : Dev nD) (t : Fin cfg2.N) (hf : (cfg2.win 2).flush t = true) :
    (dat2 (F := Ideal) V c).flushed 2 t
      = ((cfg2.win 2).blk t).view.read (Elt Ideal)
          (Cert.Spec.last (V c (Pipeline.arrRef spec2 0)) (V c (Pipeline.arrRef spec2 1))) := by
  have h7 : t.val % 8 = 7 := (flush2_2 t).mp hf
  obtain ⟨-, -, -, -, ee, ef⟩ := idx_facts2 t
  show (cfg2.win 2).cut (grid2.coords t) ((dat2 V c).after 2 t) = _
  rw [after2_2, pay3_eq2]
  funext y
  show Idealize.ShloMosaic.logistic (accAt2 V c t.val t.isLt) y
    = Cert.Spec.last (V c (Pipeline.arrRef spec2 0)) (V c (Pipeline.arrRef spec2 1)) (((cfg2.win 2).blk t).view.emb y)
  refine out2_apply V c t h7 (fun y => ((cfg2.win 2).blk t).view.emb y) (fun y => ?_) (fun y => ?_) y
  · show win2_2.index t (0 : Fin 2) * 1024 + 1 * (y 0).val = 1024 * (t.val / 8) + (y 0).val
    rw [ee]; omega
  · show win2_2.index t (1 : Fin 2) * (1 : ℕ) + 1 * (y 1).val = (y 1).val
    rw [ef]; omega

/-- An index of the output array is in point `t`'s block iff each coordinate is in the block's range on its axis. -/
theorem mem_blk2 (t : Fin cfg2.N) (i : (⟨2, ![16384, (1 : ℕ)]⟩ : Shape).Idx) :
    i ∈ ((cfg2.win 2).blk t).view.set
      ↔ ∀ a : Fin 2, win2_2.index t a * S1024x1.size a ≤ (i a).val ∧ (i a).val < win2_2.index t a * S1024x1.size a + S1024x1.size a := by
  show i ∈ ((View.whole (Pipeline.arrRef spec2 2)).slice (win2_2.rect t)).set ↔ _
  rw [View.set_slice_whole, Rect.mem_set_unit]
  exact Iff.rfl

/-- THE COVER: row `R` of the output lies in the block that the last point of row block `R / 1024` writes back. -/
theorem cover2 (i : (⟨2, ![16384, (1 : ℕ)]⟩ : Shape).Idx) :
    ∃ t : Fin cfg2.N, (cfg2.win 2).flush t = true ∧ i ∈ ((cfg2.win 2).blk t).view.set := by
  have hrow : (i 0).val < 16384 := idx2_lt0 i
  have hcol : (i 1).val < (1 : ℕ) := idx2_lt1 i
  have hN : cfg2.N = 128 := N_2
  have ht : 8 * ((i 0).val / 1024) + 7 < cfg2.N := by rw [hN]; omega
  obtain ⟨-, -, -, -, ee, ef⟩ := idx_facts2 ⟨8 * ((i 0).val / 1024) + 7, ht⟩
  refine ⟨⟨8 * ((i 0).val / 1024) + 7, ht⟩, (flush2_2 _).mpr (by show (8 * ((i 0).val / 1024) + 7) % 8 = 7; omega), ?_⟩
  rw [mem_blk2]
  intro a
  match a with
  | ⟨0, _⟩ =>
    show win2_2.index ⟨8 * ((i 0).val / 1024) + 7, ht⟩ (0 : Fin 2) * 1024 ≤ (i 0).val
      ∧ (i 0).val < win2_2.index ⟨8 * ((i 0).val / 1024) + 7, ht⟩ (0 : Fin 2) * 1024 + 1024
    rw [ee]
    show (8 * ((i 0).val / 1024) + 7) / 8 * 1024 ≤ (i 0).val ∧ (i 0).val < (8 * ((i 0).val / 1024) + 7) / 8 * 1024 + 1024
    omega
  | ⟨1, _⟩ =>
    show win2_2.index ⟨8 * ((i 0).val / 1024) + 7, ht⟩ (1 : Fin 2) * (1 : ℕ) ≤ (i 1).val
      ∧ (i 1).val < win2_2.index ⟨8 * ((i 0).val / 1024) + 7, ht⟩ (1 : Fin 2) * (1 : ℕ) + (1 : ℕ)
    rw [ef]
    omega

/-- THE OUTPUT ARRAY after the region: the specification's array, one function of the two arrays the region reads. -/
theorem final2 (c : Dev nD) :
    (dat2 (F := Ideal) V c).arrAt 2 cfg2.N
      = Cert.Spec.last (V c (Pipeline.arrRef spec2 0)) (V c (Pipeline.arrRef spec2 1)) :=
  (dat2 V c).arrAt_eq_of_cover 2 _ (fun t hf => flushed2_eq V c t hf) cover2

end Final

end Cert.KernelIdeal.Hand

end
-- ==== Proof.Val.Kernel.lean ====
/-
  The idealized kernel program's result as one function of its five argument arrays, at the ideal instance.

  Its @main alternates a small host product with a streamed `adj · X`: between the regions the buffers hold
      v0 = x · W₀,  v1 = relu (adj · v0),  v2 = v1 · W₁,  v3 = relu (adj · v2),  v4 = v3 · W₂,  v5 = σ (adj · v4),
  each host stretch's buffer at its product of what the stretch found, each region's output array at what its
  write-backs leave — one whole-array function of the two arrays the region reads. Read back through the
  boundaries the result buffer holds the network of the arguments.
-/
import proofs.«146614_j73212012528270_1_alg».proof.Proof.Val.Host
import proofs.«146614_j73212012528270_1_alg».proof.Proof.Val.Region0
import proofs.«146614_j73212012528270_1_alg».proof.Proof.Val.Region1
import proofs.«146614_j73212012528270_1_alg».proof.Proof.Val.Region2

set_option maxRecDepth 16384

noncomputable section

namespace Cert.KernelIdeal.Hand

open Idealize.ShloMosaic Idealize.ShloMosaic.TcCoe Idealize.ShloMosaic.StableHlo
open Idealize.SL Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The printed dimension numbers of the three small host products are those of the plain matrix product. -/
theorem dims_x_W0 : dot_S16384x1_S1x32_S16384x32_1_0_0_1_n_n = Dot2.mmDims 16384 1 32 Cert.Spec.wf_mm_16384_1_32 := rfl
theorem dims_h_W1 : dot_S16384x32_S32x32_S16384x32_1_0_0_1_n_n = Dot2.mmDims 16384 32 32 Cert.Spec.wf_mm_16384_32_32 := rfl
theorem dims_h_W2 : dot_S16384x32_S32x1_S16384x1_1_0_0_1_n_n = Dot2.mmDims 16384 32 1 Cert.Spec.wf_mm_16384_32_1 := rfl

/-- The arguments, named. -/
abbrev ax (c : Dev nD) : FVec Ideal S16384x1 .f32 := m ((c : Thread nD τ).loc main_arg0)
abbrev aA (c : Dev nD) : FVec Ideal S16384x16384 .f32 := m ((c : Thread nD τ).loc main_arg1)
abbrev aW0 (c : Dev nD) : FVec Ideal S1x32 .f32 := m ((c : Thread nD τ).loc main_arg2)
abbrev aW1 (c : Dev nD) : FVec Ideal S32x32 .f32 := m ((c : Thread nD τ).loc main_arg3)
abbrev aW2 (c : Dev nD) : FVec Ideal S32x1 .f32 := m ((c : Thread nD τ).loc main_arg4)

/-- `v0 = x · W₀`. -/
theorem v0_eq (c : Dev nD) :
    (W1 m ρ c (Proc.devRef .tc main_v0) : FVec Ideal S16384x32 .f32) = Cert.Spec.mm Cert.Spec.wf_mm_16384_1_32 (ax m c) (aW0 m c) := by
  rw [W1_v0, dims_x_W0]; rfl

/-- `v1 = relu (adj · v0)`: the first region's output array. -/
theorem v1_eq (c : Dev nD) :
    (W2 m ρ c (Proc.devRef .tc main_v1) : FVec Ideal S16384x32 .f32)
      = Cert.Spec.hidden (aA m c) (Cert.Spec.mm Cert.Spec.wf_mm_16384_1_32 (ax m c) (aW0 m c)) := by
  refine ((W2_arr m ρ c 2).trans (final0 (V1 m ρ) c)).trans ?_
  show Cert.Spec.hidden (W1 m ρ c (Proc.devRef .tc main_arg1)) (W1 m ρ c (Proc.devRef .tc main_v0)) = _
  rw [W1_adj, v0_eq]

/-- `v2 = v1 · W₁`. -/
theorem v2_eq (c : Dev nD) :
    (W3 m ρ c (Proc.devRef .tc main_v2) : FVec Ideal S16384x32 .f32)
      = Cert.Spec.mm Cert.Spec.wf_mm_16384_32_32 (Cert.Spec.hidden (aA m c) (Cert.Spec.mm Cert.Spec.wf_mm_16384_1_32 (ax m c) (aW0 m c))) (aW1 m c) := by
  rw [W3_v2, dims_h_W1, v1_eq, W2_W1]; rfl

/-- `v3 = relu (adj · v2)`: the second region's output array. -/
theorem v3_eq (c : Dev nD) :
    (W4 m ρ c (Proc.devRef .tc main_v3) : FVec Ideal S16384x32 .f32)
      = Cert.Spec.hidden (aA m c) (Cert.Spec.mm Cert.Spec.wf_mm_16384_32_32 (Cert.Spec.hidden (aA m c) (Cert.Spec.mm Cert.Spec.wf_mm_16384_1_32 (ax m c) (aW0 m c))) (aW1 m c)) := by
  refine ((W4_arr m ρ c 2).trans (final1 (V3 m ρ) c)).trans ?_
  show Cert.Spec.hidden (W3 m ρ c (Proc.devRef .tc main_arg1)) (W3 m ρ c (Proc.devRef .tc main_v2)) = _
  rw [W3_adj, v2_eq]

/-- `v4 = v3 · W₂`. -/
theorem v4_eq (c : Dev nD) :
    (W5 m ρ c (Proc.devRef .tc main_v4) : FVec Ideal S16384x1 .f32)
      = Cert.Spec.mm Cert.Spec.wf_mm_16384_32_1 (Cert.Spec.hidden (aA m c) (Cert.Spec.mm Cert.Spec.wf_mm_16384_32_32 (Cert.Spec.hidden (aA m c) (Cert.Spec.mm Cert.Spec.wf_mm_16384_1_32 (ax m c) (aW0 m c))) (aW1 m c))) (aW2 m c) := by
  rw [W5_v4, dims_h_W2, v3_eq, W4_W2]; rfl

/-- THE RESULT: the program's result buffer at the return is the network of the five argument arrays. -/
theorem kernel_value (c : Dev nD) :
    (W6 m ρ c (Proc.devRef .tc main_v5) : FVec Ideal S16384x1 .f32) = Cert.Spec.G (ax m c) (aA m c) (aW0 m c) (aW1 m c) (aW2 m c) := by
  refine ((W6_main_v5 m ρ c).trans (final2 (V5 m ρ) c)).trans ?_
  show Cert.Spec.last (W5 m ρ c (Proc.devRef .tc main_arg1)) (W5 m ρ c (Proc.devRef .tc main_v4)) = _
  rw [W5_adj, v4_eq]; rfl

end Cert.KernelIdeal.Hand

end
-- ==== Proof.Val.Ref.lean ====
import proofs.«146614_j73212012528270_1_alg».proof.Defs
import proofs.«146614_j73212012528270_1_alg».proof.Proof.Gen.ReferenceIdeal.Run
import proofs.«146614_j73212012528270_1_alg».proof.Proof.Gen.ReferenceIdeal.Read
import proofs.«146614_j73212012528270_1_alg».proof.Proof.Val.Spec
import Idealize.ShloMosaic.Lib.IdealHost

/-
  The reference program's result, as its run composes it from the five argument arrays, is the
  network `Cert.Spec.G` of those arrays on the extended reals.

  The two terms are the same composition of the same six matrix products, two rectifiers and one
  logistic function, and differ in three spellings only:
  * each product's dimension numbers: the program's record and the plain `[M, K] × [K, N]` record
    have the same six lists (contract the left operand's axis 1 with the right operand's axis 0, no
    batch axis), and a record's well-formedness proof does not matter;
  * the rectifier's zero: a rank-0 array holding the pattern of `0` broadcast to the layer's shape,
    against the scalar of the same pattern broadcast: either way every entry is that one scalar;
  * the logistic function: the program spells `1 / (1 + e^(-y))` entry by entry with the pattern
    `0x3F800000`, which denotes the extended real `1`, and on the extended reals the logistic
    function is by definition `1 / (1 + e^(-y))`, the quotient and the exponential being the
    extended reals' own.
  No product is opened and no sum is evaluated: the products stand on both sides as they are.
-/

noncomputable section

namespace Cert.ReferenceIdeal.RefValue

open Cert.ReferenceIdeal Cert.ReferenceIdeal.Gen Idealize.ShloMosaic Idealize.ShloMosaic.Dot2

/-! ## The dimension numbers -/

/-- `[16384, 1] × [1, 32]`: the program's record is the plain matrix product's. -/
theorem dims_x_W0 :
    dot_S16384x1_S1x32_S16384x32_1_0_0_1_n_n = mmDims 16384 1 32 Cert.Spec.wf_mm_16384_1_32 := rfl

/-- `[16384, 16384] × [16384, 32]`: the program's record is the plain matrix product's. -/
theorem dims_A_32 :
    dot_S16384x16384_S16384x32_S16384x32_1_0_0_1_n_n = mmDims 16384 16384 32 Cert.Spec.wf_mm_16384_16384_32 := rfl

/-- `[16384, 32] × [32, 32]`: the program's record is the plain matrix product's. -/
theorem dims_h_W1 :
    dot_S16384x32_S32x32_S16384x32_1_0_0_1_n_n = mmDims 16384 32 32 Cert.Spec.wf_mm_16384_32_32 := rfl

/-- `[16384, 32] × [32, 1]`: the program's record is the plain matrix product's. -/
theorem dims_h_W2 :
    dot_S16384x32_S32x1_S16384x1_1_0_0_1_n_n = mmDims 16384 32 1 Cert.Spec.wf_mm_16384_32_1 := rfl

/-- `[16384, 16384] × [16384, 1]`: the program's record is the plain matrix product's. -/
theorem dims_A_1 :
    dot_S16384x16384_S16384x1_S16384x1_1_0_0_1_n_n = mmDims 16384 16384 1 Cert.Spec.wf_mm_16384_16384_1 := rfl

/-! ## The rectifier's zero -/

/-- The rank-0 array of the pattern of zero, broadcast to `[16384, 32]`, is the scalar of that
    pattern broadcast: at every index both read the one scalar. -/
theorem zero_bcast :
    broadcastInDim S16384x32 ![] bcast_S_S16384x32 (constant (F := Ideal) S_ .f32 0x00000000#32)
      = broadcast S16384x32 (Scalar.ofBits (F := Ideal) .f32 0x00000000#32) :=
  funext fun _ => rfl

/-- `max v 0` entry by entry, in the program's spelling of the zero, is the specification's rectifier. -/
theorem relu_eq (v : FVec Ideal S16384x32 .f32) :
    maximumf v (broadcastInDim S16384x32 ![] bcast_S_S16384x32 (constant (F := Ideal) S_ .f32 0x00000000#32))
      = Cert.Spec.relu v :=
  congrArg (maximumf v) zero_bcast

/-! ## The logistic function -/

/-- The rank-0 array of the pattern `0x3F800000`, broadcast to `[16384, 1]`, reads the extended real
    `1` at every index. -/
theorem one_bcast (i : S16384x1.Idx) :
    broadcastInDim S16384x1 ![] bcast_S_S16384x1 (constant (F := Ideal) S_ .f32 0x3F800000#32) i = (1 : EReal) :=
  Ideal.ofBits_one_f32

/-- `1 / (1 + e^(-y))` entry by entry, in the host's quotient, sum, exponential and negation, is the
    logistic function of `y` entry by entry. -/
theorem logistic_eq (y : FVec Ideal S16384x1 .f32) :
    Host.divf (broadcastInDim S16384x1 ![] bcast_S_S16384x1 (constant (F := Ideal) S_ .f32 0x3F800000#32))
        (addf (broadcastInDim S16384x1 ![] bcast_S_S16384x1 (constant (F := Ideal) S_ .f32 0x3F800000#32))
          (Host.exp (Host.negf y)))
      = logistic y := by
  funext i
  show Ideal.div
      (broadcastInDim S16384x1 ![] bcast_S_S16384x1 (constant (F := Ideal) S_ .f32 0x3F800000#32) i)
      (broadcastInDim S16384x1 ![] bcast_S_S16384x1 (constant (F := Ideal) S_ .f32 0x3F800000#32) i
        + Ideal.exp (-(y i)))
    = Ideal.div 1 (1 + Ideal.exp (-(y i)))
  rw [one_bcast i]

/-! ## The result -/

variable (x : FVec Ideal S16384x1 .f32) (A : FVec Ideal S16384x16384 .f32) (W0 : FVec Ideal S1x32 .f32)
  (W1 : FVec Ideal S32x32 .f32) (W2 : FVec Ideal S32x1 .f32)

/-- The first hidden layer: the program's `max (A · (x · W₀)) 0` is the specification's. -/
theorem layer1_eq :
    maximumf (Host.dotGeneral dot_S16384x16384_S16384x32_S16384x32_1_0_0_1_n_n none A
        (Host.dotGeneral dot_S16384x1_S1x32_S16384x32_1_0_0_1_n_n none x W0))
      (broadcastInDim S16384x32 ![] bcast_S_S16384x32 (constant (F := Ideal) S_ .f32 0x00000000#32))
      = Cert.Spec.hidden A (Cert.Spec.mm Cert.Spec.wf_mm_16384_1_32 x W0) := by
  rw [relu_eq, dims_A_32, dims_x_W0]
  rfl

/-- One further hidden layer over any `[16384, 32]` array `h`: the program's `max (A · (h · W₁)) 0`
    is the specification's. -/
theorem layer2_eq (h : FVec Ideal S16384x32 .f32) :
    maximumf (Host.dotGeneral dot_S16384x16384_S16384x32_S16384x32_1_0_0_1_n_n none A
        (Host.dotGeneral dot_S16384x32_S32x32_S16384x32_1_0_0_1_n_n none h W1))
      (broadcastInDim S16384x32 ![] bcast_S_S16384x32 (constant (F := Ideal) S_ .f32 0x00000000#32))
      = Cert.Spec.hidden A (Cert.Spec.mm Cert.Spec.wf_mm_16384_32_32 h W1) := by
  rw [relu_eq, dims_A_32, dims_h_W1]
  rfl

/-- The last layer over any `[16384, 32]` array `h`: the program's `1 / (1 + e^(-(A · (h · W₂))))` is
    the specification's `σ (A · (h · W₂))`. -/
theorem layer3_eq (h : FVec Ideal S16384x32 .f32) :
    Host.divf (broadcastInDim S16384x1 ![] bcast_S_S16384x1 (constant (F := Ideal) S_ .f32 0x3F800000#32))
        (addf (broadcastInDim S16384x1 ![] bcast_S_S16384x1 (constant (F := Ideal) S_ .f32 0x3F800000#32))
          (Host.exp (Host.negf (Host.dotGeneral dot_S16384x16384_S16384x1_S16384x1_1_0_0_1_n_n none A
            (Host.dotGeneral dot_S16384x32_S32x1_S16384x1_1_0_0_1_n_n none h W2)))))
      = Cert.Spec.last A (Cert.Spec.mm Cert.Spec.wf_mm_16384_32_1 h W2) := by
  rw [logistic_eq, dims_A_1, dims_h_W2]
  rfl

/-- The reference's result buffer, as its run states it in the argument arrays, is the network
    `Cert.Spec.G` of them. -/
theorem result_eq :
    Host.divf (broadcastInDim S16384x1 ![] bcast_S_S16384x1 (constant (F := Ideal) S_ .f32 0x3F800000#32)) (addf (broadcastInDim S16384x1 ![] bcast_S_S16384x1 (constant (F := Ideal) S_ .f32 0x3F800000#32)) (Host.exp (Host.negf (Host.dotGeneral dot_S16384x16384_S16384x1_S16384x1_1_0_0_1_n_n none A (Host.dotGeneral dot_S16384x32_S32x1_S16384x1_1_0_0_1_n_n none (maximumf (Host.dotGeneral dot_S16384x16384_S16384x32_S16384x32_1_0_0_1_n_n none A (Host.dotGeneral dot_S16384x32_S32x32_S16384x32_1_0_0_1_n_n none (maximumf (Host.dotGeneral dot_S16384x16384_S16384x32_S16384x32_1_0_0_1_n_n none A (Host.dotGeneral dot_S16384x1_S1x32_S16384x32_1_0_0_1_n_n none x W0)) (broadcastInDim S16384x32 ![] bcast_S_S16384x32 (constant (F := Ideal) S_ .f32 0x00000000#32))) W1)) (broadcastInDim S16384x32 ![] bcast_S_S16384x32 (constant (F := Ideal) S_ .f32 0x00000000#32))) W2)))))
      = Cert.Spec.G x A W0 W1 W2 := by
  rw [layer3_eq, layer2_eq, layer1_eq]
  rfl

end Cert.ReferenceIdeal.RefValue

end
-- ==== Proof.lean ====
/-
  Three stacked graph-convolution layers over a dense adjacency matrix, `out = σ (A · (relu (A · (relu (A · (x · W₀)) · W₁)) · W₂))`:
  the kernel program streams each product `A · X` through a pipelined kernel that accumulates 8 column blocks of a
  `1024`-row block in a scratch accumulator, the reference computes it as one product. On the extended reals the two are
  one function of the five arguments: a sum over `16384` indices taken as 8 sums over `2048`, the same relu, and the
  logistic function either as one operation or spelt `1 / (1 + e^(-v))`.

  The three frames: each kernel program's run is followed region by region and host stretch by host stretch (the
  buffers' contents at every boundary named), the reference's is its host operations' run. Nothing of the ideal
  pass's ledger to preserve: it is empty.
-/
import proofs.«146614_j73212012528270_1_alg».proof.Defs
import proofs.«146614_j73212012528270_1_alg».proof.Proof.Gen.Kernel
import proofs.«146614_j73212012528270_1_alg».proof.Proof.Gen.KernelIdeal
import proofs.«146614_j73212012528270_1_alg».proof.Proof.Gen.ReferenceIdeal
import proofs.«146614_j73212012528270_1_alg».proof.Proof.Gen.Pre_finite_inputs
import proofs.«146614_j73212012528270_1_alg».proof.Proof.K.Run
import proofs.«146614_j73212012528270_1_alg».proof.Proof.KI.Run
import proofs.«146614_j73212012528270_1_alg».proof.Proof.Val.Kernel
import proofs.«146614_j73212012528270_1_alg».proof.Proof.Val.Ref

noncomputable section

namespace Cert.Proof

open Idealize.ShloMosaic Idealize.ShloMosaic.TcCoe Idealize.SL.Sem

/-- The word-level kernel program runs and leaves its arguments as launched. -/
theorem frame_k : @Cert.frame_Kernel Cert.Kernel.Gen.facts Cert.Pre_finite_inputs.Gen.facts :=
  fun m ρ _ => Cert.Kernel.Hand.frame m ρ

/-- The idealized kernel program runs and leaves its arguments as launched. -/
theorem frame_ki : @Cert.frame_KernelIdeal Cert.KernelIdeal.Gen.facts Cert.Pre_finite_inputs.Gen.facts :=
  fun m ρ _ => Cert.KernelIdeal.Hand.frame m ρ

/-- The reference runs (its host operations' run, the result dropped) and leaves its arguments as launched. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both idealized programs end with the network of the arguments in their result buffer. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.G (Cert.KernelIdeal.Hand.ax m c) (Cert.KernelIdeal.Hand.aA m c) (Cert.KernelIdeal.Hand.aW0 m c)
    (Cert.KernelIdeal.Hand.aW1 m c) (Cert.KernelIdeal.Hand.aW2 m c), ?_, ?_⟩
  · exact (θ_run Cert.KernelIdeal.defs _ _).mono (fun r h c =>
      ⟨(h c _ (Cert.KernelIdeal.Hand.mem_uc Cert.KernelIdeal.main_v5 (by decide))).trans (Cert.KernelIdeal.Hand.kernel_value m ρ c),
       (h c _ (Cert.KernelIdeal.Hand.mem_uc Cert.KernelIdeal.main_arg0 (by decide))).trans (Cert.KernelIdeal.Hand.W6_main_arg0 m ρ c),
       (h c _ (Cert.KernelIdeal.Hand.mem_uc Cert.KernelIdeal.main_arg1 (by decide))).trans (Cert.KernelIdeal.Hand.W6_main_arg1 m ρ c),
       (h c _ (Cert.KernelIdeal.Hand.mem_uc Cert.KernelIdeal.main_arg2 (by decide))).trans (Cert.KernelIdeal.Hand.W6_main_arg2 m ρ c),
       (h c _ (Cert.KernelIdeal.Hand.mem_uc Cert.KernelIdeal.main_arg3 (by decide))).trans (Cert.KernelIdeal.Hand.W6_main_arg3 m ρ c),
       (h c _ (Cert.KernelIdeal.Hand.mem_uc Cert.KernelIdeal.main_arg4 (by decide))).trans (Cert.KernelIdeal.Hand.W6_main_arg4 m ρ c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
